-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x20 : Shape := ⟨3, ![4, 2048, 20]⟩
abbrev S4x2048x30x400 : Shape := ⟨4, ![4, 2048, 30, 400]⟩
abbrev S4x2048x30 : Shape := ⟨3, ![4, 2048, 30]⟩
abbrev S4x2048 : Shape := ⟨2, ![4, 2048]⟩
abbrev S20 : Shape := ⟨1, ![20]⟩
abbrev S_ : Shape := ⟨0, ![]⟩

class Facts : Prop where
  bcast_S_S4x2048x20 : S_.BroadcastsInDim S4x2048x20 (![] : Fin 0 → Fin S4x2048x20.rank)
  reducesTo_S4x2048x20_S_d0_1_2 : S4x2048x20.ReducesTo [0, 1, 2] S_
  h_S_ : 0 < S_.numel
  bcast_S_S4x2048x30x400 : S_.BroadcastsInDim S4x2048x30x400 (![] : Fin 0 → Fin S4x2048x30x400.rank)
  reducesTo_S4x2048x30x400_S_d0_1_2_3 : S4x2048x30x400.ReducesTo [0, 1, 2, 3] S_
  bcast_S_S4x2048 : S_.BroadcastsInDim S4x2048 (![] : Fin 0 → Fin S4x2048.rank)
  reducesTo_S4x2048_S_d0_1 : S4x2048.ReducesTo [0, 1] S_
  bcast_S_S20 : S_.BroadcastsInDim S20 (![] : Fin 0 → Fin S20.rank)
  reducesTo_S20_S_d0 : S20.ReducesTo [0] S_
  bcast_S_S4x2048x30 : S_.BroadcastsInDim S4x2048x30 (![] : Fin 0 → Fin S4x2048x30.rank)
  reducesTo_S4x2048x30_S_d0_1_2 : S4x2048x30.ReducesTo [0, 1, 2] S_

variable [Facts]

def fn_part2 {F : FTy → Type} [FloatOps F] (main_arg3 : IVec S4x2048 32) (main_v30 : IVec S_ 1) (main_v32 : IVec S4x2048 1) (main_c_12 : IVec S_ 32) : IVec S_ 1 :=
  let main_v33 : IVec S4x2048 32 := broadcastInDim S4x2048 ![] bcast_S_S4x2048 main_c_12
  let main_v34 : IVec S4x2048 1 := cmpi .slt main_arg3 main_v33
  let main_v35 : IVec S4x2048 1 := andi main_v32 main_v34
  let main_c_13 : IVec S_ 1 := constantI S_ 1 1#1
  let main_v36 : IVec S_ 1 := (fun x v => Host.reduce IntOp.andi x v reducesTo_S4x2048_S_d0_1 h_S_) main_v35 main_c_13
  let main_v37 : IVec S_ 1 := andi main_v30 main_v36
  main_v37

def fn_part1 {F : FTy → Type} [FloatOps F] (main_arg2 : IVec S4x2048x30 32) (main_arg3 : IVec S4x2048 32) (main_arg6 : FVec F S20 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20 .f32 := Host.absf main_arg6
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_c_8 : IVec S_ 32 := constantI S_ 32 0#32
  let main_v24 : IVec S4x2048x30 32 := broadcastInDim S4x2048x30 ![] bcast_S_S4x2048x30 main_c_8
  let main_v25 : IVec S4x2048x30 1 := cmpi .sge main_arg2 main_v24
  let main_c_9 : IVec S_ 32 := constantI S_ 32 2048#32
  let main_v26 : IVec S4x2048x30 32 := broadcastInDim S4x2048x30 ![] bcast_S_S4x2048x30 main_c_9
  let main_v27 : IVec S4x2048x30 1 := cmpi .slt main_arg2 main_v26
  let main_v28 : IVec S4x2048x30 1 := andi main_v25 main_v27
  let main_c_10 : IVec S_ 1 := constantI S_ 1 1#1
  let main_v29 : IVec S_ 1 := (fun x v => Host.reduce IntOp.andi x v reducesTo_S4x2048x30_S_d0_1_2 h_S_) main_v28 main_c_10
  let main_v30 : IVec S_ 1 := andi main_v23 main_v29
  let main_c_11 : IVec S_ 32 := constantI S_ 32 0#32
  let main_v31 : IVec S4x2048 32 := broadcastInDim S4x2048 ![] bcast_S_S4x2048 main_c_11
  let main_v32 : IVec S4x2048 1 := cmpi .sge main_arg3 main_v31
  let main_c_12 : IVec S_ 32 := constantI S_ 32 20#32
  fn_part2 (F := F) main_arg3 main_v30 main_v32 main_c_12

def fn {F : FTy → Type} [FloatOps F] (main_arg0 : FVec F S4x2048x20 .f32) (main_arg1 : FVec F S4x2048x30x400 .f32) (main_arg2 : IVec S4x2048x30 32) (main_arg3 : IVec S4x2048 32) (main_arg4 : FVec F S4x2048 .f32) (main_arg5 : FVec F S20 .f32) (main_arg6 : FVec F S20 .f32) : IVec S_ 1 :=
  let main_v0 : FVec F S4x2048x20 .f32 := Host.absf main_arg0
  let main_cst : FVec F S_ .f32 := constant S_ .f32 0x7F800000#32
  let main_v1 : FVec F S4x2048x20 .f32 := broadcastInDim S4x2048x20 ![] bcast_S_S4x2048x20 main_cst
  let main_v2 : IVec S4x2048x20 1 := cmpf .olt main_v0 main_v1
  let main_c : IVec S_ 1 := constantI S_ 1 1#1
  let main_v3 : IVec S_ 1 := (fun x v => Host.reduce IntOp.andi x v reducesTo_S4x2048x20_S_d0_1_2 h_S_) main_v2 main_c
  let main_v4 : FVec F S4x2048x30x400 .f32 := Host.absf main_arg1
  let main_cst_0 : FVec F S_ .f32 := constant S_ .f32 0x7F800000#32
  let main_v5 : FVec F S4x2048x30x400 .f32 := broadcastInDim S4x2048x30x400 ![] bcast_S_S4x2048x30x400 main_cst_0
  let main_v6 : IVec S4x2048x30x400 1 := cmpf .olt main_v4 main_v5
  let main_c_1 : IVec S_ 1 := constantI S_ 1 1#1
  let main_v7 : IVec S_ 1 := (fun x v => Host.reduce IntOp.andi x v reducesTo_S4x2048x30x400_S_d0_1_2_3 h_S_) main_v6 main_c_1
  let main_v8 : IVec S_ 1 := andi main_v3 main_v7
  let main_v9 : FVec F S4x2048 .f32 := Host.absf main_arg4
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S20 .f32 := Host.absf main_arg5
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg2 main_arg3 main_arg6 main_v13 main_v16
-- ==== Kernel.lean ====
abbrev S4x2048x20 : Shape := ⟨3, ![4, 2048, 20]⟩
abbrev S4x2048x30x400 : Shape := ⟨4, ![4, 2048, 30, 400]⟩
abbrev S4x2048x30 : Shape := ⟨3, ![4, 2048, 30]⟩
abbrev S4x2048 : Shape := ⟨2, ![4, 2048]⟩
abbrev S20 : Shape := ⟨1, ![20]⟩
abbrev S400 : Shape := ⟨1, ![400]⟩
abbrev S4x2048x29 : Shape := ⟨3, ![4, 2048, 29]⟩
abbrev S4x2048x1 : Shape := ⟨3, ![4, 2048, 1]⟩
abbrev S_ : Shape := ⟨0, ![]⟩
abbrev S4x2048x29x1 : Shape := ⟨4, ![4, 2048, 29, 1]⟩
abbrev S1 : Shape := ⟨1, ![1]⟩
abbrev S1x1x1x1 : Shape := ⟨4, ![1, 1, 1, 1]⟩
abbrev S4x32x30x400 : Shape := ⟨4, ![4, 32, 30, 400]⟩
abbrev S4x32x20 : Shape := ⟨3, ![4, 32, 20]⟩
abbrev S4x32x30 : Shape := ⟨3, ![4, 32, 30]⟩
abbrev S4x32x1 : Shape := ⟨3, ![4, 32, 1]⟩
abbrev S4x32x30x1 : Shape := ⟨4, ![4, 32, 30, 1]⟩
abbrev S1x1x1x400 : Shape := ⟨4, ![1, 1, 1, 400]⟩
abbrev S4x32x400 : Shape := ⟨3, ![4, 32, 400]⟩
abbrev S4x32x20x20 : Shape := ⟨4, ![4, 32, 20, 20]⟩
abbrev S4x32 : Shape := ⟨2, ![4, 32]⟩
abbrev S1x1x20 : Shape := ⟨3, ![1, 1, 20]⟩
abbrev S4 : Shape := ⟨1, ![4]⟩

abbrev nBuf : Space → Nat
  | .hbm => 50
  | .vmem => 15
  | .smem => 0
  | _ => 0

abbrev bufTy : (tb : Table) → Fin (tcTables nBuf tb) → BufTy
  | .hbm, ⟨0, _⟩ => ⟨S4x2048x20, .f32⟩
  | .hbm, ⟨1, _⟩ => ⟨S4x2048x30x400, .f32⟩
  | .hbm, ⟨2, _⟩ => ⟨S4x2048x30, .i32⟩
  | .hbm, ⟨3, _⟩ => ⟨S4x2048, .i32⟩
  | .hbm, ⟨4, _⟩ => ⟨S4x2048, .f32⟩
  | .hbm, ⟨5, _⟩ => ⟨S20, .f32⟩
  | .hbm, ⟨6, _⟩ => ⟨S20, .f32⟩
  | .hbm, ⟨7, _⟩ => ⟨S400, .i32⟩
  | .hbm, ⟨8, _⟩ => ⟨S4x2048x29, .i32⟩
  | .hbm, ⟨9, _⟩ => ⟨S4x2048x1, .i32⟩
  | .hbm, ⟨10, _⟩ => ⟨S4x2048x29, .i32⟩
  | .hbm, ⟨11, _⟩ => ⟨S_, .i32⟩
  | .hbm, ⟨12, _⟩ => ⟨S4x2048x29, .i32⟩
  | .hbm, ⟨13, _⟩ => ⟨S4x2048x29, .i1⟩
  | .hbm, ⟨14, _⟩ => ⟨S_, .i32⟩
  | .hbm, ⟨15, _⟩ => ⟨S4x2048x29, .i32⟩
  | .hbm, ⟨16, _⟩ => ⟨S4x2048x29, .i32⟩
  | .hbm, ⟨17, _⟩ => ⟨S4x2048x29, .i32⟩
  | .hbm, ⟨18, _⟩ => ⟨S4x2048x29x1, .i32⟩
  | .hbm, ⟨19, _⟩ => ⟨S1, .i32⟩
  | .hbm, ⟨20, _⟩ => ⟨S_, .i32⟩
  | .hbm, ⟨21, _⟩ => ⟨S4x2048x29x1, .i32⟩
  | .hbm, ⟨22, _⟩ => ⟨S4x2048x29x1, .i1⟩
  | .hbm, ⟨23, _⟩ => ⟨S1x1x1x1, .i32⟩
  | .hbm, ⟨24, _⟩ => ⟨S4x2048x29x1, .i32⟩
  | .hbm, ⟨25, _⟩ => ⟨S4x2048x29x1, .i1⟩
  | .hbm, ⟨26, _⟩ => ⟨S4x2048x29x1, .i1⟩
  | .hbm, ⟨27, _⟩ => ⟨S_, .i1⟩
  | .hbm, ⟨28, _⟩ => ⟨S4x2048x29, .i1⟩
  | .hbm, ⟨29, _⟩ => ⟨S4x2048x29, .i32⟩
  | .hbm, ⟨30, _⟩ => ⟨S_, .i32⟩
  | .hbm, ⟨31, _⟩ => ⟨S4x2048x29, .i32⟩
  | .hbm, ⟨32, _⟩ => ⟨S4x2048x29, .i32⟩
  | .hbm, ⟨33, _⟩ => ⟨S_, .i32⟩
  | .hbm, ⟨34, _⟩ => ⟨S4x2048x1, .i32⟩
  | .hbm, ⟨35, _⟩ => ⟨S4x2048x30, .i32⟩
  | .hbm, ⟨36, _⟩ => ⟨S4x2048x1, .i32⟩
  | .hbm, ⟨37, _⟩ => ⟨S4x2048x1, .f32⟩
  | .hbm, ⟨38, _⟩ => ⟨S4x2048x1, .f32⟩
  | .hbm, ⟨39, _⟩ => ⟨S4x2048, .f32⟩
  | .hbm, ⟨40, _⟩ => ⟨S_, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S4x32x30x400, .f32⟩
  | .local _ .vmem, ⟨1, _⟩ => ⟨S4x32x30x400, .f32⟩
  | .local _ .vmem, ⟨2, _⟩ => ⟨S4x32x20, .f32⟩
  | .local _ .vmem, ⟨3, _⟩ => ⟨S4x32x20, .f32⟩
  | .local _ .vmem, ⟨4, _⟩ => ⟨S4x32x30, .i32⟩
  | .local _ .vmem, ⟨5, _⟩ => ⟨S4x32x30, .i32⟩
  | .local _ .vmem, ⟨6, _⟩ => ⟨S4x32x1, .i32⟩
  | .local _ .vmem, ⟨7, _⟩ => ⟨S4x32x1, .i32⟩
  | .local _ .vmem, ⟨8, _⟩ => ⟨S4x32x1, .f32⟩
  | .local _ .vmem, ⟨9, _⟩ => ⟨S4x32x1, .f32⟩
  | .local _ .vmem, ⟨10, _⟩ => ⟨S20, .f32⟩
  | .local _ .vmem, ⟨11, _⟩ => ⟨S20, .f32⟩
  | .local _ .vmem, ⟨12, _⟩ => ⟨S400, .i32⟩
  | .local _ .vmem, ⟨13, _⟩ => ⟨S4x32x1, .f32⟩
  | .local _ .vmem, ⟨14, _⟩ => ⟨S4x32x1, .f32⟩
  | _, _ => ⟨S4x2048x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v3 : Ref sig .tc := ⟨.hbm, 32, rfl⟩
abbrev main_c_0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x32x30x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x30 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x32x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S4x2048x30_S4x2048x29_0_0_1 : S4x2048x30.Slices ![0, 0, 1] S4x2048x29
  bcast_S4x2048_S4x2048x1_0_1 : S4x2048.BroadcastsInDim S4x2048x1 (![0, 1] : Fin 2 → Fin S4x2048x1.rank)
  bcast_S4x2048x1_S4x2048x29_0_1_2 : S4x2048x1.BroadcastsInDim S4x2048x29 (![0, 1, 2] : Fin 3 → Fin S4x2048x29.rank)
  bcast_S_S4x2048x29 : S_.BroadcastsInDim S4x2048x29 (![] : Fin 0 → Fin S4x2048x29.rank)
  shapeCasts_S4x2048x29_S4x2048x29x1 : S4x2048x29.ShapeCasts S4x2048x29x1
  bcast_S_S4x2048x29x1 : S_.BroadcastsInDim S4x2048x29x1 (![] : Fin 0 → Fin S4x2048x29x1.rank)
  bcast_S1_S1x1x1x1_3 : S1.BroadcastsInDim S1x1x1x1 (![3] : Fin 1 → Fin S1x1x1x1.rank)
  bcast_S1x1x1x1_S4x2048x29x1_0_1_2_3 : S1x1x1x1.BroadcastsInDim S4x2048x29x1 (![0, 1, 2, 3] : Fin 4 → Fin S4x2048x29x1.rank)
  reducesTo_S4x2048x29x1_S4x2048x29_d3 : S4x2048x29x1.ReducesTo [3] S4x2048x29
  h_S_ : 0 < S_.numel
  bcast_S_S4x2048x1 : S_.BroadcastsInDim S4x2048x1 (![] : Fin 0 → Fin S4x2048x1.rank)
  concatenates_S4x2048x1_S4x2048x29_S4x2048x30_d2 : Shape.Concatenates [S4x2048x1, S4x2048x29] S4x2048x30 2
  inb_S400_S400_0 : ∀ a, (![0] : Fin 1 → Nat) a + S400.size a ≤ S400.size a
  h_S400 : 0 < S400.numel
  inb_S4x32x30_S4x32x30_0_0_0 : ∀ a, (![0, 0, 0] : Fin 3 → Nat) a + S4x32x30.size a ≤ S4x32x30.size a
  h_S4x32x30 : 0 < S4x32x30.numel
  shapeCasts_S4x32x30_S4x32x30 : S4x32x30.ShapeCasts S4x32x30
  shapeCasts_S4x32x30_S4x32x30x1 : S4x32x30.ShapeCasts S4x32x30x1
  shapeCasts_S400_S1x1x1x400 : S400.ShapeCasts S1x1x1x400
  broadcasts_S4x32x30x1_S4x32x30x400 : S4x32x30x1.Broadcasts S4x32x30x400
  broadcasts_S1x1x1x400_S4x32x30x400 : S1x1x1x400.Broadcasts S4x32x30x400
  natLt_1_32 : 1 < 32
  inb_S4x32x30x400_S4x32x30x400_0_0_0_0 : ∀ a, (![0, 0, 0, 0] : Fin 4 → Nat) a + S4x32x30x400.size a ≤ S4x32x30x400.size a
  h_S4x32x30x400 : 0 < S4x32x30x400.numel
  reduces_S4x32x30x400_S4x32x400 : S4x32x30x400.Reduces [2] S4x32x400
  shapeCasts_S4x32x400_S4x32x20x20 : S4x32x400.ShapeCasts S4x32x20x20
  reduces_S4x32x20x20_S4x32x20 : S4x32x20x20.Reduces [3] S4x32x20
  inb_S4x32x20_S4x32x20_0_0_0 : ∀ a, (![0, 0, 0] : Fin 3 → Nat) a + S4x32x20.size a ≤ S4x32x20.size a
  h_S4x32x20 : 0 < S4x32x20.numel
  reduces_S4x32x20_S4x32 : S4x32x20.Reduces [2] S4x32
  shapeCasts_S4x32_S4x32x1 : S4x32.ShapeCasts S4x32x1
  broadcasts_S4x32x1_S4x32x20 : S4x32x1.Broadcasts S4x32x20
  inb_S20_S20_0 : ∀ a, (![0] : Fin 1 → Nat) a + S20.size a ≤ S20.size a
  h_S20 : 0 < S20.numel
  shapeCasts_S20_S1x1x20 : S20.ShapeCasts S1x1x20
  broadcasts_S1x1x20_S4x32x20 : S1x1x20.Broadcasts S4x32x20
  inb_S4x32x1_S4x32x1_0_0_0 : ∀ a, (![0, 0, 0] : Fin 3 → Nat) a + S4x32x1.size a ≤ S4x32x1.size a
  h_S4x32x1 : 0 < S4x32x1.numel
  shapeCasts_S4x32x1_S4x32x1 : S4x32x1.ShapeCasts S4x32x1
  iota_S4x32x20_d2_w32 : S4x32x20.Iotas .tc 32 [2]
  shapeCasts_S4x2048x1_S4x2048 : S4x2048x1.ShapeCasts S4x2048
  reducesTo_S4x2048_S4_d1 : S4x2048.ReducesTo [1] S4
  reducesTo_S4_S_d0 : S4.ReducesTo [0] S_
  gather_S4x2048x29_S4x2048x29x1_S4x2048x29_n_1_02_02_1_3_111_wf : GatherDims.WF S4x2048x29 S4x2048x29x1 S4x2048x29 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x30x400.size a ≤ S4x2048x30x400.size a
  hwx0_0 : ∀ i : grid0.Coords, EltTy.bits .f32 = 32 ∨ (Rect.block (s := S4x2048x30x400) S4x32x30x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32x20.size a ≤ S4x2048x20.size a
  hwx0_1 : ∀ i : grid0.Coords, EltTy.bits .f32 = 32 ∨ (Rect.block (s := S4x2048x20) S4x32x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x32x30.size a ≤ S4x2048x30.size a
  hwx0_2 : ∀ i : grid0.Coords, EltTy.bits .i32 = 32 ∨ (Rect.block (s := S4x2048x30) S4x32x30.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x32x1.size a ≤ S4x2048x1.size a
  hwx0_3 : ∀ i : grid0.Coords, EltTy.bits .i32 = 32 ∨ (Rect.block (s := S4x2048x1) S4x32x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x32x1.size a ≤ S4x2048x1.size a
  hwx0_4 : ∀ i : grid0.Coords, EltTy.bits .f32 = 32 ∨ (Rect.block (s := S4x2048x1) S4x32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20.size a ≤ S20.size a
  hwx0_5 : ∀ i : grid0.Coords, EltTy.bits .f32 = 32 ∨ (Rect.block (s := S20) S20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20.size a ≤ S20.size a
  hwx0_6 : ∀ i : grid0.Coords, EltTy.bits .f32 = 32 ∨ (Rect.block (s := S20) S20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400.size a ≤ S400.size a
  hwx0_7 : ∀ i : grid0.Coords, EltTy.bits .i32 = 32 ∨ (Rect.block (s := S400) S400.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x32x1.size a ≤ S4x2048x1.size a
  hwx0_8 : ∀ i : grid0.Coords, EltTy.bits .f32 = 32 ∨ (Rect.block (s := S4x2048x1) S4x32x1.size (cc0_transform_8 i) (hinb0_8 i)).WholeWords (EltTy.packing .f32)

variable [Facts₀]

def gather_S4x2048x29_S4x2048x29x1_S4x2048x29_n_1_02_02_1_3_111 : GatherDims S4x2048x29 S4x2048x29x1 S4x2048x29 where
  offsetDims := []
  collapsedSliceDims := [1]
  operandBatchingDims := [0, 2]
  startIndicesBatchingDims := [0, 2]
  startIndexMap := [1]
  indexVectorDim := 3
  sliceSizes := ![1, 1, 1]
  wf := gather_S4x2048x29_S4x2048x29x1_S4x2048x29_n_1_02_02_1_3_111_wf

abbrev win0_0 : Pipeline.Window sig grid0 :=
  Pipeline.Window.ofSpec (Memref.whole main_arg1) S4x32x30x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x32x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x32x30.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x32x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_c) S400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S4x32x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x20 : Shape := ⟨3, ![4, 2048, 20]⟩
abbrev S4x2048x30x400 : Shape := ⟨4, ![4, 2048, 30, 400]⟩
abbrev S4x2048x30 : Shape := ⟨3, ![4, 2048, 30]⟩
abbrev S4x2048 : Shape := ⟨2, ![4, 2048]⟩
abbrev S20 : Shape := ⟨1, ![20]⟩
abbrev S4x2048x30x20x20 : Shape := ⟨5, ![4, 2048, 30, 20, 20]⟩
abbrev S4x2048x29x20x20 : Shape := ⟨5, ![4, 2048, 29, 20, 20]⟩
abbrev S4x2048x29 : Shape := ⟨3, ![4, 2048, 29]⟩
abbrev S4x2048x1 : Shape := ⟨3, ![4, 2048, 1]⟩
abbrev S_ : Shape := ⟨0, ![]⟩
abbrev S4x2048x29x1 : Shape := ⟨4, ![4, 2048, 29, 1]⟩
abbrev S1 : Shape := ⟨1, ![1]⟩
abbrev S1x1x1x1 : Shape := ⟨4, ![1, 1, 1, 1]⟩
abbrev S4x2048x29x1x1 : Shape := ⟨5, ![4, 2048, 29, 1, 1]⟩
abbrev S1x1x1x1x1 : Shape := ⟨5, ![1, 1, 1, 1, 1]⟩
abbrev S4x2048x29x20x1 : Shape := ⟨5, ![4, 2048, 29, 20, 1]⟩
abbrev S4x2048x29x20 : Shape := ⟨4, ![4, 2048, 29, 20]⟩
abbrev S1x1x20 : Shape := ⟨3, ![1, 1, 20]⟩
abbrev S4x2048x1x1 : Shape := ⟨4, ![4, 2048, 1, 1]⟩
abbrev S4 : Shape := ⟨1, ![4]⟩

abbrev nBuf : Space → Nat
  | .hbm => 156
  | .vmem => 0
  | .smem => 0
  | _ => 0

abbrev hbmTy0_0 (i : Nat) : BufTy := match i % 128 with
  | 0 => ⟨S4x2048x20, .f32⟩
  | 1 => ⟨S4x2048x30x400, .f32⟩
  | 2 => ⟨S4x2048x30, .i32⟩
  | 3 => ⟨S4x2048, .i32⟩
  | 4 => ⟨S4x2048, .f32⟩
  | 5 => ⟨S20, .f32⟩
  | 6 => ⟨S20, .f32⟩
  | 7 => ⟨S4x2048x30x20x20, .f32⟩
  | 8 => ⟨S4x2048x29x20x20, .f32⟩
  | 9 => ⟨S4x2048x29, .i32⟩
  | 10 => ⟨S4x2048x1, .i32⟩
  | 11 => ⟨S4x2048x29, .i32⟩
  | 12 => ⟨S_, .i32⟩
  | 13 => ⟨S4x2048x29, .i32⟩
  | 14 => ⟨S4x2048x29, .i1⟩
  | 15 => ⟨S_, .i32⟩
  | 16 => ⟨S4x2048x29, .i32⟩
  | 17 => ⟨S4x2048x29, .i32⟩
  | 18 => ⟨S4x2048x29, .i32⟩
  | 19 => ⟨S4x2048x29x1, .i32⟩
  | 20 => ⟨S1, .i32⟩
  | 21 => ⟨S_, .i32⟩
  | 22 => ⟨S4x2048x29x1, .i32⟩
  | 23 => ⟨S4x2048x29x1, .i1⟩
  | 24 => ⟨S1x1x1x1, .i32⟩
  | 25 => ⟨S4x2048x29x1, .i32⟩
  | 26 => ⟨S4x2048x29x1, .i1⟩
  | 27 => ⟨S4x2048x29x1, .i1⟩
  | 28 => ⟨S_, .i1⟩
  | 29 => ⟨S4x2048x29, .i1⟩
  | 30 => ⟨S4x2048x29, .i32⟩
  | 31 => ⟨S_, .i32⟩
  | 32 => ⟨S4x2048x29, .i32⟩
  | 33 => ⟨S4x2048x29, .i32⟩
  | 34 => ⟨S4x2048x29x1x1, .i32⟩
  | 35 => ⟨S_, .i32⟩
  | 36 => ⟨S4x2048x29x1x1, .i32⟩
  | 37 => ⟨S4x2048x29x1x1, .i1⟩
  | 38 => ⟨S_, .i32⟩
  | 39 => ⟨S4x2048x29x1x1, .i32⟩
  | 40 => ⟨S4x2048x29x1x1, .i32⟩
  | 41 => ⟨S4x2048x29x1x1, .i32⟩
  | 42 => ⟨S1, .i32⟩
  | 43 => ⟨S_, .i32⟩
  | 44 => ⟨S4x2048x29x1x1, .i32⟩
  | 45 => ⟨S4x2048x29x1x1, .i1⟩
  | 46 => ⟨S1x1x1x1x1, .i32⟩
  | 47 => ⟨S4x2048x29x1x1, .i32⟩
  | 48 => ⟨S4x2048x29x1x1, .i1⟩
  | 49 => ⟨S4x2048x29x1x1, .i1⟩
  | 50 => ⟨S_, .i1⟩
  | 51 => ⟨S4x2048x29x1, .i1⟩
  | 52 => ⟨S4x2048x29x20x1, .f32⟩
  | 53 => ⟨S4x2048x29x20x1, .i1⟩
  | 54 => ⟨S_, .f32⟩
  | 55 => ⟨S4x2048x29x20x1, .f32⟩
  | 56 => ⟨S4x2048x29x20x1, .f32⟩
  | 57 => ⟨S4x2048x29x20, .f32⟩
  | 58 => ⟨S_, .f32⟩
  | 59 => ⟨S4x2048x20, .f32⟩
  | 60 => ⟨S4x2048x20, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S_, .i32⟩
  | 68 => ⟨S_, .f32⟩
  | 69 => ⟨S4x2048, .f32⟩
  | 70 => ⟨S4x2048x1, .f32⟩
  | 71 => ⟨S_, .f32⟩
  | 72 => ⟨S4x2048x1, .f32⟩
  | 73 => ⟨S4x2048x1, .f32⟩
  | 74 => ⟨S4x2048x20, .f32⟩
  | 75 => ⟨S4x2048x20, .f32⟩
  | 76 => ⟨S4x2048x20, .f32⟩
  | 77 => ⟨S_, .f32⟩
  | 78 => ⟨S_, .f32⟩
  | 79 => ⟨S_, .f32⟩
  | 80 => ⟨S_, .f32⟩
  | 81 => ⟨S4x2048, .f32⟩
  | 82 => ⟨S4x2048x1, .f32⟩
  | 83 => ⟨S4x2048x1, .f32⟩
  | 84 => ⟨S4x2048x1, .f32⟩
  | 85 => ⟨S_, .f32⟩
  | 86 => ⟨S_, .i1⟩
  | 87 => ⟨S_, .f32⟩
  | 88 => ⟨S_, .f32⟩
  | 89 => ⟨S4x2048x1, .f32⟩
  | 90 => ⟨S4x2048x1, .f32⟩
  | 91 => ⟨S4x2048x20, .f32⟩
  | 92 => ⟨S4x2048x20, .f32⟩
  | 93 => ⟨S_, .f32⟩
  | 94 => ⟨S4x2048x1, .f32⟩
  | 95 => ⟨S4x2048x1, .f32⟩
  | 96 => ⟨S4x2048x1, .f32⟩
  | 97 => ⟨S4x2048x20, .f32⟩
  | 98 => ⟨S4x2048x20, .f32⟩
  | 99 => ⟨S1x1x20, .f32⟩
  | 100 => ⟨S4x2048x20, .f32⟩
  | 101 => ⟨S4x2048x20, .f32⟩
  | 102 => ⟨S1x1x20, .f32⟩
  | 103 => ⟨S4x2048x20, .f32⟩
  | 104 => ⟨S4x2048x20, .f32⟩
  | 105 => ⟨S4x2048x20, .f32⟩
  | 106 => ⟨S_, .f32⟩
  | 107 => ⟨S4x2048, .f32⟩
  | 108 => ⟨S_, .f32⟩
  | 109 => ⟨S4x2048, .f32⟩
  | 110 => ⟨S4x2048, .f32⟩
  | 111 => ⟨S4x2048x1, .f32⟩
  | 112 => ⟨S4x2048x20, .f32⟩
  | 113 => ⟨S4x2048x20, .f32⟩
  | 114 => ⟨S4x2048x20, .f32⟩
  | 115 => ⟨S_, .f32⟩
  | 116 => ⟨S4x2048, .f32⟩
  | 117 => ⟨S4x2048x1, .f32⟩
  | 118 => ⟨S4x2048x1, .f32⟩
  | 119 => ⟨S4x2048x20, .f32⟩
  | 120 => ⟨S4x2048x20, .f32⟩
  | 121 => ⟨S4x2048x1, .i32⟩
  | 122 => ⟨S_, .i32⟩
  | 123 => ⟨S4x2048x1, .i32⟩
  | 124 => ⟨S4x2048x1, .i1⟩
  | 125 => ⟨S_, .i32⟩
  | 126 => ⟨S4x2048x1, .i32⟩
  | 127 => ⟨S4x2048x1, .i32⟩
  | _ => ⟨S4x2048x20, .f32⟩

abbrev hbmTy0_1 (i : Nat) : BufTy := match i % 128 with
  | 0 => ⟨S4x2048x1, .i32⟩
  | 1 => ⟨S4x2048x1x1, .i32⟩
  | 2 => ⟨S1, .i32⟩
  | 3 => ⟨S_, .i32⟩
  | 4 => ⟨S4x2048x1x1, .i32⟩
  | 5 => ⟨S4x2048x1x1, .i1⟩
  | 6 => ⟨S1x1x1x1, .i32⟩
  | 7 => ⟨S4x2048x1x1, .i32⟩
  | 8 => ⟨S4x2048x1x1, .i1⟩
  | 9 => ⟨S4x2048x1x1, .i1⟩
  | 10 => ⟨S_, .i1⟩
  | 11 => ⟨S4x2048x1, .i1⟩
  | 12 => ⟨S4x2048x1, .f32⟩
  | 13 => ⟨S_, .f32⟩
  | 14 => ⟨S4x2048x1, .f32⟩
  | 15 => ⟨S4x2048x1, .f32⟩
  | 16 => ⟨S4x2048, .f32⟩
  | 17 => ⟨S4x2048, .f32⟩
  | 18 => ⟨S_, .f32⟩
  | 19 => ⟨S4, .f32⟩
  | 20 => ⟨S_, .f32⟩
  | 21 => ⟨S4, .f32⟩
  | 22 => ⟨S4, .f32⟩
  | 23 => ⟨S_, .f32⟩
  | 24 => ⟨S_, .f32⟩
  | 25 => ⟨S_, .f32⟩
  | 26 => ⟨S_, .f32⟩
  | 27 => ⟨S_, .f32⟩
  | _ => ⟨S4x2048x20, .f32⟩

abbrev hbmTy (i : Nat) : BufTy := match i / 128 with
  | 0 => hbmTy0_0 i
  | 1 => hbmTy0_1 i
  | _ => ⟨S4x2048x20, .f32⟩

abbrev bufTy : (tb : Table) → Fin (tcTables nBuf tb) → BufTy
  | .hbm, ⟨i, _⟩ => hbmTy i
  | _, _ => ⟨S4x2048x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_c_4 : Ref sig .tc := ⟨.hbm, 31, rfl⟩
abbrev main_call0_v14 : Ref sig .tc := ⟨.hbm, 32, rfl⟩
abbrev main_v5 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v7 : Ref sig .tc := ⟨.hbm, 56, rfl⟩
abbrev main_v8 : Ref sig .tc := ⟨.hbm, 57, rfl⟩
abbrev main_cst : Ref sig .tc := ⟨.hbm, 58, rfl⟩
abbrev main_v9 : Ref sig .tc := ⟨.hbm, 59, rfl⟩
abbrev main_v10 : Ref sig .tc := ⟨.hbm, 60, rfl⟩
abbrev main_cst_0 : Ref sig .tc := ⟨.hbm, 61, rfl⟩
abbrev main_v11 : Ref sig .tc := ⟨.hbm, 62, rfl⟩
abbrev main_v12 : Ref sig .tc := ⟨.hbm, 63, rfl⟩
abbrev main_cst_1 : Ref sig .tc := ⟨.hbm, 64, rfl⟩
abbrev main_v13 : Ref sig .tc := ⟨.hbm, 65, rfl⟩
abbrev main_v14 : Ref sig .tc := ⟨.hbm, 66, rfl⟩
abbrev main_c : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_cst_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_cst_1 : Ref sig .tc := ⟨.hbm, 78, rfl⟩
abbrev main_call2_v8 : Ref sig .tc := ⟨.hbm, 79, rfl⟩
abbrev main_call2_cst_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_cst_3 : Ref sig .tc := ⟨.hbm, 85, rfl⟩
abbrev main_call2_v13 : Ref sig .tc := ⟨.hbm, 86, rfl⟩
abbrev main_call2_cst_4 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_cst_2 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_call3_cst : Ref sig .tc := ⟨.hbm, 106, rfl⟩
abbrev main_call3_v0 : Ref sig .tc := ⟨.hbm, 107, rfl⟩
abbrev main_call3_cst_0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_cst_1 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_v30 : Ref sig .tc := ⟨.hbm, 120, rfl⟩
abbrev main_v31 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_cst : Ref sig .tc := ⟨.hbm, 141, rfl⟩
abbrev main_call4_v14 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_cst_3 : Ref sig .tc := ⟨.hbm, 146, rfl⟩
abbrev main_v35 : Ref sig .tc := ⟨.hbm, 147, rfl⟩
abbrev main_cst_4 : Ref sig .tc := ⟨.hbm, 148, rfl⟩
abbrev main_v36 : Ref sig .tc := ⟨.hbm, 149, rfl⟩
abbrev main_v37 : Ref sig .tc := ⟨.hbm, 150, rfl⟩
abbrev main_cst_5 : Ref sig .tc := ⟨.hbm, 151, rfl⟩
abbrev main_v38 : Ref sig .tc := ⟨.hbm, 152, rfl⟩
abbrev main_cst_6 : Ref sig .tc := ⟨.hbm, 153, rfl⟩
abbrev main_v39 : Ref sig .tc := ⟨.hbm, 154, rfl⟩
abbrev main_v40 : Ref sig .tc := ⟨.hbm, 155, rfl⟩

abbrev nD : Nat := 1
abbrev τ : Topo := Topo.v7x

variable {F : FTy → Type} [FloatOps F]

class Facts₀ : Prop where
  shapeCasts_S4x2048x30x400_S4x2048x30x20x20 : S4x2048x30x400.ShapeCasts S4x2048x30x20x20
  slices_S4x2048x30x20x20_S4x2048x29x20x20_0_0_1_0_0 : S4x2048x30x20x20.Slices ![0, 0, 1, 0, 0] S4x2048x29x20x20
  slices_S4x2048x30_S4x2048x29_0_0_1 : S4x2048x30.Slices ![0, 0, 1] S4x2048x29
  bcast_S4x2048_S4x2048x1_0_1 : S4x2048.BroadcastsInDim S4x2048x1 (![0, 1] : Fin 2 → Fin S4x2048x1.rank)
  bcast_S4x2048x1_S4x2048x29_0_1_2 : S4x2048x1.BroadcastsInDim S4x2048x29 (![0, 1, 2] : Fin 3 → Fin S4x2048x29.rank)
  bcast_S_S4x2048x29 : S_.BroadcastsInDim S4x2048x29 (![] : Fin 0 → Fin S4x2048x29.rank)
  shapeCasts_S4x2048x29_S4x2048x29x1 : S4x2048x29.ShapeCasts S4x2048x29x1
  bcast_S_S4x2048x29x1 : S_.BroadcastsInDim S4x2048x29x1 (![] : Fin 0 → Fin S4x2048x29x1.rank)
  bcast_S1_S1x1x1x1_3 : S1.BroadcastsInDim S1x1x1x1 (![3] : Fin 1 → Fin S1x1x1x1.rank)
  bcast_S1x1x1x1_S4x2048x29x1_0_1_2_3 : S1x1x1x1.BroadcastsInDim S4x2048x29x1 (![0, 1, 2, 3] : Fin 4 → Fin S4x2048x29x1.rank)
  reducesTo_S4x2048x29x1_S4x2048x29_d3 : S4x2048x29x1.ReducesTo [3] S4x2048x29
  h_S_ : 0 < S_.numel
  bcast_S4x2048x29_S4x2048x29x1x1_0_1_2 : S4x2048x29.BroadcastsInDim S4x2048x29x1x1 (![0, 1, 2] : Fin 3 → Fin S4x2048x29x1x1.rank)
  bcast_S_S4x2048x29x1x1 : S_.BroadcastsInDim S4x2048x29x1x1 (![] : Fin 0 → Fin S4x2048x29x1x1.rank)
  bcast_S1_S1x1x1x1x1_4 : S1.BroadcastsInDim S1x1x1x1x1 (![4] : Fin 1 → Fin S1x1x1x1x1.rank)
  bcast_S1x1x1x1x1_S4x2048x29x1x1_0_1_2_3_4 : S1x1x1x1x1.BroadcastsInDim S4x2048x29x1x1 (![0, 1, 2, 3, 4] : Fin 5 → Fin S4x2048x29x1x1.rank)
  reducesTo_S4x2048x29x1x1_S4x2048x29x1_d4 : S4x2048x29x1x1.ReducesTo [4] S4x2048x29x1
  bcast_S4x2048x29x1_S4x2048x29x20x1_0_1_2_4 : S4x2048x29x1.BroadcastsInDim S4x2048x29x20x1 (![0, 1, 2, 4] : Fin 4 → Fin S4x2048x29x20x1.rank)
  bcast_S_S4x2048x29x20x1 : S_.BroadcastsInDim S4x2048x29x20x1 (![] : Fin 0 → Fin S4x2048x29x20x1.rank)
  shapeCasts_S4x2048x29x20x1_S4x2048x29x20 : S4x2048x29x20x1.ShapeCasts S4x2048x29x20
  reducesTo_S4x2048x29x20_S4x2048x20_d2 : S4x2048x29x20.ReducesTo [2] S4x2048x20
  reducesTo_S4x2048x20_S4x2048_d2 : S4x2048x20.ReducesTo [2] S4x2048
  bcast_S_S4x2048x1 : S_.BroadcastsInDim S4x2048x1 (![] : Fin 0 → Fin S4x2048x1.rank)
  bcast_S4x2048x1_S4x2048x20_0_1_2 : S4x2048x1.BroadcastsInDim S4x2048x20 (![0, 1, 2] : Fin 3 → Fin S4x2048x20.rank)
  bcast_S20_S1x1x20_2 : S20.BroadcastsInDim S1x1x20 (![2] : Fin 1 → Fin S1x1x20.rank)
  bcast_S1x1x20_S4x2048x20_0_1_2 : S1x1x20.BroadcastsInDim S4x2048x20 (![0, 1, 2] : Fin 3 → Fin S4x2048x20.rank)
  bcast_S_S4x2048 : S_.BroadcastsInDim S4x2048 (![] : Fin 0 → Fin S4x2048.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  shapeCasts_S4x2048x1_S4x2048 : S4x2048x1.ShapeCasts S4x2048
  reducesTo_S4x2048_S4_d1 : S4x2048.ReducesTo [1] S4
  reducesTo_S4_S_d0 : S4.ReducesTo [0] S_
  gather_S4x2048x29_S4x2048x29x1_S4x2048x29_n_1_02_02_1_3_111_wf : GatherDims.WF S4x2048x29 S4x2048x29x1 S4x2048x29 [] [1] [0, 2] [1] [0, 2] 3 ![1, 1, 1]
  gather_S4x2048x29x20x20_S4x2048x29x1x1_S4x2048x29x20x1_3_4_012_012_4_4_111201_wf : GatherDims.WF S4x2048x29x20x20 S4x2048x29x1x1 S4x2048x29x20x1 [3] [4] [0, 1, 2] [4] [0, 1, 2] 4 ![1, 1, 1, 20, 1]
  gather_S4x2048x20_S4x2048x1x1_S4x2048x1_n_2_01_01_2_3_111_wf : GatherDims.WF S4x2048x20 S4x2048x1x1 S4x2048x1 [] [2] [0, 1] [2] [0, 1] 3 ![1, 1, 1]

variable [Facts₀]

def gather_S4x2048x29_S4x2048x29x1_S4x2048x29_n_1_02_02_1_3_111 : GatherDims S4x2048x29 S4x2048x29x1 S4x2048x29 where
  offsetDims := []
  collapsedSliceDims := [1]
  operandBatchingDims := [0, 2]
  startIndicesBatchingDims := [0, 2]
  startIndexMap := [1]
  indexVectorDim := 3
  sliceSizes := ![1, 1, 1]
  wf := gather_S4x2048x29_S4x2048x29x1_S4x2048x29_n_1_02_02_1_3_111_wf
def gather_S4x2048x29x20x20_S4x2048x29x1x1_S4x2048x29x20x1_3_4_012_012_4_4_111201 : GatherDims S4x2048x29x20x20 S4x2048x29x1x1 S4x2048x29x20x1 where
  offsetDims := [3]
  collapsedSliceDims := [4]
  operandBatchingDims := [0, 1, 2]
  startIndicesBatchingDims := [0, 1, 2]
  startIndexMap := [4]
  indexVectorDim := 4
  sliceSizes := ![1, 1, 1, 20, 1]
  wf := gather_S4x2048x29x20x20_S4x2048x29x1x1_S4x2048x29x20x1_3_4_012_012_4_4_111201_wf
def gather_S4x2048x20_S4x2048x1x1_S4x2048x1_n_2_01_01_2_3_111 : GatherDims S4x2048x20 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x20_S4x2048x1x1_S4x2048x1_n_2_01_01_2_3_111_wf

class Facts : Prop extends Facts₀ where

variable [Facts]
-- ==== Proof.RefFn.lean ====
/-
  The reference's computation as pure functions of its argument arrays, one stage at a time, in the program's own
  operations and order:

  * `takeRows`, `takePair`, `takeLabel`: the three take-along-axis gathers (a negative index wrapped once by the
    axis's length; an index still outside the axis answered by a fill value);
  * `eaaFn`: the label of every true neighbour (the label array gathered at the neighbour positions);
  * `pairFn`: the pair-table entry of every (neighbour, amino-acid) at the neighbour's label;
  * `energyFn`: the self term plus the sum of those over the neighbours;
  * `varFn`, `lnFn`: the variance and the layer normalisation over the twenty amino-acids;
  * `lsmFn`: the negation and the log-softmax over the twenty;
  * `selFn`: the entry at the residue's own label, times the mask;
  * `tailFn`: the ratio of sums per batch entry and minus the mean of the four.

  `refFn` is their composition: the value of the program's one result.
-/
import proofs.«431343_j9320079033225_1_alg».proof.ReferenceIdeal
import proofs.«431343_j9320079033225_1_alg».proof.Proof.Gen.ReferenceIdeal

noncomputable section

namespace Cert.ReferenceIdeal.Hand

open Cert.ReferenceIdeal Cert.ReferenceIdeal.Gen Idealize.ShloMosaic Idealize.ShloMosaic.TcCoe

variable {F : FTy → Type} [FloatOps F]

/-- Take along axis 1 of a [4, 2048, 29] array of words, at a [4, 2048, 29] array of positions. -/
def takeRows (x idx : IVec S4x2048x29 32) : IVec S4x2048x29 32 :=
  let v0 : IVec S4x2048x29 32 := broadcastInDim S4x2048x29 ![] bcast_S_S4x2048x29 (constantI S_ 32 0#32)
  let v1 : IVec S4x2048x29 1 := cmpi .slt idx v0
  let v2 : IVec S4x2048x29 32 := broadcastInDim S4x2048x29 ![] bcast_S_S4x2048x29 (constantI S_ 32 2048#32)
  let v3 : IVec S4x2048x29 32 := addi idx v2
  let v4 : IVec S4x2048x29 32 := select v1 v3 idx
  let v5 : IVec S4x2048x29x1 32 := shapeCast S4x2048x29x1 v4 shapeCasts_S4x2048x29_S4x2048x29x1
  let v6 : IVec S4x2048x29x1 32 := broadcastInDim S4x2048x29x1 ![] bcast_S_S4x2048x29x1 (constantI S_ 32 0#32)
  let v7 : IVec S4x2048x29x1 1 := cmpi .sge v5 v6
  let v8 : IVec S1x1x1x1 32 := broadcastInDim S1x1x1x1 ![3] bcast_S1_S1x1x1x1_3 (constantI S1 32 2047#32)
  let v9 : IVec S4x2048x29x1 32 := broadcastInDim S4x2048x29x1 ![0, 1, 2, 3] bcast_S1x1x1x1_S4x2048x29x1_0_1_2_3 v8
  let v10 : IVec S4x2048x29x1 1 := cmpi .sle v5 v9
  let v11 : IVec S4x2048x29x1 1 := andi v7 v10
  let v12 : IVec S4x2048x29 1 := Host.reduce IntOp.andi v11 (constantI S_ 1 1#1) reducesTo_S4x2048x29x1_S4x2048x29_d3 h_S_
  let v13 : IVec S4x2048x29 32 := Host.gather gather_S4x2048x29_S4x2048x29x1_S4x2048x29_n_1_02_02_1_3_111 x v5
  let v14 : IVec S4x2048x29 32 := broadcastInDim S4x2048x29 ![] bcast_S_S4x2048x29 (constantI S_ 32 2147483648#32)
  select v12 v13 v14

/-- The label of every true neighbour: the label array, copied along the neighbour axis, taken at the neighbour positions
    (the position array without its first column). -/
def eaaFn (eidx : IVec S4x2048x30 32) (seqs : IVec S4x2048 32) : IVec S4x2048x29 32 :=
  takeRows
    (broadcastInDim S4x2048x29 ![0, 1, 2] bcast_S4x2048x1_S4x2048x29_0_1_2
      (broadcastInDim S4x2048x1 ![0, 1] bcast_S4x2048_S4x2048x1_0_1 seqs))
    (extractStridedSlice S4x2048x29 ![0, 0, 1] eidx slices_S4x2048x30_S4x2048x29_0_0_1)

/-- Take along the last axis of a [4, 2048, 29, 20, 20] array, at one label per (batch, position, neighbour). -/
def takePair (x : FVec F S4x2048x29x20x20 .f32) (idx : IVec S4x2048x29x1x1 32) : FVec F S4x2048x29x20x1 .f32 :=
  let v0 : IVec S4x2048x29x1x1 32 := broadcastInDim S4x2048x29x1x1 ![] bcast_S_S4x2048x29x1x1 (constantI S_ 32 0#32)
  let v1 : IVec S4x2048x29x1x1 1 := cmpi .slt idx v0
  let v2 : IVec S4x2048x29x1x1 32 := broadcastInDim S4x2048x29x1x1 ![] bcast_S_S4x2048x29x1x1 (constantI S_ 32 20#32)
  let v3 : IVec S4x2048x29x1x1 32 := addi idx v2
  let v4 : IVec S4x2048x29x1x1 32 := select v1 v3 idx
  let v5 : IVec S4x2048x29x1x1 32 := broadcastInDim S4x2048x29x1x1 ![] bcast_S_S4x2048x29x1x1 (constantI S_ 32 0#32)
  let v6 : IVec S4x2048x29x1x1 1 := cmpi .sge v4 v5
  let v7 : IVec S1x1x1x1x1 32 := broadcastInDim S1x1x1x1x1 ![4] bcast_S1_S1x1x1x1x1_4 (constantI S1 32 19#32)
  let v8 : IVec S4x2048x29x1x1 32 := broadcastInDim S4x2048x29x1x1 ![0, 1, 2, 3, 4] bcast_S1x1x1x1x1_S4x2048x29x1x1_0_1_2_3_4 v7
  let v9 : IVec S4x2048x29x1x1 1 := cmpi .sle v4 v8
  let v10 : IVec S4x2048x29x1x1 1 := andi v6 v9
  let v11 : IVec S4x2048x29x1 1 := Host.reduce IntOp.andi v10 (constantI S_ 1 1#1) reducesTo_S4x2048x29x1x1_S4x2048x29x1_d4 h_S_
  let v12 : FVec F S4x2048x29x20x1 .f32 := Host.gather gather_S4x2048x29x20x20_S4x2048x29x1x1_S4x2048x29x20x1_3_4_012_012_4_4_111201 x v4
  let v13 : IVec S4x2048x29x20x1 1 := broadcastInDim S4x2048x29x20x1 ![0, 1, 2, 4] bcast_S4x2048x29x1_S4x2048x29x20x1_0_1_2_4 v11
  let v14 : FVec F S4x2048x29x20x1 .f32 := broadcastInDim S4x2048x29x20x1 ![] bcast_S_S4x2048x29x20x1 (constant S_ .f32 0x7FC00000#32)
  select v13 v12 v14

/-- The pair-table entries of every (neighbour, amino-acid) at the neighbour's label: the table with its last axis split
    into (amino-acid, label), without the first neighbour column, taken along the label axis. -/
def pairFn (etab : FVec F S4x2048x30x400 .f32) (eaa : IVec S4x2048x29 32) : FVec F S4x2048x29x20 .f32 :=
  shapeCast S4x2048x29x20
    (takePair
      (extractStridedSlice S4x2048x29x20x20 ![0, 0, 1, 0, 0]
        (shapeCast S4x2048x30x20x20 etab shapeCasts_S4x2048x30x400_S4x2048x30x20x20)
        slices_S4x2048x30x20x20_S4x2048x29x20x20_0_0_1_0_0)
      (broadcastInDim S4x2048x29x1x1 ![0, 1, 2] bcast_S4x2048x29_S4x2048x29x1x1_0_1_2 eaa))
    shapeCasts_S4x2048x29x20x1_S4x2048x29x20

/-- The energies: the self term plus the sum of the pair terms over the neighbours. -/
def energyFn (self : FVec F S4x2048x20 .f32) (pair : FVec F S4x2048x29x20 .f32) : FVec F S4x2048x20 .f32 :=
  addf self (Host.reduceAdd pair (constant S_ .f32 0x00000000#32) reducesTo_S4x2048x29x20_S4x2048x20_d2 h_S_)

/-- The variance over the twenty amino-acids with `ddof` degrees of freedom removed (the program passes zero): the sum of
    squared deviations from the mean over `20 − ddof`, where that divisor is positive. -/
def varFn (x : FVec F S4x2048x20 .f32) (ddof : IVec S_ 32) : FVec F S4x2048x1 .f32 :=
  let v0 : FVec F S4x2048 .f32 := Host.reduceAdd x (constant S_ .f32 0x00000000#32) reducesTo_S4x2048x20_S4x2048_d2 h_S_
  let v1 : FVec F S4x2048x1 .f32 := broadcastInDim S4x2048x1 ![0, 1] bcast_S4x2048_S4x2048x1_0_1 v0
  let v2 : FVec F S4x2048x1 .f32 := broadcastInDim S4x2048x1 ![] bcast_S_S4x2048x1 (constant S_ .f32 0x41A00000#32)
  let v3 : FVec F S4x2048x1 .f32 := Host.divf v1 v2
  let v4 : FVec F S4x2048x20 .f32 := broadcastInDim S4x2048x20 ![0, 1, 2] bcast_S4x2048x1_S4x2048x20_0_1_2 v3
  let v5 : FVec F S4x2048x20 .f32 := subf x v4
  let v6 : FVec F S4x2048x20 .f32 := mulf v5 v5
  let v7 : FVec F S_ .f32 := sitofp .f32 ddof
  let v8 : FVec F S_ .f32 := subf (constant S_ .f32 0x41A00000#32) v7
  let v9 : FVec F S4x2048 .f32 := Host.reduceAdd v6 (constant S_ .f32 0x00000000#32) reducesTo_S4x2048x20_S4x2048_d2 h_S_
  let v10 : FVec F S4x2048x1 .f32 := broadcastInDim S4x2048x1 ![0, 1] bcast_S4x2048_S4x2048x1_0_1 v9
  let v11 : FVec F S4x2048x1 .f32 := broadcastInDim S4x2048x1 ![] bcast_S_S4x2048x1 v8
  let v12 : FVec F S4x2048x1 .f32 := Host.divf v10 v11
  let v13 : IVec S_ 1 := cmpf .ogt v8 (constant S_ .f32 0x00000000#32)
  let w0 : FVec F S_ .f32 := id (constant S_ .f32 0x7FC00000#32)
  let w1 : FVec F S4x2048x1 .f32 := broadcastInDim S4x2048x1 ![] bcast_S_S4x2048x1 w0
  select (broadcastInDim S4x2048x1 ![] bcast_S_S4x2048x1 v13) v12 w1

/-- Layer normalisation over the twenty amino-acids: the deviation from the mean, times the reciprocal root of
    (variance + ε), times the scale, plus the shift. -/
def lnFn (x : FVec F S4x2048x20 .f32) (w b : FVec F S20 .f32) : FVec F S4x2048x20 .f32 :=
  let v11 : FVec F S4x2048 .f32 := Host.reduceAdd x (constant S_ .f32 0x00000000#32) reducesTo_S4x2048x20_S4x2048_d2 h_S_
  let v12 : FVec F S4x2048x1 .f32 := broadcastInDim S4x2048x1 ![0, 1] bcast_S4x2048_S4x2048x1_0_1 v11
  let v13 : FVec F S4x2048x1 .f32 := broadcastInDim S4x2048x1 ![] bcast_S_S4x2048x1 (constant S_ .f32 0x41A00000#32)
  let v14 : FVec F S4x2048x1 .f32 := Host.divf v12 v13
  let v15 : FVec F S4x2048x1 .f32 := varFn x (constantI S_ 32 0#32)
  let v16 : FVec F S4x2048x20 .f32 := broadcastInDim S4x2048x20 ![0, 1, 2] bcast_S4x2048x1_S4x2048x20_0_1_2 v14
  let v17 : FVec F S4x2048x20 .f32 := subf x v16
  let v18 : FVec F S4x2048x1 .f32 := broadcastInDim S4x2048x1 ![] bcast_S_S4x2048x1 (constant S_ .f32 0x3727C5AC#32)
  let v19 : FVec F S4x2048x1 .f32 := addf v15 v18
  let v20 : FVec F S4x2048x1 .f32 := Host.rsqrt v19
  let v21 : FVec F S4x2048x20 .f32 := broadcastInDim S4x2048x20 ![0, 1, 2] bcast_S4x2048x1_S4x2048x20_0_1_2 v20
  let v22 : FVec F S4x2048x20 .f32 := mulf v17 v21
  let v23 : FVec F S1x1x20 .f32 := broadcastInDim S1x1x20 ![2] bcast_S20_S1x1x20_2 w
  let v24 : FVec F S4x2048x20 .f32 := broadcastInDim S4x2048x20 ![0, 1, 2] bcast_S1x1x20_S4x2048x20_0_1_2 v23
  let v25 : FVec F S4x2048x20 .f32 := mulf v22 v24
  let v26 : FVec F S1x1x20 .f32 := broadcastInDim S1x1x20 ![2] bcast_S20_S1x1x20_2 b
  let v27 : FVec F S4x2048x20 .f32 := broadcastInDim S4x2048x20 ![0, 1, 2] bcast_S1x1x20_S4x2048x20_0_1_2 v26
  addf v25 v27

/-- The negation and the log-softmax over the twenty amino-acids (the row's maximum subtracted first). -/
def lsmFn (y : FVec F S4x2048x20 .f32) : FVec F S4x2048x20 .f32 :=
  let v29 : FVec F S4x2048x20 .f32 := Host.negf y
  let c0 : FVec F S4x2048 .f32 := Host.reduce FloatOps.maximumf v29 (constant S_ .f32 0xFF800000#32) reducesTo_S4x2048x20_S4x2048_d2 h_S_
  let c1 : FVec F S4x2048 .f32 := broadcastInDim S4x2048 ![] bcast_S_S4x2048 (constant S_ .f32 0xFF800000#32)
  let c2 : FVec F S4x2048 .f32 := maximumf c1 c0
  let c3 : FVec F S4x2048x1 .f32 := broadcastInDim S4x2048x1 ![0, 1] bcast_S4x2048_S4x2048x1_0_1 c2
  let c4 : FVec F S4x2048x20 .f32 := broadcastInDim S4x2048x20 ![0, 1, 2] bcast_S4x2048x1_S4x2048x20_0_1_2 c3
  let c5 : FVec F S4x2048x20 .f32 := subf v29 c4
  let c6 : FVec F S4x2048x20 .f32 := Host.exp c5
  let c7 : FVec F S4x2048 .f32 := Host.reduceAdd c6 (constant S_ .f32 0x00000000#32) reducesTo_S4x2048x20_S4x2048_d2 h_S_
  let c8 : FVec F S4x2048x1 .f32 := broadcastInDim S4x2048x1 ![0, 1] bcast_S4x2048_S4x2048x1_0_1 c7
  let c9 : FVec F S4x2048x1 .f32 := Host.log c8
  let c10 : FVec F S4x2048x20 .f32 := broadcastInDim S4x2048x20 ![0, 1, 2] bcast_S4x2048x1_S4x2048x20_0_1_2 c9
  subf c5 c10

/-- Take along the last axis of a [4, 2048, 20] array, at one label per (batch, position). -/
def takeLabel (x : FVec F S4x2048x20 .f32) (idx : IVec S4x2048x1 32) : FVec F S4x2048x1 .f32 :=
  let v0 : IVec S4x2048x1 32 := broadcastInDim S4x2048x1 ![] bcast_S_S4x2048x1 (constantI S_ 32 0#32)
  let v1 : IVec S4x2048x1 1 := cmpi .slt idx v0
  let v2 : IVec S4x2048x1 32 := broadcastInDim S4x2048x1 ![] bcast_S_S4x2048x1 (constantI S_ 32 20#32)
  let v3 : IVec S4x2048x1 32 := addi idx v2
  let v4 : IVec S4x2048x1 32 := select v1 v3 idx
  let v5 : IVec S4x2048x1x1 32 := shapeCast S4x2048x1x1 v4 shapeCasts_S4x2048x1_S4x2048x1x1
  let v6 : IVec S4x2048x1x1 32 := broadcastInDim S4x2048x1x1 ![] bcast_S_S4x2048x1x1 (constantI S_ 32 0#32)
  let v7 : IVec S4x2048x1x1 1 := cmpi .sge v5 v6
  let v8 : IVec S1x1x1x1 32 := broadcastInDim S1x1x1x1 ![3] bcast_S1_S1x1x1x1_3 (constantI S1 32 19#32)
  let v9 : IVec S4x2048x1x1 32 := broadcastInDim S4x2048x1x1 ![0, 1, 2, 3] bcast_S1x1x1x1_S4x2048x1x1_0_1_2_3 v8
  let v10 : IVec S4x2048x1x1 1 := cmpi .sle v5 v9
  let v11 : IVec S4x2048x1x1 1 := andi v7 v10
  let v12 : IVec S4x2048x1 1 := Host.reduce IntOp.andi v11 (constantI S_ 1 1#1) reducesTo_S4x2048x1x1_S4x2048x1_d3 h_S_
  let v13 : FVec F S4x2048x1 .f32 := Host.gather gather_S4x2048x20_S4x2048x1x1_S4x2048x1_n_2_01_01_2_3_111 x v5
  let v14 : FVec F S4x2048x1 .f32 := broadcastInDim S4x2048x1 ![] bcast_S_S4x2048x1 (constant S_ .f32 0x7FC00000#32)
  select v12 v13 v14

/-- The log-probabilities: the log-softmax taken at the residue's own label, times the mask. -/
def selFn (lp : FVec F S4x2048x20 .f32) (seqs : IVec S4x2048 32) (mask : FVec F S4x2048 .f32) : FVec F S4x2048 .f32 :=
  mulf
    (shapeCast S4x2048
      (takeLabel lp (broadcastInDim S4x2048x1 ![0, 1] bcast_S4x2048_S4x2048x1_0_1 seqs))
      shapeCasts_S4x2048x1_S4x2048)
    mask

/-- Per batch entry the sum of the log-probabilities over the sum of the mask; then minus a quarter of the sum over the
    four batch entries. -/
def tailFn (out mask : FVec F S4x2048 .f32) : FVec F S_ .f32 :=
  let v35 : FVec F S4 .f32 := Host.reduceAdd mask (constant S_ .f32 0x00000000#32) reducesTo_S4x2048_S4_d1 h_S_
  let v36 : FVec F S4 .f32 := Host.reduceAdd out (constant S_ .f32 0x00000000#32) reducesTo_S4x2048_S4_d1 h_S_
  let v37 : FVec F S4 .f32 := Host.divf v36 v35
  let v38 : FVec F S_ .f32 := Host.reduceAdd v37 (constant S_ .f32 0x00000000#32) reducesTo_S4_S_d0 h_S_
  let v39 : FVec F S_ .f32 := Host.divf v38 (constant S_ .f32 0x40800000#32)
  Host.negf v39

/-- The reference's one result as a function of its seven argument arrays. -/
def refFn (self : FVec F S4x2048x20 .f32) (etab : FVec F S4x2048x30x400 .f32) (eidx : IVec S4x2048x30 32)
    (seqs : IVec S4x2048 32) (mask : FVec F S4x2048 .f32) (w b : FVec F S20 .f32) : FVec F S_ .f32 :=
  tailFn (selFn (lsmFn (lnFn (energyFn self (pairFn etab (eaaFn eidx seqs))) w b)) seqs mask) mask

end Cert.ReferenceIdeal.Hand

end
-- ==== Proof.RefRun.lean ====
/-
  The reference program's run: its @main, with the outlined functions unfolded at their calls, is a straight line of host
  operations; every weakly fair execution of it terminates, and the one result buffer ends at `refFn` of the argument
  arrays, the arguments unchanged.

  The line is cut into seven stretches, one per stage function: each stretch's result buffer is read back as its stage
  function of what the stretch read, a buffer a stretch does not write passes through it, and the seven compose.
-/
import proofs.«431343_j9320079033225_1_alg».proof.Proof.RefFn
import Idealize.ShloMosaic.Lib.StableHlo.Run

noncomputable section

namespace Cert.ReferenceIdeal.Hand

open Cert.ReferenceIdeal Cert.ReferenceIdeal.Gen Idealize.ShloMosaic Idealize.ShloMosaic.TcCoe

open Idealize.SL.Sem Idealize.ShloMosaic.StableHlo

variable {F : FTy → Type} [FloatOps F]

/-- The pair table with its last axis split into (amino-acid, label), without the first neighbour column. -/
def tabFn (etab : FVec F S4x2048x30x400 .f32) : FVec F S4x2048x29x20x20 .f32 :=
  extractStridedSlice S4x2048x29x20x20 ![0, 0, 1, 0, 0]
    (shapeCast S4x2048x30x20x20 etab shapeCasts_S4x2048x30x400_S4x2048x30x20x20)
    slices_S4x2048x30x20x20_S4x2048x29x20x20_0_0_1_0_0

/-- That table taken along its label axis at one label per (batch, position, neighbour), the unit axis dropped. -/
def pairAtFn (tab : FVec F S4x2048x29x20x20 .f32) (eaa : IVec S4x2048x29 32) : FVec F S4x2048x29x20 .f32 :=
  shapeCast S4x2048x29x20
    (takePair tab (broadcastInDim S4x2048x29x1x1 ![0, 1, 2] bcast_S4x2048x29_S4x2048x29x1x1_0_1_2 eaa))
    shapeCasts_S4x2048x29x20x1_S4x2048x29x20

/-- The pair stage is those two one after the other. -/
theorem pairFn_eq (etab : FVec F S4x2048x30x400 .f32) (eaa : IVec S4x2048x29 32) :
    pairFn etab eaa = pairAtFn (tabFn etab) eaa := rfl

/-- @main's operations in order, each outlined function's operations listed at its call over that call's own buffers:
    the two slices and the label array's two broadcasts; the first gather (twenty-two operations); the broadcast of its
    result and the second gather (twenty-three); the reshape, the sum over the neighbours and the self term; the mean, the
    variance (twenty-one operations, and the three of the guarded select inside it), the normalisation, scale and shift;
    the negation and the log-softmax (fifteen); the label's broadcast, the third gather (twenty-two), the reshape and the
    mask; the two row sums, their ratio, the sum over the batch, the quarter and the sign. -/
abbrev ops : List (HloOp τ sig (Elt F)) :=
  [ StableHlo.reshape main_arg1 main_v0 rfl shapeCasts_S4x2048x30x400_S4x2048x30x20x20,
    StableHlo.unary main_v0 main_v1 ((extractStridedSlice S4x2048x29x20x20 ![0, 0, 1, 0, 0] · slices_S4x2048x30x20x20_S4x2048x29x20x20_0_0_1_0_0) : (⟨S4x2048x30x20x20, .f32⟩ : BufTy).Contents (Elt F) → (⟨S4x2048x29x20x20, .f32⟩ : BufTy).Contents (Elt F)),
    StableHlo.unary main_arg2 main_v2 ((extractStridedSlice S4x2048x29 ![0, 0, 1] · slices_S4x2048x30_S4x2048x29_0_0_1) : (⟨S4x2048x30, .i32⟩ : BufTy).Contents (Elt F) → (⟨S4x2048x29, .i32⟩ : BufTy).Contents (Elt F)),
    StableHlo.unary main_arg3 main_v3 (broadcastInDim S4x2048x1 ![0, 1] bcast_S4x2048_S4x2048x1_0_1 : (⟨S4x2048, .i32⟩ : BufTy).Contents (Elt F) → (⟨S4x2048x1, .i32⟩ : BufTy).Contents (Elt F)),
    StableHlo.unary main_v3 main_v4 (broadcastInDim S4x2048x29 ![0, 1, 2] bcast_S4x2048x1_S4x2048x29_0_1_2 : (⟨S4x2048x1, .i32⟩ : BufTy).Contents (Elt F) → (⟨S4x2048x29, .i32⟩ : BufTy).Contents (Elt F)),
    StableHlo.TRef.nullary main_call0.c (constantI S_ 32 0#32),
    StableHlo.TRef.unary main_call0.c main_call0.v0 (broadcastInDim S4x2048x29 ![] bcast_S_S4x2048x29),
    StableHlo.TRef.binary (.of main_v2 : StableHlo.TRef sig ⟨S4x2048x29, .i32⟩) main_call0.v0 main_call0.v1 (cmpi .slt),
    StableHlo.TRef.nullary main_call0.c_0 (constantI S_ 32 2048#32),
    StableHlo.TRef.unary main_call0.c_0 main_call0.v2 (broadcastInDim S4x2048x29 ![] bcast_S_S4x2048x29),
    StableHlo.TRef.binary (.of main_v2 : StableHlo.TRef sig ⟨S4x2048x29, .i32⟩) main_call0.v2 main_call0.v3 addi,
    StableHlo.TRef.ternary main_call0.v1 main_call0.v3 (.of main_v2 : StableHlo.TRef sig ⟨S4x2048x29, .i32⟩) main_call0.v4 select,
    StableHlo.TRef.reshape main_call0.v4 main_call0.v5 rfl shapeCasts_S4x2048x29_S4x2048x29x1,
    StableHlo.TRef.nullary main_call0.c_1 (constantI S1 32 2047#32),
    StableHlo.TRef.nullary main_call0.c_2 (constantI S_ 32 0#32),
    StableHlo.TRef.unary main_call0.c_2 main_call0.v6 (broadcastInDim S4x2048x29x1 ![] bcast_S_S4x2048x29x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S4x2048x29x1 ![0, 1, 2, 3] bcast_S1x1x1x1_S4x2048x29x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4x2048x29x1_S4x2048x29_d3 h_S_),
    StableHlo.TRef.binary (.of main_v4 : StableHlo.TRef sig ⟨S4x2048x29, .i32⟩) main_call0.v5 main_call0.v13 (fun x i => Host.gather gather_S4x2048x29_S4x2048x29x1_S4x2048x29_n_1_02_02_1_3_111 x i),
    StableHlo.TRef.nullary main_call0.c_4 (constantI S_ 32 2147483648#32),
    StableHlo.TRef.unary main_call0.c_4 main_call0.v14 (broadcastInDim S4x2048x29 ![] bcast_S_S4x2048x29),
    StableHlo.TRef.ternary main_call0.v12 main_call0.v13 main_call0.v14 main_call0.v15 select,
    StableHlo.unary main_v5 main_v6 (broadcastInDim S4x2048x29x1x1 ![0, 1, 2] bcast_S4x2048x29_S4x2048x29x1x1_0_1_2 : (⟨S4x2048x29, .i32⟩ : BufTy).Contents (Elt F) → (⟨S4x2048x29x1x1, .i32⟩ : BufTy).Contents (Elt F)),
    StableHlo.TRef.nullary main_call1.c (constantI S_ 32 0#32),
    StableHlo.TRef.unary main_call1.c main_call1.v0 (broadcastInDim S4x2048x29x1x1 ![] bcast_S_S4x2048x29x1x1),
    StableHlo.TRef.binary (.of main_v6 : StableHlo.TRef sig ⟨S4x2048x29x1x1, .i32⟩) main_call1.v0 main_call1.v1 (cmpi .slt),
    StableHlo.TRef.nullary main_call1.c_0 (constantI S_ 32 20#32),
    StableHlo.TRef.unary main_call1.c_0 main_call1.v2 (broadcastInDim S4x2048x29x1x1 ![] bcast_S_S4x2048x29x1x1),
    StableHlo.TRef.binary (.of main_v6 : StableHlo.TRef sig ⟨S4x2048x29x1x1, .i32⟩) main_call1.v2 main_call1.v3 addi,
    StableHlo.TRef.ternary main_call1.v1 main_call1.v3 (.of main_v6 : StableHlo.TRef sig ⟨S4x2048x29x1x1, .i32⟩) main_call1.v4 select,
    StableHlo.TRef.nullary main_call1.c_1 (constantI S1 32 19#32),
    StableHlo.TRef.nullary main_call1.c_2 (constantI S_ 32 0#32),
    StableHlo.TRef.unary main_call1.c_2 main_call1.v5 (broadcastInDim S4x2048x29x1x1 ![] bcast_S_S4x2048x29x1x1),
    StableHlo.TRef.binary main_call1.v4 main_call1.v5 main_call1.v6 (cmpi .sge),
    StableHlo.TRef.unary main_call1.c_1 main_call1.v7 (broadcastInDim S1x1x1x1x1 ![4] bcast_S1_S1x1x1x1x1_4),
    StableHlo.TRef.unary main_call1.v7 main_call1.v8 (broadcastInDim S4x2048x29x1x1 ![0, 1, 2, 3, 4] bcast_S1x1x1x1x1_S4x2048x29x1x1_0_1_2_3_4),
    StableHlo.TRef.binary main_call1.v4 main_call1.v8 main_call1.v9 (cmpi .sle),
    StableHlo.TRef.binary main_call1.v6 main_call1.v9 main_call1.v10 andi,
    StableHlo.TRef.nullary main_call1.c_3 (constantI S_ 1 1#1),
    StableHlo.TRef.binary main_call1.v10 main_call1.c_3 main_call1.v11 (fun x v => Host.reduce IntOp.andi x v reducesTo_S4x2048x29x1x1_S4x2048x29x1_d4 h_S_),
    StableHlo.TRef.binary (.of main_v1 : StableHlo.TRef sig ⟨S4x2048x29x20x20, .f32⟩) main_call1.v4 main_call1.v12 (fun x i => Host.gather gather_S4x2048x29x20x20_S4x2048x29x1x1_S4x2048x29x20x1_3_4_012_012_4_4_111201 x i),
    StableHlo.TRef.unary main_call1.v11 main_call1.v13 (broadcastInDim S4x2048x29x20x1 ![0, 1, 2, 4] bcast_S4x2048x29x1_S4x2048x29x20x1_0_1_2_4),
    StableHlo.TRef.nullary main_call1.cst (constant S_ .f32 0x7FC00000#32),
    StableHlo.TRef.unary main_call1.cst main_call1.v14 (broadcastInDim S4x2048x29x20x1 ![] bcast_S_S4x2048x29x20x1),
    StableHlo.TRef.ternary main_call1.v13 main_call1.v12 main_call1.v14 main_call1.v15 select,
    StableHlo.reshape main_v7 main_v8 rfl shapeCasts_S4x2048x29x20x1_S4x2048x29x20,
    StableHlo.nullary main_cst (constant S_ .f32 0x00000000#32),
    StableHlo.binary main_v8 main_cst main_v9 ((fun x v => Host.reduceAdd x v reducesTo_S4x2048x29x20_S4x2048x20_d2 h_S_) : (⟨S4x2048x29x20, .f32⟩ : BufTy).Contents (Elt F) → (⟨S_, .f32⟩ : BufTy).Contents (Elt F) → (⟨S4x2048x20, .f32⟩ : BufTy).Contents (Elt F)),
    StableHlo.binary main_arg0 main_v9 main_v10 (addf : (⟨S4x2048x20, .f32⟩ : BufTy).Contents (Elt F) → (⟨S4x2048x20, .f32⟩ : BufTy).Contents (Elt F) → (⟨S4x2048x20, .f32⟩ : BufTy).Contents (Elt F)),
    StableHlo.nullary main_cst_0 (constant S_ .f32 0x00000000#32),
    StableHlo.binary main_v10 main_cst_0 main_v11 ((fun x v => Host.reduceAdd x v reducesTo_S4x2048x20_S4x2048_d2 h_S_) : (⟨S4x2048x20, .f32⟩ : BufTy).Contents (Elt F) → (⟨S_, .f32⟩ : BufTy).Contents (Elt F) → (⟨S4x2048, .f32⟩ : BufTy).Contents (Elt F)),
    StableHlo.unary main_v11 main_v12 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_1 (constant S_ .f32 0x41A00000#32),
    StableHlo.unary main_cst_1 main_v13 (broadcastInDim S4x2048x1 ![] bcast_S_S4x2048x1 : (⟨S_, .f32⟩ : BufTy).Contents (Elt F) → (⟨S4x2048x1, .f32⟩ : BufTy).Contents (Elt F)),
    StableHlo.binary main_v12 main_v13 main_v14 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_c (constantI S_ 32 0#32),
    StableHlo.TRef.nullary main_call2.cst (constant S_ .f32 0x00000000#32),
    StableHlo.TRef.binary (.of main_v10 : StableHlo.TRef sig ⟨S4x2048x20, .f32⟩) main_call2.cst main_call2.v0 (fun x v => Host.reduceAdd x v reducesTo_S4x2048x20_S4x2048_d2 h_S_),
    StableHlo.TRef.unary main_call2.v0 main_call2.v1 (broadcastInDim S4x2048x1 ![0, 1] bcast_S4x2048_S4x2048x1_0_1),
    StableHlo.TRef.nullary main_call2.cst_0 (constant S_ .f32 0x41A00000#32),
    StableHlo.TRef.unary main_call2.cst_0 main_call2.v2 (broadcastInDim S4x2048x1 ![] bcast_S_S4x2048x1),
    StableHlo.TRef.binary main_call2.v1 main_call2.v2 main_call2.v3 Host.divf,
    StableHlo.TRef.unary main_call2.v3 main_call2.v4 (broadcastInDim S4x2048x20 ![0, 1, 2] bcast_S4x2048x1_S4x2048x20_0_1_2),
    StableHlo.TRef.binary (.of main_v10 : StableHlo.TRef sig ⟨S4x2048x20, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x41A00000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4x2048x20_S4x2048_d2 h_S_),
    StableHlo.TRef.unary main_call2.v9 main_call2.v10 (broadcastInDim S4x2048x1 ![0, 1] bcast_S4x2048_S4x2048x1_0_1),
    StableHlo.TRef.unary main_call2.v8 main_call2.v11 (broadcastInDim S4x2048x1 ![] bcast_S_S4x2048x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4x2048x1 ![] bcast_S_S4x2048x1),
    StableHlo.TRef.ternary main_call2.v13 main_call2.v12 main_call2.call0.v1 main_call2.call0.v2 (fun p a b => select (broadcastInDim S4x2048x1 ![] bcast_S_S4x2048x1 p) a b),
    StableHlo.unary main_v14 main_v16 (broadcastInDim S4x2048x20 ![0, 1, 2] bcast_S4x2048x1_S4x2048x20_0_1_2 : (⟨S4x2048x1, .f32⟩ : BufTy).Contents (Elt F) → (⟨S4x2048x20, .f32⟩ : BufTy).Contents (Elt F)),
    StableHlo.binary main_v10 main_v16 main_v17 (subf : (⟨S4x2048x20, .f32⟩ : BufTy).Contents (Elt F) → (⟨S4x2048x20, .f32⟩ : BufTy).Contents (Elt F) → (⟨S4x2048x20, .f32⟩ : BufTy).Contents (Elt F)),
    StableHlo.nullary main_cst_2 (constant S_ .f32 0x3727C5AC#32),
    StableHlo.unary main_cst_2 main_v18 (broadcastInDim S4x2048x1 ![] bcast_S_S4x2048x1 : (⟨S_, .f32⟩ : BufTy).Contents (Elt F) → (⟨S4x2048x1, .f32⟩ : BufTy).Contents (Elt F)),
    StableHlo.binary main_v15 main_v18 main_v19 (addf : (⟨S4x2048x1, .f32⟩ : BufTy).Contents (Elt F) → (⟨S4x2048x1, .f32⟩ : BufTy).Contents (Elt F) → (⟨S4x2048x1, .f32⟩ : BufTy).Contents (Elt F)),
    StableHlo.unary main_v19 main_v20 (Host.rsqrt : (⟨S4x2048x1, .f32⟩ : BufTy).Contents (Elt F) → (⟨S4x2048x1, .f32⟩ : BufTy).Contents (Elt F)),
    StableHlo.unary main_v20 main_v21 (broadcastInDim S4x2048x20 ![0, 1, 2] bcast_S4x2048x1_S4x2048x20_0_1_2 : (⟨S4x2048x1, .f32⟩ : BufTy).Contents (Elt F) → (⟨S4x2048x20, .f32⟩ : BufTy).Contents (Elt F)),
    StableHlo.binary main_v17 main_v21 main_v22 (mulf : (⟨S4x2048x20, .f32⟩ : BufTy).Contents (Elt F) → (⟨S4x2048x20, .f32⟩ : BufTy).Contents (Elt F) → (⟨S4x2048x20, .f32⟩ : BufTy).Contents (Elt F)),
    StableHlo.unary main_arg5 main_v23 (broadcastInDim S1x1x20 ![2] bcast_S20_S1x1x20_2 : (⟨S20, .f32⟩ : BufTy).Contents (Elt F) → (⟨S1x1x20, .f32⟩ : BufTy).Contents (Elt F)),
    StableHlo.unary main_v23 main_v24 (broadcastInDim S4x2048x20 ![0, 1, 2] bcast_S1x1x20_S4x2048x20_0_1_2 : (⟨S1x1x20, .f32⟩ : BufTy).Contents (Elt F) → (⟨S4x2048x20, .f32⟩ : BufTy).Contents (Elt F)),
    StableHlo.binary main_v22 main_v24 main_v25 (mulf : (⟨S4x2048x20, .f32⟩ : BufTy).Contents (Elt F) → (⟨S4x2048x20, .f32⟩ : BufTy).Contents (Elt F) → (⟨S4x2048x20, .f32⟩ : BufTy).Contents (Elt F)),
    StableHlo.unary main_arg6 main_v26 (broadcastInDim S1x1x20 ![2] bcast_S20_S1x1x20_2 : (⟨S20, .f32⟩ : BufTy).Contents (Elt F) → (⟨S1x1x20, .f32⟩ : BufTy).Contents (Elt F)),
    StableHlo.unary main_v26 main_v27 (broadcastInDim S4x2048x20 ![0, 1, 2] bcast_S1x1x20_S4x2048x20_0_1_2 : (⟨S1x1x20, .f32⟩ : BufTy).Contents (Elt F) → (⟨S4x2048x20, .f32⟩ : BufTy).Contents (Elt F)),
    StableHlo.binary main_v25 main_v27 main_v28 (addf : (⟨S4x2048x20, .f32⟩ : BufTy).Contents (Elt F) → (⟨S4x2048x20, .f32⟩ : BufTy).Contents (Elt F) → (⟨S4x2048x20, .f32⟩ : BufTy).Contents (Elt F)),
    StableHlo.unary main_v28 main_v29 (Host.negf : (⟨S4x2048x20, .f32⟩ : BufTy).Contents (Elt F) → (⟨S4x2048x20, .f32⟩ : BufTy).Contents (Elt F)),
    StableHlo.TRef.nullary main_call3.cst (constant S_ .f32 0xFF800000#32),
    StableHlo.TRef.binary (.of main_v29 : StableHlo.TRef sig ⟨S4x2048x20, .f32⟩) main_call3.cst main_call3.v0 (fun x v => Host.reduce FloatOps.maximumf x v reducesTo_S4x2048x20_S4x2048_d2 h_S_),
    StableHlo.TRef.nullary main_call3.cst_0 (constant S_ .f32 0xFF800000#32),
    StableHlo.TRef.unary main_call3.cst_0 main_call3.v1 (broadcastInDim S4x2048 ![] bcast_S_S4x2048),
    StableHlo.TRef.binary main_call3.v1 main_call3.v0 main_call3.v2 maximumf,
    StableHlo.TRef.unary main_call3.v2 main_call3.v3 (broadcastInDim S4x2048x1 ![0, 1] bcast_S4x2048_S4x2048x1_0_1),
    StableHlo.TRef.unary main_call3.v3 main_call3.v4 (broadcastInDim S4x2048x20 ![0, 1, 2] bcast_S4x2048x1_S4x2048x20_0_1_2),
    StableHlo.TRef.binary (.of main_v29 : StableHlo.TRef sig ⟨S4x2048x20, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S4x2048x20_S4x2048_d2 h_S_),
    StableHlo.TRef.unary main_call3.v7 main_call3.v8 (broadcastInDim S4x2048x1 ![0, 1] bcast_S4x2048_S4x2048x1_0_1),
    StableHlo.TRef.unary main_call3.v8 main_call3.v9 Host.log,
    StableHlo.TRef.unary main_call3.v9 main_call3.v10 (broadcastInDim S4x2048x20 ![0, 1, 2] bcast_S4x2048x1_S4x2048x20_0_1_2),
    StableHlo.TRef.binary main_call3.v5 main_call3.v10 main_call3.v11 subf,
    StableHlo.unary main_arg3 main_v31 (broadcastInDim S4x2048x1 ![0, 1] bcast_S4x2048_S4x2048x1_0_1 : (⟨S4x2048, .i32⟩ : BufTy).Contents (Elt F) → (⟨S4x2048x1, .i32⟩ : BufTy).Contents (Elt F)),
    StableHlo.TRef.nullary main_call4.c (constantI S_ 32 0#32),
    StableHlo.TRef.unary main_call4.c main_call4.v0 (broadcastInDim S4x2048x1 ![] bcast_S_S4x2048x1),
    StableHlo.TRef.binary (.of main_v31 : StableHlo.TRef sig ⟨S4x2048x1, .i32⟩) main_call4.v0 main_call4.v1 (cmpi .slt),
    StableHlo.TRef.nullary main_call4.c_0 (constantI S_ 32 20#32),
    StableHlo.TRef.unary main_call4.c_0 main_call4.v2 (broadcastInDim S4x2048x1 ![] bcast_S_S4x2048x1),
    StableHlo.TRef.binary (.of main_v31 : StableHlo.TRef sig ⟨S4x2048x1, .i32⟩) main_call4.v2 main_call4.v3 addi,
    StableHlo.TRef.ternary main_call4.v1 main_call4.v3 (.of main_v31 : StableHlo.TRef sig ⟨S4x2048x1, .i32⟩) main_call4.v4 select,
    StableHlo.TRef.reshape main_call4.v4 main_call4.v5 rfl shapeCasts_S4x2048x1_S4x2048x1x1,
    StableHlo.TRef.nullary main_call4.c_1 (constantI S1 32 19#32),
    StableHlo.TRef.nullary main_call4.c_2 (constantI S_ 32 0#32),
    StableHlo.TRef.unary main_call4.c_2 main_call4.v6 (broadcastInDim S4x2048x1x1 ![] bcast_S_S4x2048x1x1),
    StableHlo.TRef.binary main_call4.v5 main_call4.v6 main_call4.v7 (cmpi .sge),
    StableHlo.TRef.unary main_call4.c_1 main_call4.v8 (broadcastInDim S1x1x1x1 ![3] bcast_S1_S1x1x1x1_3),
    StableHlo.TRef.unary main_call4.v8 main_call4.v9 (broadcastInDim S4x2048x1x1 ![0, 1, 2, 3] bcast_S1x1x1x1_S4x2048x1x1_0_1_2_3),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S4x2048x1x1_S4x2048x1_d3 h_S_),
    StableHlo.TRef.binary (.of main_v30 : StableHlo.TRef sig ⟨S4x2048x20, .f32⟩) main_call4.v5 main_call4.v13 (fun x i => Host.gather gather_S4x2048x20_S4x2048x1x1_S4x2048x1_n_2_01_01_2_3_111 x i),
    StableHlo.TRef.nullary main_call4.cst (constant S_ .f32 0x7FC00000#32),
    StableHlo.TRef.unary main_call4.cst main_call4.v14 (broadcastInDim S4x2048x1 ![] bcast_S_S4x2048x1),
    StableHlo.TRef.ternary main_call4.v12 main_call4.v13 main_call4.v14 main_call4.v15 select,
    StableHlo.reshape main_v32 main_v33 rfl shapeCasts_S4x2048x1_S4x2048,
    StableHlo.binary main_v33 main_arg4 main_v34 (mulf : (⟨S4x2048, .f32⟩ : BufTy).Contents (Elt F) → (⟨S4x2048, .f32⟩ : BufTy).Contents (Elt F) → (⟨S4x2048, .f32⟩ : BufTy).Contents (Elt F)),
    StableHlo.nullary main_cst_3 (constant S_ .f32 0x00000000#32),
    StableHlo.binary main_arg4 main_cst_3 main_v35 ((fun x v => Host.reduceAdd x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.nullary main_cst_4 (constant S_ .f32 0x00000000#32),
    StableHlo.binary main_v34 main_cst_4 main_v36 ((fun x v => Host.reduceAdd x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.binary main_v36 main_v35 main_v37 (Host.divf : (⟨S4, .f32⟩ : BufTy).Contents (Elt F) → (⟨S4, .f32⟩ : BufTy).Contents (Elt F) → (⟨S4, .f32⟩ : BufTy).Contents (Elt F)),
    StableHlo.nullary main_cst_5 (constant S_ .f32 0x00000000#32),
    StableHlo.binary main_v37 main_cst_5 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_6 (constant S_ .f32 0x40800000#32),
    StableHlo.binary main_v38 main_cst_6 main_v39 (Host.divf : (⟨S_, .f32⟩ : BufTy).Contents (Elt F) → (⟨S_, .f32⟩ : BufTy).Contents (Elt F) → (⟨S_, .f32⟩ : BufTy).Contents (Elt F)),
    StableHlo.unary main_v39 main_v40 (Host.negf : (⟨S_, .f32⟩ : BufTy).Contents (Elt F) → (⟨S_, .f32⟩ : BufTy).Contents (Elt F)) ]

/-- Stretch 1 of the line — the label of every true neighbour: the two slices, the label array's two broadcasts and the first gather. -/
abbrev w1 : List (HloOp τ sig (Elt F)) :=
  [ StableHlo.reshape main_arg1 main_v0 rfl shapeCasts_S4x2048x30x400_S4x2048x30x20x20,
    StableHlo.unary main_v0 main_v1 ((extractStridedSlice S4x2048x29x20x20 ![0, 0, 1, 0, 0] · slices_S4x2048x30x20x20_S4x2048x29x20x20_0_0_1_0_0) : (⟨S4x2048x30x20x20, .f32⟩ : BufTy).Contents (Elt F) → (⟨S4x2048x29x20x20, .f32⟩ : BufTy).Contents (Elt F)),
    StableHlo.unary main_arg2 main_v2 ((extractStridedSlice S4x2048x29 ![0, 0, 1] · slices_S4x2048x30_S4x2048x29_0_0_1) : (⟨S4x2048x30, .i32⟩ : BufTy).Contents (Elt F) → (⟨S4x2048x29, .i32⟩ : BufTy).Contents (Elt F)),
    StableHlo.unary main_arg3 main_v3 (broadcastInDim S4x2048x1 ![0, 1] bcast_S4x2048_S4x2048x1_0_1 : (⟨S4x2048, .i32⟩ : BufTy).Contents (Elt F) → (⟨S4x2048x1, .i32⟩ : BufTy).Contents (Elt F)),
    StableHlo.unary main_v3 main_v4 (broadcastInDim S4x2048x29 ![0, 1, 2] bcast_S4x2048x1_S4x2048x29_0_1_2 : (⟨S4x2048x1, .i32⟩ : BufTy).Contents (Elt F) → (⟨S4x2048x29, .i32⟩ : BufTy).Contents (Elt F)),
    StableHlo.TRef.nullary main_call0.c (constantI S_ 32 0#32),
    StableHlo.TRef.unary main_call0.c main_call0.v0 (broadcastInDim S4x2048x29 ![] bcast_S_S4x2048x29),
    StableHlo.TRef.binary (.of main_v2 : StableHlo.TRef sig ⟨S4x2048x29, .i32⟩) main_call0.v0 main_call0.v1 (cmpi .slt),
    StableHlo.TRef.nullary main_call0.c_0 (constantI S_ 32 2048#32),
    StableHlo.TRef.unary main_call0.c_0 main_call0.v2 (broadcastInDim S4x2048x29 ![] bcast_S_S4x2048x29),
    StableHlo.TRef.binary (.of main_v2 : StableHlo.TRef sig ⟨S4x2048x29, .i32⟩) main_call0.v2 main_call0.v3 addi,
    StableHlo.TRef.ternary main_call0.v1 main_call0.v3 (.of main_v2 : StableHlo.TRef sig ⟨S4x2048x29, .i32⟩) main_call0.v4 select,
    StableHlo.TRef.reshape main_call0.v4 main_call0.v5 rfl shapeCasts_S4x2048x29_S4x2048x29x1,
    StableHlo.TRef.nullary main_call0.c_1 (constantI S1 32 2047#32),
    StableHlo.TRef.nullary main_call0.c_2 (constantI S_ 32 0#32),
    StableHlo.TRef.unary main_call0.c_2 main_call0.v6 (broadcastInDim S4x2048x29x1 ![] bcast_S_S4x2048x29x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S4x2048x29x1 ![0, 1, 2, 3] bcast_S1x1x1x1_S4x2048x29x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4x2048x29x1_S4x2048x29_d3 h_S_),
    StableHlo.TRef.binary (.of main_v4 : StableHlo.TRef sig ⟨S4x2048x29, .i32⟩) main_call0.v5 main_call0.v13 (fun x i => Host.gather gather_S4x2048x29_S4x2048x29x1_S4x2048x29_n_1_02_02_1_3_111 x i),
    StableHlo.TRef.nullary main_call0.c_4 (constantI S_ 32 2147483648#32),
    StableHlo.TRef.unary main_call0.c_4 main_call0.v14 (broadcastInDim S4x2048x29 ![] bcast_S_S4x2048x29),
    StableHlo.TRef.ternary main_call0.v12 main_call0.v13 main_call0.v14 main_call0.v15 select ]

/-- Stretch 2 of the line — the pair-table entries at those labels: the broadcast of the labels, the second gather and the reshape. -/
abbrev w2 : List (HloOp τ sig (Elt F)) :=
  [ StableHlo.unary main_v5 main_v6 (broadcastInDim S4x2048x29x1x1 ![0, 1, 2] bcast_S4x2048x29_S4x2048x29x1x1_0_1_2 : (⟨S4x2048x29, .i32⟩ : BufTy).Contents (Elt F) → (⟨S4x2048x29x1x1, .i32⟩ : BufTy).Contents (Elt F)),
    StableHlo.TRef.nullary main_call1.c (constantI S_ 32 0#32),
    StableHlo.TRef.unary main_call1.c main_call1.v0 (broadcastInDim S4x2048x29x1x1 ![] bcast_S_S4x2048x29x1x1),
    StableHlo.TRef.binary (.of main_v6 : StableHlo.TRef sig ⟨S4x2048x29x1x1, .i32⟩) main_call1.v0 main_call1.v1 (cmpi .slt),
    StableHlo.TRef.nullary main_call1.c_0 (constantI S_ 32 20#32),
    StableHlo.TRef.unary main_call1.c_0 main_call1.v2 (broadcastInDim S4x2048x29x1x1 ![] bcast_S_S4x2048x29x1x1),
    StableHlo.TRef.binary (.of main_v6 : StableHlo.TRef sig ⟨S4x2048x29x1x1, .i32⟩) main_call1.v2 main_call1.v3 addi,
    StableHlo.TRef.ternary main_call1.v1 main_call1.v3 (.of main_v6 : StableHlo.TRef sig ⟨S4x2048x29x1x1, .i32⟩) main_call1.v4 select,
    StableHlo.TRef.nullary main_call1.c_1 (constantI S1 32 19#32),
    StableHlo.TRef.nullary main_call1.c_2 (constantI S_ 32 0#32),
    StableHlo.TRef.unary main_call1.c_2 main_call1.v5 (broadcastInDim S4x2048x29x1x1 ![] bcast_S_S4x2048x29x1x1),
    StableHlo.TRef.binary main_call1.v4 main_call1.v5 main_call1.v6 (cmpi .sge),
    StableHlo.TRef.unary main_call1.c_1 main_call1.v7 (broadcastInDim S1x1x1x1x1 ![4] bcast_S1_S1x1x1x1x1_4),
    StableHlo.TRef.unary main_call1.v7 main_call1.v8 (broadcastInDim S4x2048x29x1x1 ![0, 1, 2, 3, 4] bcast_S1x1x1x1x1_S4x2048x29x1x1_0_1_2_3_4),
    StableHlo.TRef.binary main_call1.v4 main_call1.v8 main_call1.v9 (cmpi .sle),
    StableHlo.TRef.binary main_call1.v6 main_call1.v9 main_call1.v10 andi,
    StableHlo.TRef.nullary main_call1.c_3 (constantI S_ 1 1#1),
    StableHlo.TRef.binary main_call1.v10 main_call1.c_3 main_call1.v11 (fun x v => Host.reduce IntOp.andi x v reducesTo_S4x2048x29x1x1_S4x2048x29x1_d4 h_S_),
    StableHlo.TRef.binary (.of main_v1 : StableHlo.TRef sig ⟨S4x2048x29x20x20, .f32⟩) main_call1.v4 main_call1.v12 (fun x i => Host.gather gather_S4x2048x29x20x20_S4x2048x29x1x1_S4x2048x29x20x1_3_4_012_012_4_4_111201 x i),
    StableHlo.TRef.unary main_call1.v11 main_call1.v13 (broadcastInDim S4x2048x29x20x1 ![0, 1, 2, 4] bcast_S4x2048x29x1_S4x2048x29x20x1_0_1_2_4),
    StableHlo.TRef.nullary main_call1.cst (constant S_ .f32 0x7FC00000#32),
    StableHlo.TRef.unary main_call1.cst main_call1.v14 (broadcastInDim S4x2048x29x20x1 ![] bcast_S_S4x2048x29x20x1),
    StableHlo.TRef.ternary main_call1.v13 main_call1.v12 main_call1.v14 main_call1.v15 select,
    StableHlo.reshape main_v7 main_v8 rfl shapeCasts_S4x2048x29x20x1_S4x2048x29x20 ]

/-- Stretch 3 of the line — the energies: the sum over the neighbours plus the self term. -/
abbrev w3 : List (HloOp τ sig (Elt F)) :=
  [ StableHlo.nullary main_cst (constant S_ .f32 0x00000000#32),
    StableHlo.binary main_v8 main_cst main_v9 ((fun x v => Host.reduceAdd x v reducesTo_S4x2048x29x20_S4x2048x20_d2 h_S_) : (⟨S4x2048x29x20, .f32⟩ : BufTy).Contents (Elt F) → (⟨S_, .f32⟩ : BufTy).Contents (Elt F) → (⟨S4x2048x20, .f32⟩ : BufTy).Contents (Elt F)),
    StableHlo.binary main_arg0 main_v9 main_v10 (addf : (⟨S4x2048x20, .f32⟩ : BufTy).Contents (Elt F) → (⟨S4x2048x20, .f32⟩ : BufTy).Contents (Elt F) → (⟨S4x2048x20, .f32⟩ : BufTy).Contents (Elt F)) ]

/-- Stretch 4 of the line — the layer normalisation: mean, variance, reciprocal root, scale and shift. -/
abbrev w4 : List (HloOp τ sig (Elt F)) :=
  [ StableHlo.nullary main_cst_0 (constant S_ .f32 0x00000000#32),
    StableHlo.binary main_v10 main_cst_0 main_v11 ((fun x v => Host.reduceAdd x v reducesTo_S4x2048x20_S4x2048_d2 h_S_) : (⟨S4x2048x20, .f32⟩ : BufTy).Contents (Elt F) → (⟨S_, .f32⟩ : BufTy).Contents (Elt F) → (⟨S4x2048, .f32⟩ : BufTy).Contents (Elt F)),
    StableHlo.unary main_v11 main_v12 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_1 (constant S_ .f32 0x41A00000#32),
    StableHlo.unary main_cst_1 main_v13 (broadcastInDim S4x2048x1 ![] bcast_S_S4x2048x1 : (⟨S_, .f32⟩ : BufTy).Contents (Elt F) → (⟨S4x2048x1, .f32⟩ : BufTy).Contents (Elt F)),
    StableHlo.binary main_v12 main_v13 main_v14 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_c (constantI S_ 32 0#32),
    StableHlo.TRef.nullary main_call2.cst (constant S_ .f32 0x00000000#32),
    StableHlo.TRef.binary (.of main_v10 : StableHlo.TRef sig ⟨S4x2048x20, .f32⟩) main_call2.cst main_call2.v0 (fun x v => Host.reduceAdd x v reducesTo_S4x2048x20_S4x2048_d2 h_S_),
    StableHlo.TRef.unary main_call2.v0 main_call2.v1 (broadcastInDim S4x2048x1 ![0, 1] bcast_S4x2048_S4x2048x1_0_1),
    StableHlo.TRef.nullary main_call2.cst_0 (constant S_ .f32 0x41A00000#32),
    StableHlo.TRef.unary main_call2.cst_0 main_call2.v2 (broadcastInDim S4x2048x1 ![] bcast_S_S4x2048x1),
    StableHlo.TRef.binary main_call2.v1 main_call2.v2 main_call2.v3 Host.divf,
    StableHlo.TRef.unary main_call2.v3 main_call2.v4 (broadcastInDim S4x2048x20 ![0, 1, 2] bcast_S4x2048x1_S4x2048x20_0_1_2),
    StableHlo.TRef.binary (.of main_v10 : StableHlo.TRef sig ⟨S4x2048x20, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x41A00000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4x2048x20_S4x2048_d2 h_S_),
    StableHlo.TRef.unary main_call2.v9 main_call2.v10 (broadcastInDim S4x2048x1 ![0, 1] bcast_S4x2048_S4x2048x1_0_1),
    StableHlo.TRef.unary main_call2.v8 main_call2.v11 (broadcastInDim S4x2048x1 ![] bcast_S_S4x2048x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4x2048x1 ![] bcast_S_S4x2048x1),
    StableHlo.TRef.ternary main_call2.v13 main_call2.v12 main_call2.call0.v1 main_call2.call0.v2 (fun p a b => select (broadcastInDim S4x2048x1 ![] bcast_S_S4x2048x1 p) a b),
    StableHlo.unary main_v14 main_v16 (broadcastInDim S4x2048x20 ![0, 1, 2] bcast_S4x2048x1_S4x2048x20_0_1_2 : (⟨S4x2048x1, .f32⟩ : BufTy).Contents (Elt F) → (⟨S4x2048x20, .f32⟩ : BufTy).Contents (Elt F)),
    StableHlo.binary main_v10 main_v16 main_v17 (subf : (⟨S4x2048x20, .f32⟩ : BufTy).Contents (Elt F) → (⟨S4x2048x20, .f32⟩ : BufTy).Contents (Elt F) → (⟨S4x2048x20, .f32⟩ : BufTy).Contents (Elt F)),
    StableHlo.nullary main_cst_2 (constant S_ .f32 0x3727C5AC#32),
    StableHlo.unary main_cst_2 main_v18 (broadcastInDim S4x2048x1 ![] bcast_S_S4x2048x1 : (⟨S_, .f32⟩ : BufTy).Contents (Elt F) → (⟨S4x2048x1, .f32⟩ : BufTy).Contents (Elt F)),
    StableHlo.binary main_v15 main_v18 main_v19 (addf : (⟨S4x2048x1, .f32⟩ : BufTy).Contents (Elt F) → (⟨S4x2048x1, .f32⟩ : BufTy).Contents (Elt F) → (⟨S4x2048x1, .f32⟩ : BufTy).Contents (Elt F)),
    StableHlo.unary main_v19 main_v20 (Host.rsqrt : (⟨S4x2048x1, .f32⟩ : BufTy).Contents (Elt F) → (⟨S4x2048x1, .f32⟩ : BufTy).Contents (Elt F)),
    StableHlo.unary main_v20 main_v21 (broadcastInDim S4x2048x20 ![0, 1, 2] bcast_S4x2048x1_S4x2048x20_0_1_2 : (⟨S4x2048x1, .f32⟩ : BufTy).Contents (Elt F) → (⟨S4x2048x20, .f32⟩ : BufTy).Contents (Elt F)),
    StableHlo.binary main_v17 main_v21 main_v22 (mulf : (⟨S4x2048x20, .f32⟩ : BufTy).Contents (Elt F) → (⟨S4x2048x20, .f32⟩ : BufTy).Contents (Elt F) → (⟨S4x2048x20, .f32⟩ : BufTy).Contents (Elt F)),
    StableHlo.unary main_arg5 main_v23 (broadcastInDim S1x1x20 ![2] bcast_S20_S1x1x20_2 : (⟨S20, .f32⟩ : BufTy).Contents (Elt F) → (⟨S1x1x20, .f32⟩ : BufTy).Contents (Elt F)),
    StableHlo.unary main_v23 main_v24 (broadcastInDim S4x2048x20 ![0, 1, 2] bcast_S1x1x20_S4x2048x20_0_1_2 : (⟨S1x1x20, .f32⟩ : BufTy).Contents (Elt F) → (⟨S4x2048x20, .f32⟩ : BufTy).Contents (Elt F)),
    StableHlo.binary main_v22 main_v24 main_v25 (mulf : (⟨S4x2048x20, .f32⟩ : BufTy).Contents (Elt F) → (⟨S4x2048x20, .f32⟩ : BufTy).Contents (Elt F) → (⟨S4x2048x20, .f32⟩ : BufTy).Contents (Elt F)),
    StableHlo.unary main_arg6 main_v26 (broadcastInDim S1x1x20 ![2] bcast_S20_S1x1x20_2 : (⟨S20, .f32⟩ : BufTy).Contents (Elt F) → (⟨S1x1x20, .f32⟩ : BufTy).Contents (Elt F)),
    StableHlo.unary main_v26 main_v27 (broadcastInDim S4x2048x20 ![0, 1, 2] bcast_S1x1x20_S4x2048x20_0_1_2 : (⟨S1x1x20, .f32⟩ : BufTy).Contents (Elt F) → (⟨S4x2048x20, .f32⟩ : BufTy).Contents (Elt F)),
    StableHlo.binary main_v25 main_v27 main_v28 (addf : (⟨S4x2048x20, .f32⟩ : BufTy).Contents (Elt F) → (⟨S4x2048x20, .f32⟩ : BufTy).Contents (Elt F) → (⟨S4x2048x20, .f32⟩ : BufTy).Contents (Elt F)) ]

/-- Stretch 5 of the line — the negation and the log-softmax. -/
abbrev w5 : List (HloOp τ sig (Elt F)) :=
  [ StableHlo.unary main_v28 main_v29 (Host.negf : (⟨S4x2048x20, .f32⟩ : BufTy).Contents (Elt F) → (⟨S4x2048x20, .f32⟩ : BufTy).Contents (Elt F)),
    StableHlo.TRef.nullary main_call3.cst (constant S_ .f32 0xFF800000#32),
    StableHlo.TRef.binary (.of main_v29 : StableHlo.TRef sig ⟨S4x2048x20, .f32⟩) main_call3.cst main_call3.v0 (fun x v => Host.reduce FloatOps.maximumf x v reducesTo_S4x2048x20_S4x2048_d2 h_S_),
    StableHlo.TRef.nullary main_call3.cst_0 (constant S_ .f32 0xFF800000#32),
    StableHlo.TRef.unary main_call3.cst_0 main_call3.v1 (broadcastInDim S4x2048 ![] bcast_S_S4x2048),
    StableHlo.TRef.binary main_call3.v1 main_call3.v0 main_call3.v2 maximumf,
    StableHlo.TRef.unary main_call3.v2 main_call3.v3 (broadcastInDim S4x2048x1 ![0, 1] bcast_S4x2048_S4x2048x1_0_1),
    StableHlo.TRef.unary main_call3.v3 main_call3.v4 (broadcastInDim S4x2048x20 ![0, 1, 2] bcast_S4x2048x1_S4x2048x20_0_1_2),
    StableHlo.TRef.binary (.of main_v29 : StableHlo.TRef sig ⟨S4x2048x20, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S4x2048x20_S4x2048_d2 h_S_),
    StableHlo.TRef.unary main_call3.v7 main_call3.v8 (broadcastInDim S4x2048x1 ![0, 1] bcast_S4x2048_S4x2048x1_0_1),
    StableHlo.TRef.unary main_call3.v8 main_call3.v9 Host.log,
    StableHlo.TRef.unary main_call3.v9 main_call3.v10 (broadcastInDim S4x2048x20 ![0, 1, 2] bcast_S4x2048x1_S4x2048x20_0_1_2),
    StableHlo.TRef.binary main_call3.v5 main_call3.v10 main_call3.v11 subf ]

/-- Stretch 6 of the line — the entry at the residue's own label, times the mask. -/
abbrev w6 : List (HloOp τ sig (Elt F)) :=
  [ StableHlo.unary main_arg3 main_v31 (broadcastInDim S4x2048x1 ![0, 1] bcast_S4x2048_S4x2048x1_0_1 : (⟨S4x2048, .i32⟩ : BufTy).Contents (Elt F) → (⟨S4x2048x1, .i32⟩ : BufTy).Contents (Elt F)),
    StableHlo.TRef.nullary main_call4.c (constantI S_ 32 0#32),
    StableHlo.TRef.unary main_call4.c main_call4.v0 (broadcastInDim S4x2048x1 ![] bcast_S_S4x2048x1),
    StableHlo.TRef.binary (.of main_v31 : StableHlo.TRef sig ⟨S4x2048x1, .i32⟩) main_call4.v0 main_call4.v1 (cmpi .slt),
    StableHlo.TRef.nullary main_call4.c_0 (constantI S_ 32 20#32),
    StableHlo.TRef.unary main_call4.c_0 main_call4.v2 (broadcastInDim S4x2048x1 ![] bcast_S_S4x2048x1),
    StableHlo.TRef.binary (.of main_v31 : StableHlo.TRef sig ⟨S4x2048x1, .i32⟩) main_call4.v2 main_call4.v3 addi,
    StableHlo.TRef.ternary main_call4.v1 main_call4.v3 (.of main_v31 : StableHlo.TRef sig ⟨S4x2048x1, .i32⟩) main_call4.v4 select,
    StableHlo.TRef.reshape main_call4.v4 main_call4.v5 rfl shapeCasts_S4x2048x1_S4x2048x1x1,
    StableHlo.TRef.nullary main_call4.c_1 (constantI S1 32 19#32),
    StableHlo.TRef.nullary main_call4.c_2 (constantI S_ 32 0#32),
    StableHlo.TRef.unary main_call4.c_2 main_call4.v6 (broadcastInDim S4x2048x1x1 ![] bcast_S_S4x2048x1x1),
    StableHlo.TRef.binary main_call4.v5 main_call4.v6 main_call4.v7 (cmpi .sge),
    StableHlo.TRef.unary main_call4.c_1 main_call4.v8 (broadcastInDim S1x1x1x1 ![3] bcast_S1_S1x1x1x1_3),
    StableHlo.TRef.unary main_call4.v8 main_call4.v9 (broadcastInDim S4x2048x1x1 ![0, 1, 2, 3] bcast_S1x1x1x1_S4x2048x1x1_0_1_2_3),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S4x2048x1x1_S4x2048x1_d3 h_S_),
    StableHlo.TRef.binary (.of main_v30 : StableHlo.TRef sig ⟨S4x2048x20, .f32⟩) main_call4.v5 main_call4.v13 (fun x i => Host.gather gather_S4x2048x20_S4x2048x1x1_S4x2048x1_n_2_01_01_2_3_111 x i),
    StableHlo.TRef.nullary main_call4.cst (constant S_ .f32 0x7FC00000#32),
    StableHlo.TRef.unary main_call4.cst main_call4.v14 (broadcastInDim S4x2048x1 ![] bcast_S_S4x2048x1),
    StableHlo.TRef.ternary main_call4.v12 main_call4.v13 main_call4.v14 main_call4.v15 select,
    StableHlo.reshape main_v32 main_v33 rfl shapeCasts_S4x2048x1_S4x2048,
    StableHlo.binary main_v33 main_arg4 main_v34 (mulf : (⟨S4x2048, .f32⟩ : BufTy).Contents (Elt F) → (⟨S4x2048, .f32⟩ : BufTy).Contents (Elt F) → (⟨S4x2048, .f32⟩ : BufTy).Contents (Elt F)) ]

/-- Stretch 7 of the line — the ratio of sums per batch entry and minus the mean of the four. -/
abbrev w7 : List (HloOp τ sig (Elt F)) :=
  [ StableHlo.nullary main_cst_3 (constant S_ .f32 0x00000000#32),
    StableHlo.binary main_arg4 main_cst_3 main_v35 ((fun x v => Host.reduceAdd x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.nullary main_cst_4 (constant S_ .f32 0x00000000#32),
    StableHlo.binary main_v34 main_cst_4 main_v36 ((fun x v => Host.reduceAdd x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.binary main_v36 main_v35 main_v37 (Host.divf : (⟨S4, .f32⟩ : BufTy).Contents (Elt F) → (⟨S4, .f32⟩ : BufTy).Contents (Elt F) → (⟨S4, .f32⟩ : BufTy).Contents (Elt F)),
    StableHlo.nullary main_cst_5 (constant S_ .f32 0x00000000#32),
    StableHlo.binary main_v37 main_cst_5 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_6 (constant S_ .f32 0x40800000#32),
    StableHlo.binary main_v38 main_cst_6 main_v39 (Host.divf : (⟨S_, .f32⟩ : BufTy).Contents (Elt F) → (⟨S_, .f32⟩ : BufTy).Contents (Elt F) → (⟨S_, .f32⟩ : BufTy).Contents (Elt F)),
    StableHlo.unary main_v39 main_v40 (Host.negf : (⟨S_, .f32⟩ : BufTy).Contents (Elt F) → (⟨S_, .f32⟩ : BufTy).Contents (Elt F)) ]

set_option maxRecDepth 8192 in
/-- The line is its seven stretches one after the other. -/
theorem ops_eq : (ops : List (HloOp τ sig (Elt F))) = w1 ++ (w2 ++ (w3 ++ (w4 ++ (w5 ++ (w6 ++ w7))))) := rfl

/-- Running two lines one after the other: the second starts from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- one hundred and forty-nine binds re-associated: the rewrite under the chain recurses once per statement
set_option maxRecDepth 8192 in
set_option maxHeartbeats 4000000 in
/-- @main is that straight line: with the functions' bodies unfolded at their calls and the records at their fields, both
    sides are one chain of steps once sequencing is re-associated. -/
theorem main_eq (c : Dev nD) : main (F := F) c = seq ops := by
  simp only [main, fn_take_along_axis.body, fn_take_along_axis_0.body, fn_var.body, fn_where.body, fn_log_softmax.body, fn_take_along_axis_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨reshape_bufs_sub .., unary_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., binary_bufs_sub .., nullary_bufs_sub .., binary_bufs_sub .., binary_bufs_sub .., nullary_bufs_sub .., binary_bufs_sub .., nullary_bufs_sub .., binary_bufs_sub .., unary_bufs_sub ..⟩

set_option maxRecDepth 8192 in
set_option maxHeartbeats 4000000 in
/-- From any memory with zero counters every weakly fair execution of @main terminates, and every buffer ends at the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each stretch writes, and keeps -/

/-- The buffers stretch 1 writes. -/
abbrev w1_W : List (Ref sig .tc) := [main_v0, main_v1, main_v2, main_v3, main_v4, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v5]
theorem w1_writes : (w1 : List (HloOp τ sig (Elt F))).Forall fun op => op.writes ⊆ (w1_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer stretch 1 does not write keeps its contents through it. -/
theorem w1_keep (W : Valuation τ sig (Elt F)) (r : Ref sig .tc) (h : r ∉ w1_W) :
    after w1 W (Proc.devRef .tc r) = W (Proc.devRef .tc r) :=
  after_of_writes_sub w1 _ w1_writes h

/-- The buffers stretch 2 writes. -/
abbrev w2_W : List (Ref sig .tc) := [main_v6, main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v7, main_v8]
theorem w2_writes : (w2 : List (HloOp τ sig (Elt F))).Forall fun op => op.writes ⊆ (w2_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer stretch 2 does not write keeps its contents through it. -/
theorem w2_keep (W : Valuation τ sig (Elt F)) (r : Ref sig .tc) (h : r ∉ w2_W) :
    after w2 W (Proc.devRef .tc r) = W (Proc.devRef .tc r) :=
  after_of_writes_sub w2 _ w2_writes h

/-- The buffers stretch 3 writes. -/
abbrev w3_W : List (Ref sig .tc) := [main_cst, main_v9, main_v10]
theorem w3_writes : (w3 : List (HloOp τ sig (Elt F))).Forall fun op => op.writes ⊆ (w3_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer stretch 3 does not write keeps its contents through it. -/
theorem w3_keep (W : Valuation τ sig (Elt F)) (r : Ref sig .tc) (h : r ∉ w3_W) :
    after w3 W (Proc.devRef .tc r) = W (Proc.devRef .tc r) :=
  after_of_writes_sub w3 _ w3_writes h

/-- The buffers stretch 4 writes. -/
abbrev w4_W : List (Ref sig .tc) := [main_cst_0, main_v11, main_v12, main_cst_1, main_v13, main_v14, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v15, main_v16, main_v17, main_cst_2, main_v18, main_v19, main_v20, main_v21, main_v22, main_v23, main_v24, main_v25, main_v26, main_v27, main_v28]
theorem w4_writes : (w4 : List (HloOp τ sig (Elt F))).Forall fun op => op.writes ⊆ (w4_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer stretch 4 does not write keeps its contents through it. -/
theorem w4_keep (W : Valuation τ sig (Elt F)) (r : Ref sig .tc) (h : r ∉ w4_W) :
    after w4 W (Proc.devRef .tc r) = W (Proc.devRef .tc r) :=
  after_of_writes_sub w4 _ w4_writes h

/-- The buffers stretch 5 writes. -/
abbrev w5_W : List (Ref sig .tc) := [main_v29, main_call3_cst, main_call3_v0, main_call3_cst_0, main_call3_v1, main_call3_v2, main_call3_v3, main_call3_v4, main_call3_v5, main_call3_v6, main_call3_cst_1, main_call3_v7, main_call3_v8, main_call3_v9, main_call3_v10, main_v30]
theorem w5_writes : (w5 : List (HloOp τ sig (Elt F))).Forall fun op => op.writes ⊆ (w5_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer stretch 5 does not write keeps its contents through it. -/
theorem w5_keep (W : Valuation τ sig (Elt F)) (r : Ref sig .tc) (h : r ∉ w5_W) :
    after w5 W (Proc.devRef .tc r) = W (Proc.devRef .tc r) :=
  after_of_writes_sub w5 _ w5_writes h

/-- The buffers stretch 6 writes. -/
abbrev w6_W : List (Ref sig .tc) := [main_v31, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v32, main_v33, main_v34]
theorem w6_writes : (w6 : List (HloOp τ sig (Elt F))).Forall fun op => op.writes ⊆ (w6_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer stretch 6 does not write keeps its contents through it. -/
theorem w6_keep (W : Valuation τ sig (Elt F)) (r : Ref sig .tc) (h : r ∉ w6_W) :
    after w6 W (Proc.devRef .tc r) = W (Proc.devRef .tc r) :=
  after_of_writes_sub w6 _ w6_writes h

/-- The buffers stretch 7 writes. -/
abbrev w7_W : List (Ref sig .tc) := [main_cst_3, main_v35, main_cst_4, main_v36, main_v37, main_cst_5, main_v38, main_cst_6, main_v39, main_v40]
theorem w7_writes : (w7 : List (HloOp τ sig (Elt F))).Forall fun op => op.writes ⊆ (w7_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer stretch 7 does not write keeps its contents through it. -/
theorem w7_keep (W : Valuation τ sig (Elt F)) (r : Ref sig .tc) (h : r ∉ w7_W) :
    after w7 W (Proc.devRef .tc r) = W (Proc.devRef .tc r) :=
  after_of_writes_sub w7 _ w7_writes h

/-! ## What each stretch computes

Each stretch's result buffer, read through the stretch's operations from any contents before it, is the stage function of
the contents of the buffers the stretch reads: every operation's result at its own buffer is its function of its
operands' contents, and at any other buffer what was there; a typed reference's transport of contents along its type
equation and back is the identity (the two transports compose to one along a reflexive equation), and what is left of
it at these literal references is the identity too. -/

-- the reduction and the gather are kept closed: the equation never looks inside them
attribute [local irreducible] Host.reduce Host.gather in
set_option maxRecDepth 8192 in
set_option maxHeartbeats 1000000 in
/-- Stretch 1 leaves the label of every true neighbour, a function of the position array and the label array. -/
theorem w1_v5 (W : Valuation τ sig (Elt F)) :
    after w1 W (main_v5 : DevRef τ sig)
      = eaaFn (W (main_arg2 : DevRef τ sig)) (W (main_arg3 : DevRef τ sig)) := by
  after_results_simp
  simp only [eaaFn, takeRows, cast_cast, cast_eq]
  first | done | rfl

set_option maxRecDepth 8192 in
set_option maxHeartbeats 2000000 in
/-- Stretch 1 leaves the pair table with its last axis split in two and its first neighbour column dropped. -/
theorem w1_v1 (W : Valuation τ sig (Elt F)) :
    after w1 W (main_v1 : DevRef τ sig)
      = tabFn (W (main_arg1 : DevRef τ sig)) := by
  after_results_simp
  rfl

-- the reduction and the gather are kept closed: the equation never looks inside them
attribute [local irreducible] Host.reduce Host.gather in
set_option maxRecDepth 8192 in
set_option maxHeartbeats 1000000 in
/-- Stretch 2 leaves the split table taken along its label axis at the neighbours' labels, the unit axis dropped. -/
theorem w2_out (W : Valuation τ sig (Elt F)) :
    after w2 W (main_v8 : DevRef τ sig)
      = pairAtFn (W (main_v1 : DevRef τ sig)) (W (main_v5 : DevRef τ sig)) := by
  after_results_simp
  simp only [pairAtFn, takePair, cast_cast, cast_eq]
  first | done | rfl

/-- Stretch 3 leaves the energies. -/
theorem w3_out (W : Valuation τ sig (Elt F)) :
    after w3 W (main_v10 : DevRef τ sig)
      = energyFn (W (main_arg0 : DevRef τ sig)) (W (main_v8 : DevRef τ sig)) := by
  after_results_simp
  rfl

set_option maxRecDepth 8192 in
set_option maxHeartbeats 2000000 in
/-- Stretch 4 leaves the layer normalisation of the energies. -/
theorem w4_out (W : Valuation τ sig (Elt F)) :
    after w4 W (main_v28 : DevRef τ sig)
      = lnFn (W (main_v10 : DevRef τ sig)) (W (main_arg5 : DevRef τ sig)) (W (main_arg6 : DevRef τ sig)) := by
  after_results_simp
  rfl

-- the reduction and the gather are kept closed: the equation never looks inside them
attribute [local irreducible] Host.reduce Host.gather in
set_option maxRecDepth 8192 in
set_option maxHeartbeats 1000000 in
/-- Stretch 5 leaves the log-softmax of the negated normalised energies. -/
theorem w5_out (W : Valuation τ sig (Elt F)) :
    after w5 W (main_v30 : DevRef τ sig)
      = lsmFn (W (main_v28 : DevRef τ sig)) := by
  after_results_simp
  simp only [lsmFn, cast_cast, cast_eq]
  first | done | rfl

-- the reduction and the gather are kept closed: the equation never looks inside them
attribute [local irreducible] Host.reduce Host.gather in
set_option maxRecDepth 8192 in
set_option maxHeartbeats 1000000 in
/-- Stretch 6 leaves the masked log-probabilities. -/
theorem w6_out (W : Valuation τ sig (Elt F)) :
    after w6 W (main_v34 : DevRef τ sig)
      = selFn (W (main_v30 : DevRef τ sig)) (W (main_arg3 : DevRef τ sig)) (W (main_arg4 : DevRef τ sig)) := by
  after_results_simp
  simp only [selFn, takeLabel, cast_cast, cast_eq]
  first | done | rfl

set_option maxRecDepth 8192 in
set_option maxHeartbeats 2000000 in
/-- Stretch 7 leaves the loss. -/
theorem w7_out (W : Valuation τ sig (Elt F)) :
    after w7 W (main_v40 : DevRef τ sig)
      = tailFn (W (main_v34 : DevRef τ sig)) (W (main_arg4 : DevRef τ sig)) := by
  after_results_simp
  rfl

/-! ## The whole line -/

/-- The result: the seven stages composed. Stretch by stretch from the last, each result buffer is the stage function of what
    the stretch read, and an argument read by a later stretch is untouched by the earlier ones. -/
theorem out_eq (V : Valuation τ sig (Elt F)) :
    after ops V (main_v40 : DevRef τ sig)
      = refFn (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  rw [ops_eq]
  simp only [after_append]
  rw [w7_out, w6_out, w6_keep _ main_arg4 (by decide),
    w5_out, w5_keep _ main_arg3 (by decide), w5_keep _ main_arg4 (by decide),
    w4_out, w4_keep _ main_arg3 (by decide), w4_keep _ main_arg4 (by decide),
    w3_out, w3_keep _ main_arg3 (by decide), w3_keep _ main_arg4 (by decide), w3_keep _ main_arg5 (by decide), w3_keep _ main_arg6 (by decide),
    w2_out, w2_keep _ main_arg0 (by decide), w2_keep _ main_arg3 (by decide), w2_keep _ main_arg4 (by decide), w2_keep _ main_arg5 (by decide), w2_keep _ main_arg6 (by decide),
    w1_v5, w1_v1, w1_keep _ main_arg0 (by decide), w1_keep _ main_arg3 (by decide), w1_keep _ main_arg4 (by decide), w1_keep _ main_arg5 (by decide), w1_keep _ main_arg6 (by decide)]
  rfl

/-- A buffer none of the seven stretches writes keeps its contents through the whole line. -/
theorem ops_keep (V : Valuation τ sig (Elt F)) (r : Ref sig .tc)
    (h1 : r ∉ w1_W) (h2 : r ∉ w2_W) (h3 : r ∉ w3_W) (h4 : r ∉ w4_W) (h5 : r ∉ w5_W) (h6 : r ∉ w6_W) (h7 : r ∉ w7_W) :
    after ops V (Proc.devRef .tc r) = V (Proc.devRef .tc r) := by
  rw [ops_eq]
  simp only [after_append]
  rw [w7_keep _ r h7, w6_keep _ r h6, w5_keep _ r h5, w4_keep _ r h4, w3_keep _ r h3, w2_keep _ r h2, w1_keep _ r h1]

/-- On every device, for any float values, from any memory with zero counters: every weakly fair execution of @main
    terminates with the result at `refFn` of the arguments' launch contents and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = refFn (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v40).trans (out_eq (launchContents m c)),
      (h c main_arg0).trans (ops_keep (launchContents m c) main_arg0 (by decide) (by decide) (by decide) (by decide) (by decide) (by decide) (by decide)),
      (h c main_arg1).trans (ops_keep (launchContents m c) main_arg1 (by decide) (by decide) (by decide) (by decide) (by decide) (by decide) (by decide)),
      (h c main_arg2).trans (ops_keep (launchContents m c) main_arg2 (by decide) (by decide) (by decide) (by decide) (by decide) (by decide) (by decide)),
      (h c main_arg3).trans (ops_keep (launchContents m c) main_arg3 (by decide) (by decide) (by decide) (by decide) (by decide) (by decide) (by decide)),
      (h c main_arg4).trans (ops_keep (launchContents m c) main_arg4 (by decide) (by decide) (by decide) (by decide) (by decide) (by decide) (by decide)),
      (h c main_arg5).trans (ops_keep (launchContents m c) main_arg5 (by decide) (by decide) (by decide) (by decide) (by decide) (by decide) (by decide)),
      (h c main_arg6).trans (ops_keep (launchContents m c) main_arg6 (by decide) (by decide) (by decide) (by decide) (by decide) (by decide) (by decide))⟩)
    (run_main m ρ)

end Cert.ReferenceIdeal.Hand

end
-- ==== Proof.Spec.lean ====
/-
  The mathematics both programs compute, stated once over the extended reals and over literal shapes, free of
  either program's text.

  For a residue (b, l) and an amino-acid a the ENERGY is the self term plus, over the 29 true neighbours k = 1 … 29,
  the pair-table entry of (a, c_k), where c_k is the label of neighbour k: the label array read at the neighbour's
  position. The pair table's last axis is the flattened pair (a, c) ↦ 20·a + c. The twenty energies of a residue are
  layer-normalised (mean and variance over the twenty, the variance shifted by ε under a reciprocal square root, then
  scale and shift), negated, and passed through a log-softmax over the twenty (the row's maximum subtracted first);
  the entry at the residue's own label, times the residue's mask, is the residue's log-probability. The program's
  one result is minus the mean over the batch of (sum of log-probabilities / sum of the mask).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- [batch, position]. -/
abbrev SBL : Shape := ⟨2, ![4, 2048]⟩
/-- [batch, position, amino-acid]. -/
abbrev SBLA : Shape := ⟨3, ![4, 2048, 20]⟩
/-- [batch, position, neighbour]. -/
abbrev SBLK : Shape := ⟨3, ![4, 2048, 30]⟩
/-- [batch, position, neighbour, flattened pair]. -/
abbrev SBLKJ : Shape := ⟨4, ![4, 2048, 30, 400]⟩
/-- [amino-acid]. -/
abbrev SA : Shape := ⟨1, ![20]⟩
/-- [batch]. -/
abbrev SB : Shape := ⟨1, ![4]⟩
/-- A scalar. -/
abbrev S0 : Shape := ⟨0, ![]⟩

/-- The weight of a one-hot selection: one where the two words agree, zero elsewhere. -/
def oh (u v : BitVec 32) : EReal := if u = v then 1 else 0

/-- The divisor of a mean over twenty entries, as both programs spell it. -/
def c20 : EReal := Ideal.ofBits .f32 0x41A00000#32
/-- The variance's shift ε, as both programs spell it. -/
def ceps : EReal := Ideal.ofBits .f32 0x3727C5AC#32

/-- The mean of twenty entries. -/
def mean20 (x : Fin 20 → EReal) : EReal := Ideal.div (∑ a, x a) c20
/-- Their (biased) variance: the mean of the squared deviations. -/
def var20 (x : Fin 20 → EReal) : EReal := Ideal.div (∑ a, (x a - mean20 x) * (x a - mean20 x)) c20
/-- Layer normalisation before the shift: deviation times the reciprocal root of (variance + ε), times the scale. -/
def lnormW (x w : Fin 20 → EReal) (a : Fin 20) : EReal := (x a - mean20 x) * Ideal.rsqrt (var20 x + ceps) * w a
/-- Layer normalisation: scale and shift. -/
def lnorm (x w b : Fin 20 → EReal) (a : Fin 20) : EReal := lnormW x w a + b a
/-- The largest of twenty entries (from −∞). -/
def rowmax (y : Fin 20 → EReal) : EReal := (Finset.univ : Finset (Fin 20)).fold max ⊥ y
/-- The log-softmax of twenty entries, the maximum subtracted first. -/
def lsm (y : Fin 20 → EReal) (a : Fin 20) : EReal :=
  (y a - rowmax y) - Ideal.log (∑ a', Ideal.exp (y a' - rowmax y))

/-- The label of neighbour `k + 1` of residue (b, l): the label array at the neighbour's position. -/
def nbr (eidx : SBLK.Idx → BitVec 32) (seqs : SBL.Idx → BitVec 32) (b : Fin 4) (l : Fin 2048) (k : Fin 29) : BitVec 32 :=
  seqs (ix2 b ⟨(eidx (ix3 b l k.succ)).toNat % 2048, Nat.mod_lt _ (by norm_num)⟩)

/-- The energy of amino-acid `a` at residue (b, l): the self term plus the pair terms of the 29 true neighbours. -/
def energy (self : SBLA.Idx → EReal) (etab : SBLKJ.Idx → EReal) (eidx : SBLK.Idx → BitVec 32) (seqs : SBL.Idx → BitVec 32)
    (b : Fin 4) (l : Fin 2048) (a : Fin 20) : EReal :=
  self (ix3 b l a)
    + ∑ k : Fin 29, etab (ix4 b l k.succ ⟨(20 * a.val + (nbr eidx seqs b l k).toNat) % 400, Nat.mod_lt _ (by norm_num)⟩)

/-- The log-probability of residue (b, l): the log-softmax of the negated, layer-normalised energies at the residue's own
    label, times its mask. -/
def rowOut (self : SBLA.Idx → EReal) (etab : SBLKJ.Idx → EReal) (eidx : SBLK.Idx → BitVec 32) (seqs : SBL.Idx → BitVec 32)
    (mask : SBL.Idx → EReal) (w bias : SA.Idx → EReal) (b : Fin 4) (l : Fin 2048) : EReal :=
  lsm (fun a => -(lnorm (energy self etab eidx seqs b l) (fun a' => w (ix1 a')) (fun a' => bias (ix1 a')) a))
      ⟨(seqs (ix2 b l)).toNat % 20, Nat.mod_lt _ (by norm_num)⟩
    * mask (ix2 b l)

/-- All the log-probabilities, as an array over [batch, position]. -/
def outArr (self : SBLA.Idx → EReal) (etab : SBLKJ.Idx → EReal) (eidx : SBLK.Idx → BitVec 32) (seqs : SBL.Idx → BitVec 32)
    (mask : SBL.Idx → EReal) (w bias : SA.Idx → EReal) : SBL.Idx → EReal :=
  fun i => rowOut self etab eidx seqs mask w bias (i 0) (i 1)

theorem outArr_apply (self : SBLA.Idx → EReal) (etab : SBLKJ.Idx → EReal) (eidx : SBLK.Idx → BitVec 32) (seqs : SBL.Idx → BitVec 32)
    (mask : SBL.Idx → EReal) (w bias : SA.Idx → EReal) (b : Fin 4) (l : Fin 2048) :
    outArr self etab eidx seqs mask w bias (ix2 b l) = rowOut self etab eidx seqs mask w bias b l := rfl

/-- What both programs do last, on the host, with the log-probabilities and the mask: per batch entry the sum of the
    log-probabilities over the sum of the mask; then minus a quarter of the sum over the four batch entries. -/
def tail (h1 : SBL.ReducesTo [1] SB) (h2 : SB.ReducesTo [0] S0) (hu : 0 < S0.numel)
    (out mask : FVec Ideal SBL .f32) : FVec Ideal S0 .f32 :=
  Host.negf (F := Ideal)
    (Host.divf (F := Ideal)
      (Host.reduceAdd (F := Ideal)
        (Host.divf (F := Ideal)
          (Host.reduceAdd (F := Ideal) out (constant (F := Ideal) S0 .f32 0x00000000#32) h1 hu)
          (Host.reduceAdd (F := Ideal) mask (constant (F := Ideal) S0 .f32 0x00000000#32) h1 hu))
        (constant (F := Ideal) S0 .f32 0x00000000#32) h2 hu)
      (constant (F := Ideal) S0 .f32 0x40800000#32))

end Cert.Spec

end
-- ==== Proof.RefGather.lean ====
/-
  The reference's first two gathers read at an index: with every neighbour position inside the position axis the label
  gather reads the label array at that position; with every label below twenty the pair gather reads the pair table, its
  last axis split as (amino-acid, label), at the neighbour's label.

  Both gathers are a take along one axis: an index is wrapped once by the axis's length when it is negative as a signed
  word, tested against the axis's range, and the array is read at the index where the test passed (a fill value
  elsewhere). A word whose unsigned value is below the axis's length is non-negative as a signed word and inside the
  range, so the wrap leaves it alone, the test passes, and the read is at the word's own value, on the batch
  coordinates of the result's position.
-/
import proofs.«431343_j9320079033225_1_alg».proof.Proof.RefFn
import proofs.«431343_j9320079033225_1_alg».proof.Proof.Spec
import Idealize.ShloMosaic.Lib.ValueIdx
import Idealize.ShloMosaic.Lib.Pipeline.Value
import Idealize.ShloMosaic.Lib.StableHlo.Predicate
import Idealize.ShloMosaic.PureOps.Reduce

noncomputable section

namespace Cert.ReferenceIdeal.Hand

open Cert.ReferenceIdeal Cert.ReferenceIdeal.Gen Idealize.ShloMosaic Idealize.ShloMosaic.TcCoe Idealize.ShloMosaic.ValueIdx
open Idealize.ShloMosaic.StableHlo.Predicate (slt_iff_toNat sge_iff_toNat sle_iff_toNat toInt_eq_toNat_of_lt)

namespace Gather

/-! ## Words: the wrap, the range test, the conjunction over a unit axis -/

/-- A conjunction of bits that are all one, started from one, is one: the and-reduce of an all-ones array. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize ((List.finRange s.numel).map s.rowMajor.symm).filter (fun i => h.drop i = j) = l
  induction l with
  | nil => rfl
  | cons a l ih =>
    rw [List.foldl_cons, hx a]
    have e : IntOp.andi 1#1 1#1 = 1#1 := by decide
    rw [e]; exact ih

/-- A word below 2³¹ is not negative as a signed word, so the wrap (add the axis's length where the index is negative)
    leaves it as it is. -/
theorem wrap_apply {s : Shape} (idx z n : IVec s 32) (i : s.Idx) (hz : z i = 0#32) (h : (idx i).toNat < 2 ^ 31) :
    select (cmpi .slt idx z) (addi idx n) idx i = idx i := by
  show Scalar.select (IntOp.cmpi .slt (idx i) (z i)) (IntOp.addi (idx i) (n i)) (idx i) = idx i
  rw [hz]
  have hc : ¬ IntOp.cmpi .slt (idx i) 0#32 = 1#1 := by
    intro hh
    have := (slt_iff_toNat (a := idx i) (b := 0#32) h (by decide)).mp hh
    simp at this
  exact if_neg hc

/-- A word whose unsigned value is at most `M` (itself below 2³¹) passes the test `0 ≤ · ≤ M` of signed words. -/
theorem inRange_apply {s : Shape} (v lo hi : IVec s 32) (i : s.Idx) (M : Nat) (hM : M < 2 ^ 31) (hlo : lo i = 0#32)
    (hhi : hi i = BitVec.ofNat 32 M) (h : (v i).toNat ≤ M) :
    andi (cmpi .sge v lo) (cmpi .sle v hi) i = 1#1 := by
  show IntOp.andi (IntOp.cmpi .sge (v i) (lo i)) (IntOp.cmpi .sle (v i) (hi i)) = 1#1
  rw [hlo, hhi]
  have hMt : (BitVec.ofNat 32 M).toNat = M := by rw [BitVec.toNat_ofNat]; exact Nat.mod_eq_of_lt (by omega)
  have h1 : IntOp.cmpi .sge (v i) 0#32 = 1#1 :=
    (sge_iff_toNat (a := v i) (b := 0#32) (by omega) (by decide)).mpr (by simp)
  have h2 : IntOp.cmpi .sle (v i) (BitVec.ofNat 32 M) = 1#1 :=
    (sle_iff_toNat (a := v i) (b := BitVec.ofNat 32 M) (by omega) (by omega)).mpr (by omega)
  rw [h1, h2]; decide

/-- A select whose condition bit is one at the index reads its first operand there. -/
theorem select_of_one {s : Shape} {α : Type} (c : IVec s 1) (g f : s.Idx → α) (j : s.Idx) (hc : c j = 1#1) :
    select c g f j = g j := by
  show Scalar.select (c j) (g j) (f j) = g j
  rw [hc]; exact select_one _ _

/-- The signed reading of a word below 2³¹, clamped into an axis that holds it, is the word's unsigned value. -/
theorem clamp_small (e : BitVec 32) (N : Nat) (h : e.toNat ≤ N) (hN : N < 2 ^ 31) : min e.toInt.toNat N = e.toNat := by
  have h1 : e.toInt = (e.toNat : Int) := toInt_eq_toNat_of_lt (by omega)
  omega

/-! ## The two gathers read at an index -/

/-- The label gather at (b, l, k): the operand at (b, the start index of (b, l, k) read signed and clamped, k). Axes 0
    and 2 are batching axes (they read the result's own coordinates), axis 1 is the start-indexed, collapsed one. -/
theorem gatherRows_apply {α : Type} (x : S4x2048x29.Idx → α) (idx : IVec S4x2048x29x1 32) (b : Fin 4) (l : Fin 2048) (k : Fin 29) :
    Host.gather gather_S4x2048x29_S4x2048x29x1_S4x2048x29_n_1_02_02_1_3_111 x idx (ix3 b l k)
      = x (ix3 b ⟨min (idx (ix4 b l k (0 : Fin 1))).toInt.toNat 2047, by omega⟩ k) := by
  unfold Host.gather
  congr 1
  funext a
  refine Fin.ext ?_
  have hsi : ∀ h, gather_S4x2048x29_S4x2048x29x1_S4x2048x29_n_1_02_02_1_3_111.siIdx (ix3 b l k) ⟨0, h⟩ = ix4 b l k (0 : Fin 1) := by
    intro h; funext q; refine Fin.ext ?_
    match q with
    | ⟨0, _⟩ => rfl
    | ⟨1, _⟩ => rfl
    | ⟨2, _⟩ => rfl
    | ⟨3, _⟩ => rfl
  match a with
  | ⟨0, _⟩ =>
    show gather_S4x2048x29_S4x2048x29x1_S4x2048x29_n_1_02_02_1_3_111.start (ix3 b l k) idx 0 + gather_S4x2048x29_S4x2048x29x1_S4x2048x29_n_1_02_02_1_3_111.batchCoord (ix3 b l k) 0 + gather_S4x2048x29_S4x2048x29x1_S4x2048x29_n_1_02_02_1_3_111.offCoord (ix3 b l k) 0 = b.val
    have h1 : gather_S4x2048x29_S4x2048x29x1_S4x2048x29_n_1_02_02_1_3_111.start (ix3 b l k) idx 0 = 0 := rfl
    have h2 : gather_S4x2048x29_S4x2048x29x1_S4x2048x29_n_1_02_02_1_3_111.batchCoord (ix3 b l k) 0 = b.val := rfl
    have h3 : gather_S4x2048x29_S4x2048x29x1_S4x2048x29_n_1_02_02_1_3_111.offCoord (ix3 b l k) 0 = 0 := rfl
    omega
  | ⟨1, _⟩ =>
    show gather_S4x2048x29_S4x2048x29x1_S4x2048x29_n_1_02_02_1_3_111.start (ix3 b l k) idx 1 + gather_S4x2048x29_S4x2048x29x1_S4x2048x29_n_1_02_02_1_3_111.batchCoord (ix3 b l k) 1 + gather_S4x2048x29_S4x2048x29x1_S4x2048x29_n_1_02_02_1_3_111.offCoord (ix3 b l k) 1
      = min (idx (ix4 b l k (0 : Fin 1))).toInt.toNat 2047
    have h1 : gather_S4x2048x29_S4x2048x29x1_S4x2048x29_n_1_02_02_1_3_111.start (ix3 b l k) idx 1 = min (idx (gather_S4x2048x29_S4x2048x29x1_S4x2048x29_n_1_02_02_1_3_111.siIdx (ix3 b l k) ⟨0, by decide⟩)).toInt.toNat 2047 := rfl
    have h2 : gather_S4x2048x29_S4x2048x29x1_S4x2048x29_n_1_02_02_1_3_111.batchCoord (ix3 b l k) 1 = 0 := rfl
    have h3 : gather_S4x2048x29_S4x2048x29x1_S4x2048x29_n_1_02_02_1_3_111.offCoord (ix3 b l k) 1 = 0 := rfl
    rw [hsi] at h1
    omega
  | ⟨2, _⟩ =>
    show gather_S4x2048x29_S4x2048x29x1_S4x2048x29_n_1_02_02_1_3_111.start (ix3 b l k) idx 2 + gather_S4x2048x29_S4x2048x29x1_S4x2048x29_n_1_02_02_1_3_111.batchCoord (ix3 b l k) 2 + gather_S4x2048x29_S4x2048x29x1_S4x2048x29_n_1_02_02_1_3_111.offCoord (ix3 b l k) 2 = k.val
    have h1 : gather_S4x2048x29_S4x2048x29x1_S4x2048x29_n_1_02_02_1_3_111.start (ix3 b l k) idx 2 = 0 := rfl
    have h2 : gather_S4x2048x29_S4x2048x29x1_S4x2048x29_n_1_02_02_1_3_111.batchCoord (ix3 b l k) 2 = k.val := rfl
    have h3 : gather_S4x2048x29_S4x2048x29x1_S4x2048x29_n_1_02_02_1_3_111.offCoord (ix3 b l k) 2 = 0 := rfl
    omega

/-- The pair gather at (b, l, k, a, 0): the operand at (b, l, k, a, the start index of (b, l, k) read signed and
    clamped). Axes 0, 1, 2 are batching axes, axis 3 is the offset axis (the whole amino-acid axis is sliced), axis 4 the
    start-indexed, collapsed one. -/
theorem gatherPair_apply {α : Type} (x : S4x2048x29x20x20.Idx → α) (idx : IVec S4x2048x29x1x1 32)
    (b : Fin 4) (l : Fin 2048) (k : Fin 29) (a : Fin 20) :
    Host.gather gather_S4x2048x29x20x20_S4x2048x29x1x1_S4x2048x29x20x1_3_4_012_012_4_4_111201 x idx (ix5 b l k a (0 : Fin 1))
      = x (ix5 b l k a ⟨min (idx (ix5 b l k (0 : Fin 1) (0 : Fin 1))).toInt.toNat 19, by omega⟩) := by
  unfold Host.gather
  congr 1
  funext c
  refine Fin.ext ?_
  have hsi : ∀ h, gather_S4x2048x29x20x20_S4x2048x29x1x1_S4x2048x29x20x1_3_4_012_012_4_4_111201.siIdx (ix5 b l k a (0 : Fin 1)) ⟨0, h⟩ = ix5 b l k (0 : Fin 1) (0 : Fin 1) := by
    intro h; funext q; refine Fin.ext ?_
    match q with
    | ⟨0, _⟩ => rfl
    | ⟨1, _⟩ => rfl
    | ⟨2, _⟩ => rfl
    | ⟨3, _⟩ => rfl
    | ⟨4, _⟩ => rfl
  match c with
  | ⟨0, _⟩ =>
    show gather_S4x2048x29x20x20_S4x2048x29x1x1_S4x2048x29x20x1_3_4_012_012_4_4_111201.start (ix5 b l k a (0 : Fin 1)) idx 0 + gather_S4x2048x29x20x20_S4x2048x29x1x1_S4x2048x29x20x1_3_4_012_012_4_4_111201.batchCoord (ix5 b l k a (0 : Fin 1)) 0
      + gather_S4x2048x29x20x20_S4x2048x29x1x1_S4x2048x29x20x1_3_4_012_012_4_4_111201.offCoord (ix5 b l k a (0 : Fin 1)) 0 = b.val
    have h1 : gather_S4x2048x29x20x20_S4x2048x29x1x1_S4x2048x29x20x1_3_4_012_012_4_4_111201.start (ix5 b l k a (0 : Fin 1)) idx 0 = 0 := rfl
    have h2 : gather_S4x2048x29x20x20_S4x2048x29x1x1_S4x2048x29x20x1_3_4_012_012_4_4_111201.batchCoord (ix5 b l k a (0 : Fin 1)) 0 = b.val := rfl
    have h3 : gather_S4x2048x29x20x20_S4x2048x29x1x1_S4x2048x29x20x1_3_4_012_012_4_4_111201.offCoord (ix5 b l k a (0 : Fin 1)) 0 = 0 := rfl
    omega
  | ⟨1, _⟩ =>
    show gather_S4x2048x29x20x20_S4x2048x29x1x1_S4x2048x29x20x1_3_4_012_012_4_4_111201.start (ix5 b l k a (0 : Fin 1)) idx 1 + gather_S4x2048x29x20x20_S4x2048x29x1x1_S4x2048x29x20x1_3_4_012_012_4_4_111201.batchCoord (ix5 b l k a (0 : Fin 1)) 1
      + gather_S4x2048x29x20x20_S4x2048x29x1x1_S4x2048x29x20x1_3_4_012_012_4_4_111201.offCoord (ix5 b l k a (0 : Fin 1)) 1 = l.val
    have h1 : gather_S4x2048x29x20x20_S4x2048x29x1x1_S4x2048x29x20x1_3_4_012_012_4_4_111201.start (ix5 b l k a (0 : Fin 1)) idx 1 = 0 := rfl
    have h2 : gather_S4x2048x29x20x20_S4x2048x29x1x1_S4x2048x29x20x1_3_4_012_012_4_4_111201.batchCoord (ix5 b l k a (0 : Fin 1)) 1 = l.val := rfl
    have h3 : gather_S4x2048x29x20x20_S4x2048x29x1x1_S4x2048x29x20x1_3_4_012_012_4_4_111201.offCoord (ix5 b l k a (0 : Fin 1)) 1 = 0 := rfl
    omega
  | ⟨2, _⟩ =>
    show gather_S4x2048x29x20x20_S4x2048x29x1x1_S4x2048x29x20x1_3_4_012_012_4_4_111201.start (ix5 b l k a (0 : Fin 1)) idx 2 + gather_S4x2048x29x20x20_S4x2048x29x1x1_S4x2048x29x20x1_3_4_012_012_4_4_111201.batchCoord (ix5 b l k a (0 : Fin 1)) 2
      + gather_S4x2048x29x20x20_S4x2048x29x1x1_S4x2048x29x20x1_3_4_012_012_4_4_111201.offCoord (ix5 b l k a (0 : Fin 1)) 2 = k.val
    have h1 : gather_S4x2048x29x20x20_S4x2048x29x1x1_S4x2048x29x20x1_3_4_012_012_4_4_111201.start (ix5 b l k a (0 : Fin 1)) idx 2 = 0 := rfl
    have h2 : gather_S4x2048x29x20x20_S4x2048x29x1x1_S4x2048x29x20x1_3_4_012_012_4_4_111201.batchCoord (ix5 b l k a (0 : Fin 1)) 2 = k.val := rfl
    have h3 : gather_S4x2048x29x20x20_S4x2048x29x1x1_S4x2048x29x20x1_3_4_012_012_4_4_111201.offCoord (ix5 b l k a (0 : Fin 1)) 2 = 0 := rfl
    omega
  | ⟨3, _⟩ =>
    show gather_S4x2048x29x20x20_S4x2048x29x1x1_S4x2048x29x20x1_3_4_012_012_4_4_111201.start (ix5 b l k a (0 : Fin 1)) idx 3 + gather_S4x2048x29x20x20_S4x2048x29x1x1_S4x2048x29x20x1_3_4_012_012_4_4_111201.batchCoord (ix5 b l k a (0 : Fin 1)) 3
      + gather_S4x2048x29x20x20_S4x2048x29x1x1_S4x2048x29x20x1_3_4_012_012_4_4_111201.offCoord (ix5 b l k a (0 : Fin 1)) 3 = a.val
    have h1 : gather_S4x2048x29x20x20_S4x2048x29x1x1_S4x2048x29x20x1_3_4_012_012_4_4_111201.start (ix5 b l k a (0 : Fin 1)) idx 3 = 0 := rfl
    have h2 : gather_S4x2048x29x20x20_S4x2048x29x1x1_S4x2048x29x20x1_3_4_012_012_4_4_111201.batchCoord (ix5 b l k a (0 : Fin 1)) 3 = 0 := rfl
    have h3 : gather_S4x2048x29x20x20_S4x2048x29x1x1_S4x2048x29x20x1_3_4_012_012_4_4_111201.offCoord (ix5 b l k a (0 : Fin 1)) 3 = a.val := rfl
    omega
  | ⟨4, _⟩ =>
    show gather_S4x2048x29x20x20_S4x2048x29x1x1_S4x2048x29x20x1_3_4_012_012_4_4_111201.start (ix5 b l k a (0 : Fin 1)) idx 4 + gather_S4x2048x29x20x20_S4x2048x29x1x1_S4x2048x29x20x1_3_4_012_012_4_4_111201.batchCoord (ix5 b l k a (0 : Fin 1)) 4
      + gather_S4x2048x29x20x20_S4x2048x29x1x1_S4x2048x29x20x1_3_4_012_012_4_4_111201.offCoord (ix5 b l k a (0 : Fin 1)) 4 = min (idx (ix5 b l k (0 : Fin 1) (0 : Fin 1))).toInt.toNat 19
    have h1 : gather_S4x2048x29x20x20_S4x2048x29x1x1_S4x2048x29x20x1_3_4_012_012_4_4_111201.start (ix5 b l k a (0 : Fin 1)) idx 4
        = min (idx (gather_S4x2048x29x20x20_S4x2048x29x1x1_S4x2048x29x20x1_3_4_012_012_4_4_111201.siIdx (ix5 b l k a (0 : Fin 1)) ⟨0, by decide⟩)).toInt.toNat 19 := rfl
    have h2 : gather_S4x2048x29x20x20_S4x2048x29x1x1_S4x2048x29x20x1_3_4_012_012_4_4_111201.batchCoord (ix5 b l k a (0 : Fin 1)) 4 = 0 := rfl
    have h3 : gather_S4x2048x29x20x20_S4x2048x29x1x1_S4x2048x29x20x1_3_4_012_012_4_4_111201.offCoord (ix5 b l k a (0 : Fin 1)) 4 = 0 := rfl
    rw [hsi] at h1
    omega

/-! ## The layout operations around the gathers, read at an index -/

/-- A [4, 2048, 29] array viewed as [4, 2048, 29, 1] reads (b, l, k, 0) at (b, l, k). -/
theorem castRows_apply {α : Type} (w : S4x2048x29.Idx → α) (h : S4x2048x29.ShapeCasts S4x2048x29x1)
    (b : Fin 4) (l : Fin 2048) (k : Fin 29) (z : Fin 1) :
    shapeCast S4x2048x29x1 w h (ix4 b l k z) = w (ix3 b l k) := by
  refine shapeCast_apply w h _ _ ?_
  rw [Shape.rowMajor_val_three, Shape.rowMajor_val_four]
  show (b.val * 2048 + l.val) * 29 + k.val = ((b.val * 2048 + l.val) * 29 + k.val) * 1 + z.val
  have := z.isLt
  omega

/-- A [4, 2048, 29, 20, 1] array viewed as [4, 2048, 29, 20] reads (b, l, k, a) at (b, l, k, a, 0). -/
theorem castPair_apply {α : Type} (w : S4x2048x29x20x1.Idx → α) (h : S4x2048x29x20x1.ShapeCasts S4x2048x29x20)
    (b : Fin 4) (l : Fin 2048) (k : Fin 29) (a : Fin 20) :
    shapeCast S4x2048x29x20 w h (ix4 b l k a) = w (ix5 b l k a (0 : Fin 1)) := by
  refine shapeCast_apply w h _ _ ?_
  rw [Shape.rowMajor_val_five, Shape.rowMajor_val_four]
  show (((b.val * 2048 + l.val) * 29 + k.val) * 20 + a.val) * 1 + 0 = ((b.val * 2048 + l.val) * 29 + k.val) * 20 + a.val
  omega

/-- The pair table with its last axis split as (amino-acid, label): entry (b, l, k, a, c) is column 20·a + c. -/
theorem castTab_apply {α : Type} (w : S4x2048x30x400.Idx → α) (h : S4x2048x30x400.ShapeCasts S4x2048x30x20x20)
    (b : Fin 4) (l : Fin 2048) (k : Fin 30) (a c : Fin 20) :
    shapeCast S4x2048x30x20x20 w h (ix5 b l k a c) = w (ix4 b l k ⟨20 * a.val + c.val, by have := a.isLt; have := c.isLt; omega⟩) := by
  refine shapeCast_apply w h _ _ ?_
  rw [Shape.rowMajor_val_four, Shape.rowMajor_val_five]
  show ((b.val * 2048 + l.val) * 30 + k.val) * 400 + (20 * a.val + c.val)
    = ((((b.val * 2048 + l.val) * 30 + k.val) * 20 + a.val) * 20 + c.val)
  omega

/-- The position array without its first column: (b, l, k) reads column k + 1. -/
theorem sliceIdx_apply (eidx : IVec S4x2048x30 32) (h : S4x2048x30.Slices ![0, 0, 1] S4x2048x29)
    (b : Fin 4) (l : Fin 2048) (k : Fin 29) :
    extractStridedSlice S4x2048x29 ![0, 0, 1] eidx h (ix3 b l k) = eidx (ix3 b l k.succ) := by
  refine extractStridedSlice_apply _ eidx h _ _ fun a => ?_
  match a with
  | ⟨0, _⟩ => show b.val = 0 + b.val; omega
  | ⟨1, _⟩ => show l.val = 0 + l.val; omega
  | ⟨2, _⟩ =>
    have hs : (k.succ).val = k.val + 1 := Fin.val_succ k
    show (k.succ).val = 1 + k.val
    omega

/-- The split pair table without its first neighbour column: (b, l, k, a, c) reads neighbour column k + 1. -/
theorem sliceTab_apply {α : Type} (w : S4x2048x30x20x20.Idx → α) (h : S4x2048x30x20x20.Slices ![0, 0, 1, 0, 0] S4x2048x29x20x20)
    (b : Fin 4) (l : Fin 2048) (k : Fin 29) (a c : Fin 20) :
    extractStridedSlice S4x2048x29x20x20 ![0, 0, 1, 0, 0] w h (ix5 b l k a c) = w (ix5 b l k.succ a c) := by
  refine extractStridedSlice_apply _ w h _ _ fun q => ?_
  match q with
  | ⟨0, _⟩ => show b.val = 0 + b.val; omega
  | ⟨1, _⟩ => show l.val = 0 + l.val; omega
  | ⟨2, _⟩ =>
    have hs : (k.succ).val = k.val + 1 := Fin.val_succ k
    show (k.succ).val = 1 + k.val
    omega
  | ⟨3, _⟩ => show a.val = 0 + a.val; omega
  | ⟨4, _⟩ => show c.val = 0 + c.val; omega

/-- The label array copied along the neighbour axis: (b, p, k) reads the label of (b, p). -/
theorem bcastSeqs_apply (seqs : IVec S4x2048 32) (b : Fin 4) (p : Fin 2048) (k : Fin 29) :
    broadcastInDim S4x2048x29 ![0, 1, 2] bcast_S4x2048x1_S4x2048x29_0_1_2
      (broadcastInDim S4x2048x1 ![0, 1] bcast_S4x2048_S4x2048x1_0_1 seqs) (ix3 b p k) = seqs (ix2 b p) := by
  refine (broadcastInDim_apply _ _ _ _ (ix3 b p (0 : Fin 1)) fun a => ?_).trans
    (broadcastInDim_apply _ _ _ _ (ix2 b p) fun a => ?_)
  · match a with
    | ⟨0, _⟩ => rfl
    | ⟨1, _⟩ => rfl
    | ⟨2, _⟩ => rfl
  · match a with
    | ⟨0, _⟩ => rfl
    | ⟨1, _⟩ => rfl

/-- The neighbour labels with two unit axes appended: (b, l, k, 0, 0) reads the label of neighbour (b, l, k). -/
theorem bcastEaa_apply (eaa : IVec S4x2048x29 32) (b : Fin 4) (l : Fin 2048) (k : Fin 29) (y z : Fin 1) :
    broadcastInDim S4x2048x29x1x1 ![0, 1, 2] bcast_S4x2048x29_S4x2048x29x1x1_0_1_2 eaa (ix5 b l k y z) = eaa (ix3 b l k) := by
  refine broadcastInDim_apply _ _ _ _ (ix3 b l k) fun a => ?_
  match a with
  | ⟨0, _⟩ => rfl
  | ⟨1, _⟩ => rfl
  | ⟨2, _⟩ => rfl

/-- The test bit of (b, l, k) copied along the amino-acid axis. -/
theorem bcastOk_apply (c : IVec S4x2048x29x1 1) (b : Fin 4) (l : Fin 2048) (k : Fin 29) (a : Fin 20) (z : Fin 1) :
    broadcastInDim S4x2048x29x20x1 ![0, 1, 2, 4] bcast_S4x2048x29x1_S4x2048x29x20x1_0_1_2_4 c (ix5 b l k a z)
      = c (ix4 b l k (0 : Fin 1)) := by
  refine broadcastInDim_apply _ _ _ _ (ix4 b l k (0 : Fin 1)) fun q => ?_
  match q with
  | ⟨0, _⟩ => rfl
  | ⟨1, _⟩ => rfl
  | ⟨2, _⟩ => rfl
  | ⟨3, _⟩ => rfl

/-! ## The two takes, and the statements -/

/-- The take along the position axis, at indices inside it: the array at (b, the index, k). -/
theorem takeRows_apply (x idx : IVec S4x2048x29 32) (hI : ∀ i, (idx i).toNat < 2048) (b : Fin 4) (l : Fin 2048) (k : Fin 29) :
    takeRows x idx (ix3 b l k) = x (ix3 b ⟨(idx (ix3 b l k)).toNat, hI _⟩ k) := by
  unfold takeRows
  dsimp only
  -- the wrapped index, as a column: the index itself
  have hw : ∀ (b : Fin 4) (l : Fin 2048) (k : Fin 29) (z : Fin 1),
      shapeCast S4x2048x29x1
        (select (cmpi .slt idx (broadcastInDim S4x2048x29 ![] bcast_S_S4x2048x29 (constantI S_ 32 0#32)))
          (addi idx (broadcastInDim S4x2048x29 ![] bcast_S_S4x2048x29 (constantI S_ 32 2048#32))) idx)
        shapeCasts_S4x2048x29_S4x2048x29x1 (ix4 b l k z) = idx (ix3 b l k) := by
    intro b l k z
    rw [castRows_apply]
    exact wrap_apply idx _ _ _ rfl (by have := hI (ix3 b l k); omega)
  refine (select_of_one _ _ _ _ ?_).trans ?_
  · -- the test passes everywhere
    refine reduce_andi_one _ _ _ _ (fun i => ?_) rfl _
    obtain ⟨b', l', k', z, rfl⟩ : ∃ (b' : Fin 4) (l' : Fin 2048) (k' : Fin 29) (z : Fin 1), i = ix4 b' l' k' z :=
      ⟨i 0, i 1, i 2, i 3, eq_ix4 i⟩
    refine inRange_apply _ _ _ _ 2047 (by norm_num) rfl rfl ?_
    rw [hw]
    have := hI (ix3 b' l' k'); omega
  · -- the gather reads at the index
    refine (gatherRows_apply _ _ b l k).trans ?_
    refine congrArg (fun p : Fin 2048 => x (ix3 b p k)) (Fin.ext ?_)
    dsimp only
    rw [hw]
    exact clamp_small _ 2047 (by have := hI (ix3 b l k); omega) (by norm_num)

/-- The take along the label axis, at labels below twenty: the array at (b, l, k, a, the label). -/
theorem takePair_apply (x : FVec Ideal S4x2048x29x20x20 .f32) (idx : IVec S4x2048x29x1x1 32)
    (hI : ∀ i, (idx i).toNat < 20) (b : Fin 4) (l : Fin 2048) (k : Fin 29) (a : Fin 20) :
    takePair (F := Ideal) x idx (ix5 b l k a (0 : Fin 1))
      = x (ix5 b l k a ⟨(idx (ix5 b l k (0 : Fin 1) (0 : Fin 1))).toNat, hI _⟩) := by
  unfold takePair
  dsimp only
  have hw : ∀ i : S4x2048x29x1x1.Idx,
      select (cmpi .slt idx (broadcastInDim S4x2048x29x1x1 ![] bcast_S_S4x2048x29x1x1 (constantI S_ 32 0#32)))
          (addi idx (broadcastInDim S4x2048x29x1x1 ![] bcast_S_S4x2048x29x1x1 (constantI S_ 32 20#32))) idx i = idx i :=
    fun i => wrap_apply idx _ _ _ rfl (by have := hI i; omega)
  refine (select_of_one _ _ _ _ ?_).trans ?_
  · rw [bcastOk_apply]
    refine reduce_andi_one _ _ _ _ (fun i => ?_) rfl _
    refine inRange_apply _ _ _ _ 19 (by norm_num) rfl rfl ?_
    rw [hw]
    have := hI i; omega
  · refine (gatherPair_apply _ _ b l k a).trans ?_
    refine congrArg (fun p : Fin 20 => x (ix5 b l k a p)) (Fin.ext ?_)
    dsimp only
    rw [hw]
    exact clamp_small _ 19 (by have := hI (ix5 b l k (0 : Fin 1) (0 : Fin 1)); omega) (by norm_num)

end Gather

open Gather

/-- The label of true neighbour k (column k + 1 of the position array) of residue (b, l) is the label array at that
    neighbour's position. -/
theorem eaaFn_apply (eidx : IVec S4x2048x30 32) (seqs : IVec S4x2048 32) (hE : ∀ i, (eidx i).toNat < 2048)
    (b : Fin 4) (l : Fin 2048) (k : Fin 29) :
    eaaFn eidx seqs (ix3 b l k) = Cert.Spec.nbr eidx seqs b l k := by
  unfold eaaFn
  have hI : ∀ i, (extractStridedSlice S4x2048x29 ![0, 0, 1] eidx slices_S4x2048x30_S4x2048x29_0_0_1 i).toNat < 2048 :=
    fun i => hE _
  rw [takeRows_apply _ _ hI, bcastSeqs_apply]
  unfold Cert.Spec.nbr
  refine congrArg (fun p : Fin 2048 => seqs (ix2 b p)) (Fin.ext ?_)
  show (extractStridedSlice S4x2048x29 ![0, 0, 1] eidx slices_S4x2048x30_S4x2048x29_0_0_1 (ix3 b l k)).toNat
    = (eidx (ix3 b l k.succ)).toNat % 2048
  rw [sliceIdx_apply, Nat.mod_eq_of_lt (hE _)]

/-- The pair term of true neighbour k and amino-acid a is the pair table at column 20·a + (the neighbour's label). -/
theorem pairFn_apply (etab : FVec Ideal S4x2048x30x400 .f32) (eaa : IVec S4x2048x29 32) (hA : ∀ i, (eaa i).toNat < 20)
    (b : Fin 4) (l : Fin 2048) (k : Fin 29) (a : Fin 20) :
    pairFn (F := Ideal) etab eaa (ix4 b l k a)
      = etab (ix4 b l k.succ ⟨(20 * a.val + (eaa (ix3 b l k)).toNat) % 400, Nat.mod_lt _ (by norm_num)⟩) := by
  unfold pairFn
  have hI : ∀ i, (broadcastInDim S4x2048x29x1x1 ![0, 1, 2] bcast_S4x2048x29_S4x2048x29x1x1_0_1_2 eaa i).toNat < 20 :=
    fun i => hA _
  rw [castPair_apply, takePair_apply _ _ hI, sliceTab_apply, castTab_apply]
  refine congrArg (fun p : Fin 400 => etab (ix4 b l k.succ p)) (Fin.ext ?_)
  show 20 * a.val + (broadcastInDim S4x2048x29x1x1 ![0, 1, 2] bcast_S4x2048x29_S4x2048x29x1x1_0_1_2 eaa
      (ix5 b l k (0 : Fin 1) (0 : Fin 1))).toNat = (20 * a.val + (eaa (ix3 b l k)).toNat) % 400
  rw [bcastEaa_apply]
  have := hA (ix3 b l k); have := a.isLt
  exact (Nat.mod_eq_of_lt (by omega)).symm

end Cert.ReferenceIdeal.Hand

end
-- ==== Proof.RefNorm.lean ====
/-
  The reference's energies and layer normalisation read at an index, at the ideal values.
-/
import proofs.«431343_j9320079033225_1_alg».proof.Proof.RefFn
import proofs.«431343_j9320079033225_1_alg».proof.Proof.Spec
import Idealize.ShloMosaic.Lib.IdealHost

noncomputable section

namespace Cert.ReferenceIdeal.Hand

open Cert.ReferenceIdeal Cert.ReferenceIdeal.Gen Idealize.ShloMosaic Idealize.ShloMosaic.TcCoe Idealize.ShloMosaic.ValueIdx

/-! ## The broadcasts of this stage read at an index

Each broadcast reads its operand at the coordinates its axis map names, and at zero on an operand axis of
extent one. -/

section Bcast
variable {α : Type}

/-- A [4, 2048] array given a trailing unit axis, read at (b, l, z): the array at (b, l). -/
theorem keep_apply (v : S4x2048.Idx → α) (b : Fin 4) (l : Fin 2048) (z : Fin 1) :
    broadcastInDim S4x2048x1 ![0, 1] bcast_S4x2048_S4x2048x1_0_1 v (ix3 b l z) = v (ix2 b l) := by
  unfold broadcastInDim
  exact congrArg v (funext fun a => by fin_cases a <;> rfl)

/-- A [4, 2048, 1] array copied along the twenty amino-acids, read at (b, l, a): the array at (b, l, 0). -/
theorem spread_apply (v : S4x2048x1.Idx → α) (b : Fin 4) (l : Fin 2048) (a : Fin 20) :
    broadcastInDim S4x2048x20 ![0, 1, 2] bcast_S4x2048x1_S4x2048x20_0_1_2 v (ix3 b l a) = v (ix3 b l (0 : Fin 1)) := by
  unfold broadcastInDim
  exact congrArg v (funext fun c => by fin_cases c <;> rfl)

/-- A [20] array given two leading unit axes, read at (0, 0, a): the array at a. -/
theorem lead_apply (v : S20.Idx → α) (y z : Fin 1) (a : Fin 20) :
    broadcastInDim S1x1x20 ![2] bcast_S20_S1x1x20_2 v (ix3 y z a) = v (ix1 a) := by
  unfold broadcastInDim
  exact congrArg v (funext fun c => by fin_cases c; rfl)

/-- A [1, 1, 20] array copied over batch and position, read at (b, l, a): the array at (0, 0, a). -/
theorem rows_apply (v : S1x1x20.Idx → α) (b : Fin 4) (l : Fin 2048) (a : Fin 20) :
    broadcastInDim S4x2048x20 ![0, 1, 2] bcast_S1x1x20_S4x2048x20_0_1_2 v (ix3 b l a)
      = v (ix3 (0 : Fin 1) (0 : Fin 1) a) := by
  unfold broadcastInDim
  exact congrArg v (funext fun c => by fin_cases c <;> rfl)

end Bcast

/-! ## The sums -/

/-- The host's sum over the twenty amino-acids from a zero initial value, read at (b, l). -/
theorem sum20_apply (x : FVec Ideal S4x2048x20 .f32) (b : Fin 4) (l : Fin 2048) :
    Host.reduceAdd (F := Ideal) x (constant (F := Ideal) S_ .f32 0x00000000#32) reducesTo_S4x2048x20_S4x2048_d2 h_S_ (ix2 b l)
      = ∑ a : Fin 20, x (ix3 b l a) := by
  have hR : S4x2048x20.Reduces [2] S4x2048 := by decide
  rw [hostReduceAdd_apply, Ideal.hostReduceAdd_single reducesTo_S4x2048x20_S4x2048_d2 hR, constant_apply,
    Ideal.ofBits_zero_f32, zero_add]
  refine Finset.sum_congr rfl fun k _ => congrArg x ?_
  funext d; fin_cases d <;> exact Fin.ext rfl

/-- The energy of (b, l, a): the self term plus the sum over the 29 true neighbours of the pair terms. -/
theorem energyFn_apply (self : FVec Ideal S4x2048x20 .f32) (pair : FVec Ideal S4x2048x29x20 .f32)
    (b : Fin 4) (l : Fin 2048) (a : Fin 20) :
    energyFn (F := Ideal) self pair (ix3 b l a) = self (ix3 b l a) + ∑ k : Fin 29, pair (ix4 b l k a) := by
  have hR : S4x2048x29x20.Reduces [2] S4x2048x20 := by decide
  show self (ix3 b l a) + Host.reduceAdd (F := Ideal) pair (constant (F := Ideal) S_ .f32 0x00000000#32)
      reducesTo_S4x2048x29x20_S4x2048x20_d2 h_S_ (ix3 b l a) = _
  congr 1
  rw [hostReduceAdd_apply, Ideal.hostReduceAdd_single reducesTo_S4x2048x29x20_S4x2048x20_d2 hR, constant_apply,
    Ideal.ofBits_zero_f32, zero_add]
  refine Finset.sum_congr rfl fun k _ => congrArg pair ?_
  funext d; fin_cases d <;> exact Fin.ext rfl

/-! ## The constant twenty -/

/-- The word 0x41A00000 denotes twenty: sign bit clear, exponent field 131 (four after the bias of 127), fraction
    field 2²¹ (a quarter): (1 + 1/4) · 2⁴ = 20. -/
theorem ofBits_twenty : Ideal.ofBits .f32 0x41A00000#32 = ((20 : ℝ) : EReal) := by
  simp [Ideal.ofBits, Ideal.ieee, -EReal.coe_mul]; norm_num

/-- Twenty is above zero. -/
theorem twenty_pos : (0 : EReal) < Ideal.ofBits .f32 0x41A00000#32 := by
  rw [ofBits_twenty]; exact EReal.coe_pos.mpr (by norm_num)

/-- The integer zero of removed degrees of freedom, converted, is the float zero. -/
theorem ddof_apply (i : S_.Idx) : (sitofp .f32 (constantI S_ 32 0#32) : FVec Ideal S_ .f32) i = 0 := by
  show ((((0#32 : BitVec 32).toInt : ℤ) : ℝ) : EReal) = 0
  simp

/-- The test "twenty above zero" answers one. -/
theorem cmp_twenty :
    FloatOps.cmpf (F := Ideal) (φ := .f32) .ogt (Ideal.ofBits .f32 0x41A00000#32) (Ideal.ofBits .f32 0x00000000#32) = 1#1 := by
  rw [Ideal.cmpf_def, Ideal.ofBits_zero_f32]
  simp [Ideal.cmp, twenty_pos]

/-- The host's reciprocal square root at an index. -/
theorem hostRsqrt_apply {s : Shape} {φ : FTy} (v : FVec Ideal s φ) (i : s.Idx) : Host.rsqrt v i = Ideal.rsqrt (v i) := rfl

/-! ## The variance and the normalisation -/

/-- The variance of row (b, l): with no degree of freedom removed the divisor is twenty, which is above zero, so the
    selection keeps the quotient: the sum of the squared deviations from the mean, over twenty. -/
theorem varFn_apply (x : FVec Ideal S4x2048x20 .f32) (b : Fin 4) (l : Fin 2048) (z : Fin 1) :
    varFn (F := Ideal) x (constantI S_ 32 0#32) (ix3 b l z) = Cert.Spec.var20 (fun a' => x (ix3 b l a')) := by
  unfold varFn
  simp (config := {index := false}) only [select_apply, cmpf_apply, hostDivf_apply, broadcastInDim_scalar_apply, keep_apply, spread_apply, sum20_apply,
    mulf_apply, subf_apply, constant_apply, ddof_apply, sub_zero, cmp_twenty, select_one]
  rfl

/-- The layer normalisation of row (b, l) is `Spec.lnorm` of the row. -/
theorem lnFn_apply (x : FVec Ideal S4x2048x20 .f32) (w bias : FVec Ideal S20 .f32) (b : Fin 4) (l : Fin 2048) (a : Fin 20) :
    lnFn (F := Ideal) x w bias (ix3 b l a)
      = Cert.Spec.lnorm (fun a' => x (ix3 b l a')) (fun a' => w (ix1 a')) (fun a' => bias (ix1 a')) a := by
  unfold lnFn
  simp (config := {index := false}) only [addf_apply, mulf_apply, subf_apply, rows_apply, lead_apply, spread_apply, hostDivf_apply, keep_apply, sum20_apply,
    broadcastInDim_scalar_apply, constant_apply, hostRsqrt_apply, varFn_apply]
  rfl

end Cert.ReferenceIdeal.Hand

end
-- ==== Proof.RefSoft.lean ====
/-
  The reference's log-softmax, its last gather and its closing host operations, at the ideal values.

  Three facts, each read at one coordinate:
  * the negation followed by jax's log-softmax over the twenty amino-acids is, at (b, l, a), the textbook
    log-softmax of the negated row (b, l): y_a − max y − log Σ exp (y − max y);
  * the take along the amino-acid axis at the residue's own label, under the hypothesis that every label word is
    below twenty, reads the row's entry at that label (the wrap-around of negative indices does nothing, the range
    test passes, the clamp of the start index does nothing), and the product with the mask follows;
  * the closing host operations are literally the shared tail.
-/
import proofs.«431343_j9320079033225_1_alg».proof.Proof.RefFn
import proofs.«431343_j9320079033225_1_alg».proof.Proof.Spec
import Idealize.ShloMosaic.PureOps.Ideal.Laws
import Idealize.ShloMosaic.PureOps.Reduce
import Idealize.ShloMosaic.Lib.ValueIdx
import Idealize.ShloMosaic.Lib.Pipeline.Value
import Idealize.ShloMosaic.Lib.StableHlo.Predicate

noncomputable section

namespace Cert.ReferenceIdeal.Hand

open Cert.ReferenceIdeal Cert.ReferenceIdeal.Gen Idealize.ShloMosaic Idealize.ShloMosaic.TcCoe Idealize.ShloMosaic.ValueIdx

/-! ## Constants -/

/-- The f32 pattern with the sign bit set, the exponent all ones and the fraction zero denotes −∞. -/
theorem ofBits_neg_inf : Ideal.ofBits .f32 0xFF800000#32 = ⊥ := by
  simp [Ideal.ofBits, Ideal.ieee]

/-! ## Broadcasts read at an index -/

/-- A [4,2048] array copied along a new unit axis reads, at (b, l, c), the array at (b, l). -/
theorem bcast_keep {α : Type} (X : S4x2048.Idx → α) (b : Fin 4) (l : Fin 2048) (c : Fin 1) :
    broadcastInDim S4x2048x1 ![0, 1] bcast_S4x2048_S4x2048x1_0_1 X (ix3 b l c) = X (ix2 b l) := by
  refine broadcastInDim_apply _ _ X _ (ix2 b l) fun a => ?_
  match a with
  | ⟨0, _⟩ => rfl
  | ⟨1, _⟩ => rfl

/-- A [4,2048,1] array copied along its unit axis to twenty reads, at (b, l, a), the array at (b, l, 0). -/
theorem bcast_row {α : Type} (X : S4x2048x1.Idx → α) (b : Fin 4) (l : Fin 2048) (a : Fin 20) :
    broadcastInDim S4x2048x20 ![0, 1, 2] bcast_S4x2048x1_S4x2048x20_0_1_2 X (ix3 b l a) = X (ix3 b l (0 : Fin 1)) := by
  refine broadcastInDim_apply _ _ X _ (ix3 b l (0 : Fin 1)) fun a => ?_
  match a with
  | ⟨0, _⟩ => rfl
  | ⟨1, _⟩ => rfl
  | ⟨2, _⟩ => rfl

/-! ## Reductions over the twenty -/

theorem red20 : S4x2048x20.Reduces [2] S4x2048 := by decide

/-- Inserting the coordinate k on the last axis over (b, l) gives (b, l, k). -/
theorem lift_row (b : Fin 4) (l : Fin 2048) (k : Fin 20) : red20.lift (ix2 b l) k = ix3 b l k := by
  funext c
  apply Fin.ext
  match c with
  | ⟨0, _⟩ => rfl
  | ⟨1, _⟩ => rfl
  | ⟨2, _⟩ => rfl

/-- The host sum over the twenty, from the zero word, at (b, l): the sum of the row's entries. -/
theorem rowSum_apply (x : FVec Ideal S4x2048x20 .f32) (b : Fin 4) (l : Fin 2048) :
    Host.reduceAdd (F := Ideal) x (constant (F := Ideal) S_ .f32 0x00000000#32) reducesTo_S4x2048x20_S4x2048_d2 h_S_ (ix2 b l)
      = ∑ k : Fin 20, x (ix3 b l k) := by
  show Ideal.hostReduceAdd reducesTo_S4x2048x20_S4x2048_d2 x (Ideal.ofBits .f32 0x00000000#32) (ix2 b l) = _
  rw [Ideal.hostReduceAdd_single _ red20, Ideal.ofBits_zero_f32, zero_add]
  exact Finset.sum_congr rfl fun k _ => congrArg x (lift_row b l k)

/-- The host maximum over the twenty, from the −∞ word, at (b, l): the largest of the row's entries (max is
    commutative and associative, so the order of the fold is immaterial). -/
theorem rowMax_apply (x : FVec Ideal S4x2048x20 .f32) (b : Fin 4) (l : Fin 2048) :
    Host.reduce FloatOps.maximumf x (constant (F := Ideal) S_ .f32 0xFF800000#32) reducesTo_S4x2048x20_S4x2048_d2 h_S_ (ix2 b l)
      = Cert.Spec.rowmax (fun k => x (ix3 b l k)) := by
  rw [Host.reduce_eq_fold_single FloatOps.maximumf x _ reducesTo_S4x2048x20_S4x2048_d2 red20 h_S_ (ix2 b l)]
  show (Finset.univ : Finset (Fin 20)).fold max (Ideal.ofBits .f32 0xFF800000#32) (x ∘ red20.lift (ix2 b l)) = _
  rw [ofBits_neg_inf]
  unfold Cert.Spec.rowmax
  congr 1
  funext k
  exact congrArg x (lift_row b l k)

/-! ## The log-softmax -/

/-- The host's logarithm, exponential and negation read at an index. -/
theorem hostLog_apply {s : Shape} (X : FVec Ideal s .f32) (i : s.Idx) : Host.log (F := Ideal) X i = Ideal.log (X i) := rfl
theorem hostExp_apply {s : Shape} (X : FVec Ideal s .f32) (i : s.Idx) : Host.exp (F := Ideal) X i = Ideal.exp (X i) := rfl
theorem hostNegf_apply {s : Shape} (X : FVec Ideal s .f32) (i : s.Idx) : Host.negf (F := Ideal) X i = -(X i) := rfl

/-- The −∞ word copied over [4,2048] reads ⊥ everywhere. -/
theorem bcast_neg_inf (j : S4x2048.Idx) :
    broadcastInDim S4x2048 ![] bcast_S_S4x2048 (constant (F := Ideal) S_ .f32 0xFF800000#32) j = ⊥ :=
  ofBits_neg_inf

/-- The row maximum as the program forms it — the fold of max from −∞ over the twenty, then the maximum against a
    copied −∞ — copied back over the twenty. -/
def rmaxB (v : FVec Ideal S4x2048x20 .f32) : FVec Ideal S4x2048x20 .f32 :=
  broadcastInDim S4x2048x20 ![0, 1, 2] bcast_S4x2048x1_S4x2048x20_0_1_2
    (broadcastInDim S4x2048x1 ![0, 1] bcast_S4x2048_S4x2048x1_0_1
      (maximumf (broadcastInDim S4x2048 ![] bcast_S_S4x2048 (constant (F := Ideal) S_ .f32 0xFF800000#32))
        (Host.reduce FloatOps.maximumf v (constant (F := Ideal) S_ .f32 0xFF800000#32) reducesTo_S4x2048x20_S4x2048_d2 h_S_)))

/-- At (b, l, k) it is the largest entry of row (b, l): max ⊥ m = m. -/
theorem rmaxB_apply (v : FVec Ideal S4x2048x20 .f32) (b : Fin 4) (l : Fin 2048) (k : Fin 20) :
    rmaxB v (ix3 b l k) = Cert.Spec.rowmax (fun k' => v (ix3 b l k')) := by
  unfold rmaxB
  rw [bcast_row, bcast_keep, maximumf_apply, rowMax_apply, bcast_neg_inf, max_bot_left]

/-- The logarithm of the sum of the exponentials over the twenty, as the program forms it, copied back over the twenty. -/
def lseB (u : FVec Ideal S4x2048x20 .f32) : FVec Ideal S4x2048x20 .f32 :=
  broadcastInDim S4x2048x20 ![0, 1, 2] bcast_S4x2048x1_S4x2048x20_0_1_2
    (Host.log (F := Ideal)
      (broadcastInDim S4x2048x1 ![0, 1] bcast_S4x2048_S4x2048x1_0_1
        (Host.reduceAdd (F := Ideal) (Host.exp (F := Ideal) u) (constant (F := Ideal) S_ .f32 0x00000000#32)
          reducesTo_S4x2048x20_S4x2048_d2 h_S_)))

/-- At (b, l, a) it is log Σ_k exp u(b, l, k) (the sum starts from the zero word: 0 + Σ). -/
theorem lseB_apply (u : FVec Ideal S4x2048x20 .f32) (b : Fin 4) (l : Fin 2048) (a : Fin 20) :
    lseB u (ix3 b l a) = Ideal.log (∑ k : Fin 20, Ideal.exp (u (ix3 b l k))) := by
  unfold lseB
  rw [bcast_row, hostLog_apply, bcast_keep, rowSum_apply]
  exact congrArg Ideal.log (Finset.sum_congr rfl fun k _ => hostExp_apply u (ix3 b l k))

/-- The program's log-softmax stage is: negate, subtract the copied row maximum, subtract the copied log-sum-exp. -/
theorem lsmFn_eq (y : FVec Ideal S4x2048x20 .f32) :
    lsmFn (F := Ideal) y
      = subf (subf (Host.negf (F := Ideal) y) (rmaxB (Host.negf (F := Ideal) y)))
          (lseB (subf (Host.negf (F := Ideal) y) (rmaxB (Host.negf (F := Ideal) y)))) := rfl

/-- For any array v: v minus its copied row maximum, minus the copied log-sum-exp of that difference, is at (b, l, a)
    the textbook log-softmax of row (b, l) of v. -/
theorem lsmCore (v : FVec Ideal S4x2048x20 .f32) (b : Fin 4) (l : Fin 2048) (a : Fin 20) :
    subf (subf v (rmaxB v)) (lseB (subf v (rmaxB v))) (ix3 b l a) = Cert.Spec.lsm (fun a' => v (ix3 b l a')) a := by
  have hs : ∀ k : Fin 20, subf v (rmaxB v) (ix3 b l k)
      = v (ix3 b l k) - Cert.Spec.rowmax (fun a' => v (ix3 b l a')) := fun k => by
    rw [subf_apply, rmaxB_apply]
  have hsum : (∑ k : Fin 20, Ideal.exp (subf v (rmaxB v) (ix3 b l k)))
      = ∑ k : Fin 20, Ideal.exp (v (ix3 b l k) - Cert.Spec.rowmax (fun a' => v (ix3 b l a'))) :=
    Finset.sum_congr rfl fun k _ => congrArg Ideal.exp (hs k)
  rw [subf_apply, lseB_apply, hs a, hsum]
  rfl

/-- The negation and log-softmax of row (b, l) is `Spec.lsm` of the negated row. -/
theorem lsmFn_apply (y : FVec Ideal S4x2048x20 .f32) (b : Fin 4) (l : Fin 2048) (a : Fin 20) :
    lsmFn (F := Ideal) y (ix3 b l a) = Cert.Spec.lsm (fun a' => -(y (ix3 b l a'))) a := by
  rw [lsmFn_eq]
  exact lsmCore (Host.negf (F := Ideal) y) b l a

/-! ## Small label words -/

open Idealize.ShloMosaic.StableHlo.Predicate in
/-- A word below twenty is not negative as a signed word, so the wrap-around select keeps it. -/
theorem wrap_id (w : BitVec 32) (hw : w.toNat < 20) :
    Scalar.select (IntOp.cmpi .slt w 0#32) (IntOp.addi w 20#32) w = w := by
  have h0 : IntOp.cmpi .slt w 0#32 = 0#1 :=
    eq_zero_of_ne_one fun h => Nat.not_lt_zero _ ((slt_iff_toNat (a := w) (b := 0#32) (by omega) (by decide)).mp h)
  rw [h0, select_zero]

open Idealize.ShloMosaic.StableHlo.Predicate in
/-- A word below twenty passes the range test 0 ≤ w ≤ 19 (both comparisons signed). -/
theorem range_ok (w : BitVec 32) (hw : w.toNat < 20) :
    IntOp.andi (IntOp.cmpi .sge w 0#32) (IntOp.cmpi .sle w 19#32) = 1#1 := by
  have h1 : IntOp.cmpi .sge w 0#32 = 1#1 :=
    (sge_iff_toNat (a := w) (b := 0#32) (by omega) (by decide)).mpr (Nat.zero_le _)
  have h19 : (19#32 : BitVec 32).toNat = 19 := by decide
  have h2 : IntOp.cmpi .sle w 19#32 = 1#1 :=
    (sle_iff_toNat (a := w) (b := 19#32) (by omega) (by omega)).mpr (by omega)
  rw [h1, h2]; decide

open Idealize.ShloMosaic.StableHlo.Predicate in
/-- A word below twenty, read signed and clamped into [0, 19], is its own value. -/
theorem clamp_id (w : BitVec 32) (hw : w.toNat < 20) : min w.toInt.toNat 19 = w.toNat := by
  rw [toInt_eq_toNat_of_lt (a := w) (by omega), Int.toNat_natCast]
  exact Nat.min_eq_left (by omega)

/-! ## The and-reduce of an all-ones array -/

/-- Folding "and" from 1 over words that are all 1 gives 1. -/
theorem foldl_andi_all_one {ι : Type} (f : ι → BitVec 1) (hf : ∀ n, f n = 1#1) :
    ∀ (l : List ι), l.foldl (fun r n => IntOp.andi r (f n)) 1#1 = 1#1
  | [] => rfl
  | a :: l => by
    have h11 : IntOp.andi 1#1 1#1 = 1#1 := by decide
    rw [List.foldl_cons, hf a, h11]
    exact foldl_andi_all_one f hf l

/-- So the and-reduce over the unit axis, from the word 1, of an array that is 1 everywhere is 1 everywhere. -/
theorem andReduce_one (x : IVec S4x2048x1x1 1) (hx : ∀ i, x i = 1#1) (j : S4x2048x1.Idx) :
    Host.reduce IntOp.andi x (constantI S_ 1 1#1) reducesTo_S4x2048x1x1_S4x2048x1_d3 h_S_ j = 1#1 := by
  rw [Host.reduce_eq_foldl]
  exact foldl_andi_all_one x hx _

/-! ## Shape casts that add or drop a unit axis -/

/-- [4,2048,1] recast as [4,2048,1,1] reads, at (b, l, 0, 0), the array at (b, l, 0): both have row-major
    position 2048·b + l. -/
theorem cast_add_unit {α : Type} (X : S4x2048x1.Idx → α) (b : Fin 4) (l : Fin 2048) :
    shapeCast S4x2048x1x1 X shapeCasts_S4x2048x1_S4x2048x1x1 (ix4 b l (0 : Fin 1) (0 : Fin 1)) = X (ix3 b l (0 : Fin 1)) := by
  refine shapeCast_apply X _ _ (ix3 b l (0 : Fin 1)) ?_
  rw [Shape.rowMajor_val_three, Shape.rowMajor_val_four]
  show (b.val * 2048 + l.val) * 1 + 0 = ((b.val * 2048 + l.val) * 1 + 0) * 1 + 0
  omega

/-- [4,2048,1] recast as [4,2048] reads, at (b, l), the array at (b, l, 0). -/
theorem cast_drop_unit {α : Type} (X : S4x2048x1.Idx → α) (b : Fin 4) (l : Fin 2048) :
    shapeCast S4x2048 X shapeCasts_S4x2048x1_S4x2048 (ix2 b l) = X (ix3 b l (0 : Fin 1)) := by
  refine shapeCast_apply X _ _ (ix3 b l (0 : Fin 1)) ?_
  rw [Shape.rowMajor_val_three, Shape.rowMajor_val_two]
  show (b.val * 2048 + l.val) * 1 + 0 = b.val * 2048 + l.val
  omega

/-! ## The gather along the amino-acid axis, batched over (batch, position)

Axes 0 and 1 of the operand are batching axes: they carry the result's own first two coordinates. Axis 2 is
collapsed and is the one axis the start index names: its coordinate is the start word at (b, l, 0, 0), read signed
and clamped into [0, 19]. -/

/-- The operand coordinate on axis 0 is b. -/
theorem gl_coord0 (idx : IVec S4x2048x1x1 32) (b : Fin 4) (l : Fin 2048) (c : Fin 1) :
    GatherDims.start gather_S4x2048x20_S4x2048x1x1_S4x2048x1_n_2_01_01_2_3_111 (ix3 b l c) idx (0 : Fin 3) + GatherDims.batchCoord gather_S4x2048x20_S4x2048x1x1_S4x2048x1_n_2_01_01_2_3_111 (ix3 b l c) (0 : Fin 3)
      + GatherDims.offCoord gather_S4x2048x20_S4x2048x1x1_S4x2048x1_n_2_01_01_2_3_111 (ix3 b l c) (0 : Fin 3) = b.val := by
  rw [GatherDims.start_batching gather_S4x2048x20_S4x2048x1x1_S4x2048x1_n_2_01_01_2_3_111 (ix3 b l c) idx (0 : Fin 3) (by decide),
    GatherDims.offCoord_eq_zero gather_S4x2048x20_S4x2048x1x1_S4x2048x1_n_2_01_01_2_3_111 (ix3 b l c) (0 : Fin 3) (by decide)]
  simp only [Nat.zero_add, Nat.add_zero]
  rfl

/-- The operand coordinate on axis 1 is l. -/
theorem gl_coord1 (idx : IVec S4x2048x1x1 32) (b : Fin 4) (l : Fin 2048) (c : Fin 1) :
    GatherDims.start gather_S4x2048x20_S4x2048x1x1_S4x2048x1_n_2_01_01_2_3_111 (ix3 b l c) idx (1 : Fin 3) + GatherDims.batchCoord gather_S4x2048x20_S4x2048x1x1_S4x2048x1_n_2_01_01_2_3_111 (ix3 b l c) (1 : Fin 3)
      + GatherDims.offCoord gather_S4x2048x20_S4x2048x1x1_S4x2048x1_n_2_01_01_2_3_111 (ix3 b l c) (1 : Fin 3) = l.val := by
  rw [GatherDims.start_batching gather_S4x2048x20_S4x2048x1x1_S4x2048x1_n_2_01_01_2_3_111 (ix3 b l c) idx (1 : Fin 3) (by decide),
    GatherDims.offCoord_eq_zero gather_S4x2048x20_S4x2048x1x1_S4x2048x1_n_2_01_01_2_3_111 (ix3 b l c) (1 : Fin 3) (by decide)]
  simp only [Nat.zero_add, Nat.add_zero]
  rfl

/-- The start-indices index the result index (b, l, c) reads its one start component at is (b, l, 0, 0). -/
theorem gl_siIdx (b : Fin 4) (l : Fin 2048) (c : Fin 1)
    (h : List.idxOf (2 : Fin 3) (GatherDims.startIndexMap gather_S4x2048x20_S4x2048x1x1_S4x2048x1_n_2_01_01_2_3_111) < (GatherDims.startIndexMap gather_S4x2048x20_S4x2048x1x1_S4x2048x1_n_2_01_01_2_3_111).length) :
    GatherDims.siIdx gather_S4x2048x20_S4x2048x1x1_S4x2048x1_n_2_01_01_2_3_111 (ix3 b l c) ⟨List.idxOf (2 : Fin 3) (GatherDims.startIndexMap gather_S4x2048x20_S4x2048x1x1_S4x2048x1_n_2_01_01_2_3_111), h⟩ = ix4 b l (0 : Fin 1) (0 : Fin 1) := by
  funext d
  refine Fin.ext ?_
  match d with
  | ⟨0, _⟩ => rfl
  | ⟨1, _⟩ => rfl
  | ⟨2, _⟩ => exact Nat.lt_one_iff.mp (Fin.isLt _)
  | ⟨3, _⟩ => rfl

/-- The operand coordinate on axis 2 is the clamped start word. -/
theorem gl_coord2 (idx : IVec S4x2048x1x1 32) (b : Fin 4) (l : Fin 2048) (c : Fin 1) :
    GatherDims.start gather_S4x2048x20_S4x2048x1x1_S4x2048x1_n_2_01_01_2_3_111 (ix3 b l c) idx (2 : Fin 3) + GatherDims.batchCoord gather_S4x2048x20_S4x2048x1x1_S4x2048x1_n_2_01_01_2_3_111 (ix3 b l c) (2 : Fin 3)
      + GatherDims.offCoord gather_S4x2048x20_S4x2048x1x1_S4x2048x1_n_2_01_01_2_3_111 (ix3 b l c) (2 : Fin 3) = min (idx (ix4 b l (0 : Fin 1) (0 : Fin 1))).toInt.toNat 19 := by
  rw [GatherDims.batchCoord_eq_zero gather_S4x2048x20_S4x2048x1x1_S4x2048x1_n_2_01_01_2_3_111 (ix3 b l c) (2 : Fin 3) (by decide),
    GatherDims.offCoord_eq_zero gather_S4x2048x20_S4x2048x1x1_S4x2048x1_n_2_01_01_2_3_111 (ix3 b l c) (2 : Fin 3) (by decide)]
  simp only [Nat.add_zero]
  unfold GatherDims.start
  rw [dif_pos (show (2 : Fin 3) ∈ (GatherDims.startIndexMap gather_S4x2048x20_S4x2048x1x1_S4x2048x1_n_2_01_01_2_3_111) from by decide), gl_siIdx]
  rfl

/-- Result element (b, l, c) of the gather reads the operand at (b, l, s), s the clamped start word. -/
theorem gatherLabel_apply {α : Type} (x : S4x2048x20.Idx → α) (idx : IVec S4x2048x1x1 32) (b : Fin 4) (l : Fin 2048) (c : Fin 1) :
    Host.gather gather_S4x2048x20_S4x2048x1x1_S4x2048x1_n_2_01_01_2_3_111 x idx (ix3 b l c)
      = x (ix3 b l ⟨min (idx (ix4 b l (0 : Fin 1) (0 : Fin 1))).toInt.toNat 19, by omega⟩) := by
  unfold Host.gather
  refine congrArg x (funext fun a => Fin.ext ?_)
  match a with
  | ⟨0, _⟩ => exact gl_coord0 idx b l c
  | ⟨1, _⟩ => exact gl_coord1 idx b l c
  | ⟨2, _⟩ => exact gl_coord2 idx b l c

/-! ## The take along the label axis, and the selection -/

/-- With every index word below twenty, the take reads the row's entry at the index word: the wrap-around select is
    the identity on such words, every element passes the range test so the and-reduce is 1 and the select returns
    the gathered value, whose start index is not moved by the clamp. -/
theorem takeLabel_apply (x : FVec Ideal S4x2048x20 .f32) (idx : IVec S4x2048x1 32) (hI : ∀ k, (idx k).toNat < 20)
    (b : Fin 4) (l : Fin 2048) (c : Fin 1) :
    takeLabel (F := Ideal) x idx (ix3 b l c)
      = x (ix3 b l ⟨(idx (ix3 b l (0 : Fin 1))).toNat % 20, Nat.mod_lt _ (by norm_num)⟩) := by
  let v4 : IVec S4x2048x1 32 :=
    select (cmpi .slt idx (broadcastInDim S4x2048x1 ![] bcast_S_S4x2048x1 (constantI S_ 32 0#32)))
      (addi idx (broadcastInDim S4x2048x1 ![] bcast_S_S4x2048x1 (constantI S_ 32 20#32))) idx
  have e4 : ∀ k, v4 k = idx k := fun k => wrap_id (idx k) (hI k)
  let v5 : IVec S4x2048x1x1 32 := shapeCast S4x2048x1x1 v4 shapeCasts_S4x2048x1_S4x2048x1x1
  have h5 : ∀ k', (v5 k').toNat < 20 := fun k' =>
    lt_of_eq_of_lt (congrArg BitVec.toNat (e4 (Shape.reshapeEquiv shapeCasts_S4x2048x1_S4x2048x1x1 k'))) (hI _)
  let v11 : IVec S4x2048x1x1 1 :=
    andi (cmpi .sge v5 (broadcastInDim S4x2048x1x1 ![] bcast_S_S4x2048x1x1 (constantI S_ 32 0#32)))
      (cmpi .sle v5 (broadcastInDim S4x2048x1x1 ![0, 1, 2, 3] bcast_S1x1x1x1_S4x2048x1x1_0_1_2_3
        (broadcastInDim S1x1x1x1 ![3] bcast_S1_S1x1x1x1_3 (constantI S1 32 19#32))))
  have h11 : ∀ k', v11 k' = 1#1 := fun k' => range_ok (v5 k') (h5 k')
  let v12 : IVec S4x2048x1 1 :=
    Host.reduce IntOp.andi v11 (constantI S_ 1 1#1) reducesTo_S4x2048x1x1_S4x2048x1_d3 h_S_
  have h12 : v12 (ix3 b l c) = 1#1 := andReduce_one v11 h11 (ix3 b l c)
  let v13 : FVec Ideal S4x2048x1 .f32 := Host.gather gather_S4x2048x20_S4x2048x1x1_S4x2048x1_n_2_01_01_2_3_111 x v5
  let v14 : FVec Ideal S4x2048x1 .f32 :=
    broadcastInDim S4x2048x1 ![] bcast_S_S4x2048x1 (constant (F := Ideal) S_ .f32 0x7FC00000#32)
  have hv5 : v5 (ix4 b l (0 : Fin 1) (0 : Fin 1)) = idx (ix3 b l (0 : Fin 1)) :=
    (cast_add_unit v4 b l).trans (e4 _)
  have h13 : v13 (ix3 b l c) = x (ix3 b l ⟨(idx (ix3 b l (0 : Fin 1))).toNat % 20, Nat.mod_lt _ (by norm_num)⟩) :=
    (gatherLabel_apply x v5 b l c).trans (congrArg (fun t => x (ix3 b l t)) (Fin.ext (by
      show min (v5 (ix4 b l (0 : Fin 1) (0 : Fin 1))).toInt.toNat 19 = (idx (ix3 b l (0 : Fin 1))).toNat % 20
      rw [hv5, clamp_id _ (hI _), Nat.mod_eq_of_lt (hI _)])))
  show Scalar.select (v12 (ix3 b l c)) (v13 (ix3 b l c)) (v14 (ix3 b l c)) = _
  rw [h12, select_one]
  exact h13

/-- With every label below twenty, the log-probability of (b, l) is the row's entry at the residue's label, times the mask. -/
theorem selFn_apply (lp : FVec Ideal S4x2048x20 .f32) (seqs : IVec S4x2048 32) (mask : FVec Ideal S4x2048 .f32)
    (hS : ∀ i, (seqs i).toNat < 20) (b : Fin 4) (l : Fin 2048) :
    selFn (F := Ideal) lp seqs mask (ix2 b l)
      = lp (ix3 b l ⟨(seqs (ix2 b l)).toNat % 20, Nat.mod_lt _ (by norm_num)⟩) * mask (ix2 b l) := by
  let idx : IVec S4x2048x1 32 := broadcastInDim S4x2048x1 ![0, 1] bcast_S4x2048_S4x2048x1_0_1 seqs
  have hI : ∀ k, (idx k).toNat < 20 := fun k => hS _
  have hk : idx (ix3 b l (0 : Fin 1)) = seqs (ix2 b l) := bcast_keep seqs b l 0
  have ht : shapeCast S4x2048 (takeLabel (F := Ideal) lp idx) shapeCasts_S4x2048x1_S4x2048 (ix2 b l)
      = lp (ix3 b l ⟨(seqs (ix2 b l)).toNat % 20, Nat.mod_lt _ (by norm_num)⟩) :=
    (cast_drop_unit (takeLabel (F := Ideal) lp idx) b l).trans ((takeLabel_apply lp idx hI b l 0).trans
      (congrArg (fun t => lp (ix3 b l t)) (Fin.ext (congrArg (fun w : BitVec 32 => w.toNat % 20) hk))))
  show shapeCast S4x2048 (takeLabel (F := Ideal) lp idx) shapeCasts_S4x2048x1_S4x2048 (ix2 b l) * mask (ix2 b l) = _
  rw [ht]

/-! ## The closing host operations -/

/-- The closing host operations are the shared tail: the same operations on the same arguments (the two sums are
    only named in the other order). -/
theorem tailFn_eq (out mask : FVec Ideal S4x2048 .f32) :
    tailFn (F := Ideal) out mask = Cert.Spec.tail reducesTo_S4x2048_S4_d1 reducesTo_S4_S_d0 h_S_ out mask := by
  rfl

end Cert.ReferenceIdeal.Hand

end
-- ==== Proof.RefValue.lean ====
/-
  The reference's result is the specification: stage by stage, each array read at an index, the log-probabilities are
  `Spec.outArr`, and the closing operations the shared tail.
-/
import proofs.«431343_j9320079033225_1_alg».proof.Proof.RefGather
import proofs.«431343_j9320079033225_1_alg».proof.Proof.RefNorm
import proofs.«431343_j9320079033225_1_alg».proof.Proof.RefSoft

noncomputable section

namespace Cert.ReferenceIdeal.Hand

open Cert.ReferenceIdeal Cert.ReferenceIdeal.Gen Idealize.ShloMosaic Idealize.ShloMosaic.TcCoe Idealize.ShloMosaic.ValueIdx

/-- With every neighbour position inside the position axis and every label below twenty, the reference's result is the
    shared tail of the specified log-probabilities. -/
theorem refFn_eq (self : FVec Ideal S4x2048x20 .f32) (etab : FVec Ideal S4x2048x30x400 .f32) (eidx : IVec S4x2048x30 32)
    (seqs : IVec S4x2048 32) (mask : FVec Ideal S4x2048 .f32) (w bias : FVec Ideal S20 .f32)
    (hE : ∀ i, (eidx i).toNat < 2048) (hS : ∀ i, (seqs i).toNat < 20) :
    refFn (F := Ideal) self etab eidx seqs mask w bias
      = Cert.Spec.tail reducesTo_S4x2048_S4_d1 reducesTo_S4_S_d0 h_S_
          (Cert.Spec.outArr self etab eidx seqs mask w bias) mask := by
  -- every neighbour's label is a label
  have hA : ∀ i, (eaaFn eidx seqs i).toNat < 20 := by
    intro i
    obtain ⟨b, l, k, rfl⟩ : ∃ (b : Fin 4) (l : Fin 2048) (k : Fin 29), i = ix3 b l k := ⟨i 0, i 1, i 2, eq_ix3 i⟩
    rw [eaaFn_apply eidx seqs hE b l k]
    exact hS _
  -- the energies, index by index
  have hen : ∀ (b : Fin 4) (l : Fin 2048) (a : Fin 20),
      energyFn (F := Ideal) self (pairFn (F := Ideal) etab (eaaFn eidx seqs)) (ix3 b l a)
        = Cert.Spec.energy self etab eidx seqs b l a := by
    intro b l a
    rw [energyFn_apply]
    unfold Cert.Spec.energy
    refine congrArg (self (ix3 b l a) + ·) (Finset.sum_congr rfl fun k _ => ?_)
    rw [pairFn_apply etab (eaaFn eidx seqs) hA b l k a, eaaFn_apply eidx seqs hE b l k]
  unfold refFn
  rw [tailFn_eq]
  refine congrArg (fun o => Cert.Spec.tail reducesTo_S4x2048_S4_d1 reducesTo_S4_S_d0 h_S_ o mask) ?_
  funext i
  obtain ⟨b, l, rfl⟩ : ∃ (b : Fin 4) (l : Fin 2048), i = ix2 b l := ⟨i 0, i 1, eq_ix2 i⟩
  rw [selFn_apply _ seqs mask hS b l, Cert.Spec.outArr_apply]
  unfold Cert.Spec.rowOut
  refine congrArg (· * mask (ix2 b l)) ?_
  rw [lsmFn_apply]
  refine congrArg (fun f => Cert.Spec.lsm f _) (funext fun a => congrArg Neg.neg ?_)
  rw [lnFn_apply]
  refine congrArg (fun x => Cert.Spec.lnorm x _ _ a) (funext fun a' => hen b l a')

end Cert.ReferenceIdeal.Hand

end
-- ==== Proof.KerHost.lean ====
/-
  The arrays the region finds, where a host operation before it wrote them: the table of column labels (column j stands
  for label j mod 20), the padded neighbour labels (the all-ones word in the first column, the neighbours' labels after
  it — the same gather as the reference's), and the label and mask arrays as columns.

  Each array is first named whole, as the value of the operations that wrote it applied to the argument arrays, and
  then read at one index: a broadcast reads its operand at the index's kept coordinates, a concatenation along the
  last axis reads its first piece at column 0 and its second piece, one column to the left, at every later column.
-/
import proofs.«431343_j9320079033225_1_alg».proof.Proof.Gen.KernelIdeal.Frame
import proofs.«431343_j9320079033225_1_alg».proof.Proof.RefFn
import proofs.«431343_j9320079033225_1_alg».proof.Proof.Spec
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ)

/-! ## The table of column labels -/

/-- The literal table lists 0, 1, …, 19 twenty times over: entry j is j mod 20 (four hundred evaluations). -/
theorem lit0_eq : ∀ j : Fin 400, lit0 j = BitVec.ofNat 32 (j.val % 20) := by decide +kernel

/-- The table's buffer holds the literal table in row-major order: only the first host operation writes it. -/
theorem V_c_eq (c : Dev nD) :
    (V m c main_c : S400.Idx → BitVec 32) = fun i => lit0 (S400.rowMajor i) := by
  dsimp only [Gen.V, Gen.V0]
  simp only [Gen.hostOps0, Gen.hostOps0_1, Gen.hostOps0_2, List.flatten_cons, List.flatten_nil, List.append_nil,
    List.cons_append, List.nil_append]
  after_results
  rfl

/-- Column j of the flattened pair axis stands for the label j mod 20. -/
theorem V_tab (c : Dev nD) (j : Fin 400) :
    (V m c main_c : S400.Idx → BitVec 32) (ix1 j) = BitVec.ofNat 32 (j.val % 20) := by
  rw [V_c_eq m c]
  -- a one-axis index's row-major position is its only coordinate
  have e : S400.rowMajor (ix1 j) = j := Fin.ext (Shape.rowMajor_val_one (ix1 j))
  show lit0 (S400.rowMajor (ix1 j)) = _
  rw [e]
  exact lit0_eq j

/-! ## The padded neighbour labels -/

/-- Running two stretches of host operations one after the other is running their concatenation. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih =>
    rw [List.cons_append, StableHlo.after_cons, StableHlo.after_cons]
    exact ih _

/-- The take-along-axis stretch of the kernel's program as a function of the array taken from and the positions: a
    negative position wrapped once by 2048; the array read at the wrapped position where that lies in 0 … 2047, and the
    word 2^31 elsewhere. -/
def kTake (x idx : IVec S4x2048x29 32) : IVec S4x2048x29 32 :=
  let v0 : IVec S4x2048x29 32 := broadcastInDim S4x2048x29 ![] bcast_S_S4x2048x29 (constantI S_ 32 0#32)
  let v1 : IVec S4x2048x29 1 := cmpi .slt idx v0
  let v2 : IVec S4x2048x29 32 := broadcastInDim S4x2048x29 ![] bcast_S_S4x2048x29 (constantI S_ 32 2048#32)
  let v3 : IVec S4x2048x29 32 := addi idx v2
  let v4 : IVec S4x2048x29 32 := select v1 v3 idx
  let v5 : IVec S4x2048x29x1 32 := shapeCast S4x2048x29x1 v4 shapeCasts_S4x2048x29_S4x2048x29x1
  let v6 : IVec S4x2048x29x1 32 := broadcastInDim S4x2048x29x1 ![] bcast_S_S4x2048x29x1 (constantI S_ 32 0#32)
  let v7 : IVec S4x2048x29x1 1 := cmpi .sge v5 v6
  let v8 : IVec S1x1x1x1 32 := broadcastInDim S1x1x1x1 ![3] bcast_S1_S1x1x1x1_3 (constantI S1 32 2047#32)
  let v9 : IVec S4x2048x29x1 32 := broadcastInDim S4x2048x29x1 ![0, 1, 2, 3] bcast_S1x1x1x1_S4x2048x29x1_0_1_2_3 v8
  let v10 : IVec S4x2048x29x1 1 := cmpi .sle v5 v9
  let v11 : IVec S4x2048x29x1 1 := andi v7 v10
  let v12 : IVec S4x2048x29 1 := Host.reduce IntOp.andi v11 (constantI S_ 1 1#1) reducesTo_S4x2048x29x1_S4x2048x29_d3 h_S_
  let v13 : IVec S4x2048x29 32 := Host.gather gather_S4x2048x29_S4x2048x29x1_S4x2048x29_n_1_02_02_1_3_111 x v5
  let v14 : IVec S4x2048x29 32 := broadcastInDim S4x2048x29 ![] bcast_S_S4x2048x29 (constantI S_ 32 2147483648#32)
  select v12 v13 v14

/-- The kernel program's own label gather, as a function of the position and label arrays: the label array, copied along
    the neighbour axis, taken at the positions without their first column. -/
def kEaa (eidx : IVec S4x2048x30 32) (seqs : IVec S4x2048 32) : IVec S4x2048x29 32 :=
  kTake
    (broadcastInDim S4x2048x29 ![0, 1, 2] bcast_S4x2048x1_S4x2048x29_0_1_2
      (broadcastInDim S4x2048x1 ![0, 1] bcast_S4x2048_S4x2048x1_0_1 seqs))
    (extractStridedSlice S4x2048x29 ![0, 0, 1] eidx slices_S4x2048x30_S4x2048x29_0_0_1)

/-- The two programs print the same gather, operation for operation, over shapes that are the same literals: on any
    position and label arrays the kernel's term is the reference's. -/
theorem kEaa_eq (eidx : IVec S4x2048x30 32) (seqs : IVec S4x2048 32) :
    kEaa eidx seqs = Cert.ReferenceIdeal.Hand.eaaFn eidx seqs := by
  rfl

/-- The first stretch, from any contents before it: the positions without their first column. -/
theorem st0_v0 (W : Valuation τ sig (Elt Ideal)) :
    (StableHlo.after (hostOps0 (F := Ideal)) W (Proc.devRef .tc main_v0) : S4x2048x29.Idx → BitVec 32)
      = extractStridedSlice S4x2048x29 ![0, 0, 1] (W (Proc.devRef .tc main_arg2) : S4x2048x30.Idx → BitVec 32)
          slices_S4x2048x30_S4x2048x29_0_0_1 := by
  simp only [Gen.hostOps0]
  after_results
  all_goals rfl

/-- The first stretch, from any contents before it: the label array copied along the neighbour axis. -/
theorem st0_v2 (W : Valuation τ sig (Elt Ideal)) :
    (StableHlo.after (hostOps0 (F := Ideal)) W (Proc.devRef .tc main_v2) : S4x2048x29.Idx → BitVec 32)
      = broadcastInDim S4x2048x29 ![0, 1, 2] bcast_S4x2048x1_S4x2048x29_0_1_2
          (broadcastInDim S4x2048x1 ![0, 1] bcast_S4x2048_S4x2048x1_0_1
            (W (Proc.devRef .tc main_arg3) : S4x2048.Idx → BitVec 32)) := by
  simp only [Gen.hostOps0]
  after_results
  all_goals rfl

attribute [local irreducible] Host.reduce Host.gather in
set_option maxHeartbeats 1000000 in
/-- The take-along-axis stretch, from any contents before it: its result is that function of the two buffers it reads.
    A value carried to its buffer's type and back along the same equation is the value itself; the reduction over the
    last axis and the gather are never opened, both sides applying them to the same operands. -/
theorem st1_v3 (W : Valuation τ sig (Elt Ideal)) :
    (StableHlo.after (hostOps0_1 (F := Ideal)) W (Proc.devRef .tc main_v3) : S4x2048x29.Idx → BitVec 32)
      = kTake (W (Proc.devRef .tc main_v2) : S4x2048x29.Idx → BitVec 32)
          (W (Proc.devRef .tc main_v0) : S4x2048x29.Idx → BitVec 32) := by
  simp only [Gen.hostOps0_1]
  after_results_simp
  simp only [StableHlo.TRef.toBuf, StableHlo.TRef.ofBuf, cast_cast, cast_eq]
  all_goals rfl

/-- The last stretch, from any contents before it: the all-ones word in one column, then what the buffer of the gathered
    labels held, in twenty-nine. -/
theorem st2_v5 (W : Valuation τ sig (Elt Ideal)) :
    (StableHlo.after (hostOps0_2 (F := Ideal)) W (Proc.devRef .tc main_v5) : S4x2048x30.Idx → BitVec 32)
      = concatenate S4x2048x30 2
          [⟨S4x2048x1, (broadcastInDim S4x2048x1 ![] bcast_S_S4x2048x1 (constantI S_ 32 4294967295#32) : IVec S4x2048x1 32)⟩,
           ⟨S4x2048x29, (W (Proc.devRef .tc main_v3) : S4x2048x29.Idx → BitVec 32)⟩]
          concatenates_S4x2048x1_S4x2048x29_S4x2048x30_d2 := by
  simp only [Gen.hostOps0_2]
  after_results
  all_goals rfl

/-- The padded array whole: the all-ones word in one column, then the gathered labels in twenty-nine. The three
    stretches are read one after the other, each from what the one before it left. -/
theorem V_v5_eq (c : Dev nD) :
    (V m c main_v5 : S4x2048x30.Idx → BitVec 32)
      = concatenate S4x2048x30 2
          [⟨S4x2048x1, (broadcastInDim S4x2048x1 ![] bcast_S_S4x2048x1 (constantI S_ 32 4294967295#32) : IVec S4x2048x1 32)⟩,
           ⟨S4x2048x29, kEaa (m ((c.tc : Thread nD τ).loc main_arg2) : S4x2048x30.Idx → BitVec 32)
              (m ((c.tc : Thread nD τ).loc main_arg3) : S4x2048.Idx → BitVec 32)⟩]
          concatenates_S4x2048x1_S4x2048x29_S4x2048x30_d2 := by
  dsimp only [Gen.V, Gen.V0]
  rw [List.flatten_cons, List.flatten_cons, List.flatten_cons, List.flatten_nil, List.append_nil, after_append,
    after_append]
  rw [st2_v5, st1_v3, st0_v0, st0_v2]
  rfl

/-- The padded neighbour labels' first column holds the all-ones word. -/
theorem V_eaa_zero (c : Dev nD) (b : Fin 4) (l : Fin 2048) :
    (V m c main_v5 : S4x2048x30.Idx → BitVec 32) (ix3 b l (0 : Fin 30)) = 4294967295#32 := by
  rw [V_v5_eq m c]
  -- column 0 lies in the first piece, at the same coordinates
  refine (concatenate_pair_apply_left (t := S4x2048x30) (s₁ := S4x2048x1) (s₂ := S4x2048x29) _ _ _ _
    (ix3 b l (0 : Fin 30)) rfl (ix3 b l (0 : Fin 1))
    (fun a => match a with | ⟨0, _⟩ => rfl | ⟨1, _⟩ => rfl | ⟨2, _⟩ => rfl)).trans ?_
  -- and the first piece is one word everywhere
  rfl

/-- Its column k + 1 holds the label of neighbour k + 1: the reference's own label gather of the position and label arrays. -/
theorem V_eaa_succ (c : Dev nD) (b : Fin 4) (l : Fin 2048) (k : Fin 29) :
    (V m c main_v5 : S4x2048x30.Idx → BitVec 32) (ix3 b l k.succ)
      = Cert.ReferenceIdeal.Hand.eaaFn
          (m ((c.tc : Thread nD τ).loc main_arg2) : S4x2048x30.Idx → BitVec 32)
          (m ((c.tc : Thread nD τ).loc main_arg3) : S4x2048.Idx → BitVec 32) (ix3 b l k) := by
  rw [V_v5_eq m c]
  -- column k + 1 lies in the second piece, one column to the left
  refine (concatenate_pair_apply_right (t := S4x2048x30) (s₁ := S4x2048x1) (s₂ := S4x2048x29) _ _ _ _
    (ix3 b l k.succ) rfl rfl (ix3 b l k) ?_ ?_).trans ?_
  · intro a ha
    match a, ha with
    | ⟨0, _⟩, _ => rfl
    | ⟨1, _⟩, _ => rfl
    | ⟨2, _⟩, ha => exact absurd rfl ha
  · rfl
  · exact congrFun (kEaa_eq _ _) _

/-! ## The label and mask columns -/

/-- The label column whole: the label array given a last axis of one. -/
theorem V_v6_eq (c : Dev nD) :
    (V m c main_v6 : S4x2048x1.Idx → BitVec 32)
      = broadcastInDim S4x2048x1 ![0, 1] bcast_S4x2048_S4x2048x1_0_1
          (m ((c.tc : Thread nD τ).loc main_arg3) : S4x2048.Idx → BitVec 32) := by
  dsimp only [Gen.V, Gen.V0]
  simp only [Gen.hostOps0, Gen.hostOps0_1, Gen.hostOps0_2, List.flatten_cons, List.flatten_nil, List.append_nil,
    List.cons_append, List.nil_append]
  after_results
  all_goals rfl

/-- The mask column whole: the mask array given a last axis of one. -/
theorem V_v7_eq (c : Dev nD) :
    (V m c main_v7 : S4x2048x1.Idx → EReal)
      = broadcastInDim S4x2048x1 ![0, 1] bcast_S4x2048_S4x2048x1_0_1
          (m ((c.tc : Thread nD τ).loc main_arg4) : S4x2048.Idx → EReal) := by
  dsimp only [Gen.V, Gen.V0]
  simp only [Gen.hostOps0, Gen.hostOps0_1, Gen.hostOps0_2, List.flatten_cons, List.flatten_nil, List.append_nil,
    List.cons_append, List.nil_append]
  after_results
  all_goals rfl

/-- The label column is the label array. -/
theorem V_seqs (c : Dev nD) (b : Fin 4) (l : Fin 2048) :
    (V m c main_v6 : S4x2048x1.Idx → BitVec 32) (ix3 b l (0 : Fin 1))
      = (m ((c.tc : Thread nD τ).loc main_arg3) : S4x2048.Idx → BitVec 32) (ix2 b l) := by
  rw [V_v6_eq m c]
  exact broadcastInDim_apply _ _ _ (ix3 b l (0 : Fin 1)) (ix2 b l)
    (fun a => match a with | ⟨0, _⟩ => rfl | ⟨1, _⟩ => rfl)

/-- The mask column is the mask array. -/
theorem V_mask (c : Dev nD) (b : Fin 4) (l : Fin 2048) :
    (V m c main_v7 : S4x2048x1.Idx → EReal) (ix3 b l (0 : Fin 1))
      = (m ((c.tc : Thread nD τ).loc main_arg4) : S4x2048.Idx → EReal) (ix2 b l) := by
  rw [V_v7_eq m c]
  exact broadcastInDim_apply _ _ _ (ix3 b l (0 : Fin 1)) (ix2 b l)
    (fun a => match a with | ⟨0, _⟩ => rfl | ⟨1, _⟩ => rfl)

end Cert.KernelIdeal.Hand

end
-- ==== Proof.KSpec.lean ====
/-
  The same log-probability, in the arrangement the kernel computes it in: instead of reading the pair table AT the
  neighbour's label, every entry of the table is multiplied by a one-hot weight (one where the neighbour's label is the
  entry's second amino-acid, zero elsewhere) and the products are summed — over all thirty neighbour columns, the first
  of which carries a label no amino-acid has, and then over the second amino-acid. Likewise the entry of the
  log-softmax at the residue's own label is the sum of all twenty entries times a one-hot weight.

  `kRow_eq`: with every label below twenty the two arrangements agree, on all extended reals: a product with the weight
  zero is zero whatever the other factor, so no finiteness is needed, and sums of extended reals commute and associate.
-/
import proofs.«431343_j9320079033225_1_alg».proof.Proof.Spec

noncomputable section

namespace Cert.Spec

open Idealize.ShloMosaic Idealize.ShloMosaic.ValueIdx

/-- [batch, position, 1]: a column per (batch, position). -/
abbrev SBL1 : Shape := ⟨3, ![4, 2048, 1]⟩
/-- [flattened pair]. -/
abbrev SJ : Shape := ⟨1, ![400]⟩

theorem pair_lt (a c : Fin 20) : 20 * a.val + c.val < 400 := by
  have := a.isLt; have := c.isLt; omega

/-- The energies as one-hot sums, over `n` positions (the whole array's 2048, or a block's 32): the self term plus, over the
    second amino-acid `c` and over all thirty neighbour columns, the table entry of (a, c) times the weight of
    "column k's label is the label the table's column 20·a + c stands for". -/
def kEnergy {n : Nat} (self : (⟨3, ![4, n, 20]⟩ : Shape).Idx → EReal) (etab : (⟨4, ![4, n, 30, 400]⟩ : Shape).Idx → EReal)
    (eaaP : (⟨3, ![4, n, 30]⟩ : Shape).Idx → BitVec 32) (tab : SJ.Idx → BitVec 32)
    (b : Fin 4) (l : Fin n) (a : Fin 20) : EReal :=
  self (ix3 b l a)
    + ∑ c : Fin 20, ∑ k : Fin 30,
        etab (ix4 b l k ⟨20 * a.val + c.val, pair_lt a c⟩) * oh (eaaP (ix3 b l k)) (tab (ix1 ⟨20 * a.val + c.val, pair_lt a c⟩))

/-- The log-probability as a one-hot sum: the log-softmax of the negated, layer-normalised energies, each entry times
    the weight of "the residue's label is this amino-acid", summed, times the mask. -/
def kRow {n : Nat} (self : (⟨3, ![4, n, 20]⟩ : Shape).Idx → EReal) (etab : (⟨4, ![4, n, 30, 400]⟩ : Shape).Idx → EReal)
    (eaaP : (⟨3, ![4, n, 30]⟩ : Shape).Idx → BitVec 32) (seqsC : (⟨3, ![4, n, 1]⟩ : Shape).Idx → BitVec 32)
    (maskC : (⟨3, ![4, n, 1]⟩ : Shape).Idx → EReal) (w bias : SA.Idx → EReal) (tab : SJ.Idx → BitVec 32)
    (b : Fin 4) (l : Fin n) : EReal :=
  (∑ a : Fin 20,
      lsm (fun a' => -(lnormW (kEnergy self etab eaaP tab b l) (fun a'' => w (ix1 a'')) a' + bias (ix1 a'))) a
        * oh (seqsC (ix3 b l (0 : Fin 1))) (BitVec.ofNat 32 a.val))
    * maskC (ix3 b l (0 : Fin 1))

/-- The row's value depends on the arrays only through the row: two families of arrays (over any two position extents)
    that agree on one row give it the same value. -/
theorem kRow_congr {n n' : Nat}
    (self : (⟨3, ![4, n, 20]⟩ : Shape).Idx → EReal) (etab : (⟨4, ![4, n, 30, 400]⟩ : Shape).Idx → EReal)
    (eaaP : (⟨3, ![4, n, 30]⟩ : Shape).Idx → BitVec 32) (seqsC : (⟨3, ![4, n, 1]⟩ : Shape).Idx → BitVec 32)
    (maskC : (⟨3, ![4, n, 1]⟩ : Shape).Idx → EReal)
    (self' : (⟨3, ![4, n', 20]⟩ : Shape).Idx → EReal) (etab' : (⟨4, ![4, n', 30, 400]⟩ : Shape).Idx → EReal)
    (eaaP' : (⟨3, ![4, n', 30]⟩ : Shape).Idx → BitVec 32) (seqsC' : (⟨3, ![4, n', 1]⟩ : Shape).Idx → BitVec 32)
    (maskC' : (⟨3, ![4, n', 1]⟩ : Shape).Idx → EReal)
    (w bias : SA.Idx → EReal) (tab : SJ.Idx → BitVec 32) (b : Fin 4) (l : Fin n) (l' : Fin n')
    (hself : ∀ a : Fin 20, self (ix3 b l a) = self' (ix3 b l' a))
    (hetab : ∀ (k : Fin 30) (j : Fin 400), etab (ix4 b l k j) = etab' (ix4 b l' k j))
    (heaa : ∀ k : Fin 30, eaaP (ix3 b l k) = eaaP' (ix3 b l' k))
    (hsq : seqsC (ix3 b l (0 : Fin 1)) = seqsC' (ix3 b l' (0 : Fin 1)))
    (hmk : maskC (ix3 b l (0 : Fin 1)) = maskC' (ix3 b l' (0 : Fin 1))) :
    kRow self etab eaaP seqsC maskC w bias tab b l = kRow self' etab' eaaP' seqsC' maskC' w bias tab b l' := by
  have he : kEnergy self etab eaaP tab b l = kEnergy self' etab' eaaP' tab b l' := by
    funext a
    unfold kEnergy
    rw [hself a]
    congr 1
    refine Finset.sum_congr rfl fun c _ => Finset.sum_congr rfl fun k _ => ?_
    rw [hetab k, heaa k]
  unfold kRow
  rw [he, hsq, hmk]

/-- A word below twenty meets the word of an amino-acid exactly when they are the same number. -/
theorem oh_ofNat (u : BitVec 32) (a : Fin 20) :
    oh u (BitVec.ofNat 32 a.val) = if u.toNat = a.val then 1 else 0 := by
  unfold oh
  have ha : (BitVec.ofNat 32 a.val).toNat = a.val := by
    rw [BitVec.toNat_ofNat]; exact Nat.mod_eq_of_lt (by have := a.isLt; omega)
  by_cases h : u.toNat = a.val
  · rw [if_pos h, if_pos]
    exact BitVec.eq_of_toNat_eq (by rw [ha, h])
  · rw [if_neg h, if_neg]
    intro he; exact h (by rw [he, ha])

/-- The all-ones word is no amino-acid. -/
theorem oh_allOnes (c : Fin 20) : oh 4294967295#32 (BitVec.ofNat 32 c.val) = 0 := by
  rw [oh_ofNat, if_neg]
  have := c.isLt
  show (4294967295#32 : BitVec 32).toNat ≠ c.val
  simp; omega

/-- A one-hot sum over the twenty amino-acids keeps the one term at the label. -/
theorem sum_oh (f : Fin 20 → EReal) (u : BitVec 32) (hu : u.toNat < 20) :
    ∑ c : Fin 20, f c * oh u (BitVec.ofNat 32 c.val) = f ⟨u.toNat, hu⟩ := by
  rw [Finset.sum_eq_single (⟨u.toNat, hu⟩ : Fin 20)]
  · rw [oh_ofNat, if_pos rfl, mul_one]
  · intro c _ hc
    rw [oh_ofNat, if_neg, mul_zero]
    intro he; exact hc (Fin.ext he.symm)
  · intro h; exact absurd (Finset.mem_univ _) h

/-- THE TWO ARRANGEMENTS AGREE. Hypotheses: every label is below twenty (`hS`); the table's column j stands for the label
    j mod 20 (`htab`); the padded label array's first column holds the all-ones word, which is no label (`hp0`), and its
    column k + 1 the label of neighbour k + 1 (`hpS`); the label and mask columns are the label and mask arrays
    (`hsq`, `hmk`). -/
theorem kRow_eq (self : SBLA.Idx → EReal) (etab : SBLKJ.Idx → EReal) (eidx : SBLK.Idx → BitVec 32) (seqs : SBL.Idx → BitVec 32)
    (mask : SBL.Idx → EReal) (w bias : SA.Idx → EReal)
    (eaaP : SBLK.Idx → BitVec 32) (seqsC : SBL1.Idx → BitVec 32) (maskC : SBL1.Idx → EReal) (tab : SJ.Idx → BitVec 32)
    (hS : ∀ i, (seqs i).toNat < 20)
    (htab : ∀ j : Fin 400, tab (ix1 j) = BitVec.ofNat 32 (j.val % 20))
    (hp0 : ∀ (b : Fin 4) (l : Fin 2048), eaaP (ix3 b l (0 : Fin 30)) = 4294967295#32)
    (hpS : ∀ (b : Fin 4) (l : Fin 2048) (k : Fin 29), eaaP (ix3 b l k.succ) = nbr eidx seqs b l k)
    (hsq : ∀ (b : Fin 4) (l : Fin 2048), seqsC (ix3 b l (0 : Fin 1)) = seqs (ix2 b l))
    (hmk : ∀ (b : Fin 4) (l : Fin 2048), maskC (ix3 b l (0 : Fin 1)) = mask (ix2 b l))
    (b : Fin 4) (l : Fin 2048) :
    kRow (n := 2048) self etab eaaP seqsC maskC w bias tab b l = rowOut self etab eidx seqs mask w bias b l := by
  -- the energies: column 0 carries no label, column k + 1 the label of neighbour k + 1
  have hen : kEnergy (n := 2048) self etab eaaP tab b l = energy self etab eidx seqs b l := by
    funext a
    unfold kEnergy energy
    congr 1
    have hcol : ∀ c : Fin 20, tab (ix1 ⟨20 * a.val + c.val, pair_lt a c⟩) = BitVec.ofNat 32 c.val := by
      intro c
      rw [htab]
      congr 1
      show (20 * a.val + c.val) % 20 = c.val
      have := c.isLt; omega
    simp only [hcol]
    rw [Finset.sum_comm, Fin.sum_univ_succ]
    have h0 : ∑ c : Fin 20, etab (ix4 b l (0 : Fin 30) ⟨20 * a.val + c.val, pair_lt a c⟩)
        * oh (eaaP (ix3 b l (0 : Fin 30))) (BitVec.ofNat 32 c.val) = 0 := by
      refine Finset.sum_eq_zero fun c _ => ?_
      rw [hp0, oh_allOnes, mul_zero]
    rw [h0, zero_add]
    refine Finset.sum_congr rfl fun k _ => ?_
    rw [hpS]
    have hu : (nbr eidx seqs b l k).toNat < 20 := hS _
    rw [sum_oh (fun c => etab (ix4 b l k.succ ⟨20 * a.val + c.val, pair_lt a c⟩)) _ hu]
    congr 2
    refine Fin.ext ?_
    show 20 * a.val + (nbr eidx seqs b l k).toNat = (20 * a.val + (nbr eidx seqs b l k).toNat) % 400
    have := a.isLt
    rw [Nat.mod_eq_of_lt (by omega)]
  unfold kRow rowOut
  rw [hen, hsq, hmk]
  congr 1
  have hu : (seqs (ix2 b l)).toNat < 20 := hS _
  rw [sum_oh _ _ hu]
  have hfin : (⟨(seqs (ix2 b l)).toNat, hu⟩ : Fin 20) = ⟨(seqs (ix2 b l)).toNat % 20, Nat.mod_lt _ (by norm_num)⟩ :=
    Fin.ext (Nat.mod_eq_of_lt hu).symm
  rw [hfin]
  rfl

end Cert.Spec

end
-- ==== Proof.KerPay2.lean ====
/-
  The kernel body's first payload read at an index, at the ideal values: from a block's pair table, self terms, padded
  neighbour labels, the table of column labels and the scale, entry (b, r, a) is the layer normalisation before the shift
  (`Spec.lnormW`) of the row's one-hot energies (`Spec.kEnergy` over the block's 32 positions).

  The payload is cut into named stages, each a function of the stage before: the one-hot weights, the sum over the
  thirty neighbour columns, the sum over the second amino-acid, the energies; then, over any row of twenty, the mean as
  a column, the deviations, and the normalisation. Each stage is read at explicit coordinates by one lemma; the payload
  is the composition of the stages by unfolding, and the lemmas compose to the specification.
-/
import proofs.«431343_j9320079033225_1_alg».proof.Proof.Gen.KernelIdeal.Skeleton
import proofs.«431343_j9320079033225_1_alg».proof.Proof.KSpec
import Idealize.ShloMosaic.PureOps.Ideal.Laws
import Idealize.ShloMosaic.Lib.Pipeline.Value
import Idealize.ShloMosaic.Lib.ValueIdx
import Idealize.ShloMosaic.Lib.KernelVsHost
import Idealize.ShloMosaic.Lib.StableHlo.Predicate

noncomputable section

namespace Cert.KernelIdeal.Hand

open Cert.KernelIdeal Cert.KernelIdeal.Gen Idealize.ShloMosaic Idealize.ShloMosaic.TcCoe Idealize.ShloMosaic.ValueIdx

/-! The stages and their lemmas live in a namespace of their own; only the payload's reading at an index is stated
    outside it. -/
namespace Pay2

/-! ## The one-hot weight

A comparison for equality answers one bit; widened to a word and converted as a signed integer it is the integer 1 or
0, that is, the extended real 1 where the two words agree and 0 elsewhere. -/

theorem oh_word (u v : BitVec 32) :
    (FloatOps.sitofp (F := Ideal) .f32 ((IntOp.cmpi .eq u v).setWidth 32) : EReal) = Cert.Spec.oh u v := by
  show (((((IntOp.cmpi .eq u v).setWidth 32).toInt : ℤ) : ℝ) : EReal) = Cert.Spec.oh u v
  rw [toInt_setWidth_bit]
  unfold Cert.Spec.oh
  by_cases h : u = v
  · rw [if_pos h, StableHlo.Predicate.cmpi_eq_iff.mpr h]; simp
  · rw [if_neg h, eq_zero_of_ne_one (mt StableHlo.Predicate.cmpi_eq_iff.mp h)]; simp

/-! ## Layout operations at explicit coordinates -/

/-- A [4, 32] array viewed as a column [4, 32, 1] reads (b, r) at (b, r, u). -/
theorem col_apply {α : Type} (y : S4x32.Idx → α) (b : Fin 4) (r : Fin 32) (u : Fin 1) :
    shapeCast S4x32x1 y shapeCasts_S4x32_S4x32x1 (ix3 b r u) = y (ix2 b r) :=
  shapeCast_apply y _ _ _ (by
    have hu : u.val = 0 := by omega
    rw [Shape.rowMajor_val_two, Shape.rowMajor_val_three]
    show b.val * 32 + r.val = (b.val * 32 + r.val) * 1 + u.val
    omega)

/-- A column [4, 32, 1] laid along the twenty lanes reads (b, r, 0) at (b, r, a). -/
theorem bcol_apply {α : Type} (c : S4x32x1.Idx → α) (b : Fin 4) (r : Fin 32) (a : Fin 20) :
    broadcastTo S4x32x20 c broadcasts_S4x32x1_S4x32x20 (ix3 b r a) = c (ix3 b r (0 : Fin 1)) := by
  refine broadcastTo_apply c _ (ix3 b r a) (ix3 b r (0 : Fin 1)) fun ax => ?_
  match ax with
  | ⟨0, _⟩ => rfl
  | ⟨1, _⟩ => rfl
  | ⟨2, _⟩ => rfl

/-- A vector of twenty laid along every row reads entry a at (b, r, a). -/
theorem scale_apply {α : Type} (w : S20.Idx → α) (b : Fin 4) (r : Fin 32) (a : Fin 20) :
    broadcastTo S4x32x20 (shapeCast S1x1x20 w shapeCasts_S20_S1x1x20) broadcasts_S1x1x20_S4x32x20 (ix3 b r a) = w (ix1 a) := by
  refine (broadcastTo_apply _ _ (ix3 b r a) (ix3 (0 : Fin 1) (0 : Fin 1) a) fun ax => ?_).trans ?_
  · match ax with
    | ⟨0, _⟩ => rfl
    | ⟨1, _⟩ => rfl
    | ⟨2, _⟩ => rfl
  · exact shapeCast_apply w _ _ _ (by
      rw [Shape.rowMajor_val_one, Shape.rowMajor_val_three]
      show a.val = (0 * 1 + 0) * 20 + a.val
      omega)

/-! ## Sums over one axis at explicit coordinates

A sum over one axis, read at a result index, is the sum over that axis's coordinates of the source at the result index with
the coordinate put back; at literal axes the put-back index is a tuple of coordinates. -/

theorem lift_lane (h : S4x32x20.Reduces [2] S4x32) (b : Fin 4) (r : Fin 32) (k : Fin 20) :
    h.lift (ix2 b r) k = ix3 b r k := by
  funext c
  match c with
  | ⟨0, _⟩ => exact Fin.ext rfl
  | ⟨1, _⟩ => exact Fin.ext rfl
  | ⟨2, _⟩ => exact Fin.ext rfl

theorem lift_nbr (h : S4x32x30x400.Reduces [2] S4x32x400) (b : Fin 4) (r : Fin 32) (j : Fin 400) (k : Fin 30) :
    h.lift (ix3 b r j) k = ix4 b r k j := by
  funext c
  match c with
  | ⟨0, _⟩ => exact Fin.ext rfl
  | ⟨1, _⟩ => exact Fin.ext rfl
  | ⟨2, _⟩ => exact Fin.ext rfl
  | ⟨3, _⟩ => exact Fin.ext rfl

theorem lift_pair (h : S4x32x20x20.Reduces [3] S4x32x20) (b : Fin 4) (r : Fin 32) (a c : Fin 20) :
    h.lift (ix3 b r a) c = ix4 b r a c := by
  funext d
  match d with
  | ⟨0, _⟩ => exact Fin.ext rfl
  | ⟨1, _⟩ => exact Fin.ext rfl
  | ⟨2, _⟩ => exact Fin.ext rfl
  | ⟨3, _⟩ => exact Fin.ext rfl

/-- The sum over the twenty lanes, kept as a column. -/
def rowSum (x : FVec Ideal S4x32x20 .f32) : FVec Ideal S4x32x1 .f32 :=
  shapeCast S4x32x1 (multiReduction (F := Ideal) .add [2] S4x32 x 0x00000000#32 reduces_S4x32x20_S4x32 (.inl rfl) rfl)
    shapeCasts_S4x32_S4x32x1

theorem rowSum_apply (x : FVec Ideal S4x32x20 .f32) (b : Fin 4) (r : Fin 32) (u : Fin 1) :
    rowSum x (ix3 b r u) = ∑ a : Fin 20, x (ix3 b r a) := by
  unfold rowSum
  refine (col_apply _ b r u).trans ?_
  refine (Ideal.multiReduction_add_single x 0x00000000#32 reduces_S4x32x20_S4x32 (.inl rfl) rfl (ix2 b r)).trans ?_
  exact Finset.sum_congr rfl fun k _ => congrArg x (lift_lane _ b r k)

/-- The sum over the thirty neighbour columns. -/
def colSum (x : FVec Ideal S4x32x30x400 .f32) : FVec Ideal S4x32x400 .f32 :=
  multiReduction (F := Ideal) .add [2] S4x32x400 x 0x00000000#32 reduces_S4x32x30x400_S4x32x400 (.inl rfl) rfl

theorem colSum_apply (x : FVec Ideal S4x32x30x400 .f32) (b : Fin 4) (r : Fin 32) (j : Fin 400) :
    colSum x (ix3 b r j) = ∑ k : Fin 30, x (ix4 b r k j) := by
  unfold colSum
  refine (Ideal.multiReduction_add_single x 0x00000000#32 reduces_S4x32x30x400_S4x32x400 (.inl rfl) rfl (ix3 b r j)).trans ?_
  exact Finset.sum_congr rfl fun k _ => congrArg x (lift_nbr _ b r j k)

/-- The 400 columns read as twenty groups of twenty (column 20·a + c is entry (a, c)), summed over the second
    amino-acid c. -/
def pairSum (y : FVec Ideal S4x32x400 .f32) : FVec Ideal S4x32x20 .f32 :=
  multiReduction (F := Ideal) .add [3] S4x32x20 (shapeCast S4x32x20x20 y shapeCasts_S4x32x400_S4x32x20x20) 0x00000000#32
    reduces_S4x32x20x20_S4x32x20 (.inl rfl) rfl

theorem pairCast_apply {α : Type} (y : S4x32x400.Idx → α) (b : Fin 4) (r : Fin 32) (a c : Fin 20) :
    shapeCast S4x32x20x20 y shapeCasts_S4x32x400_S4x32x20x20 (ix4 b r a c)
      = y (ix3 b r ⟨20 * a.val + c.val, Cert.Spec.pair_lt a c⟩) :=
  shapeCast_apply y _ _ _ (by
    rw [Shape.rowMajor_val_three, Shape.rowMajor_val_four]
    show (b.val * 32 + r.val) * 400 + (20 * a.val + c.val) = ((b.val * 32 + r.val) * 20 + a.val) * 20 + c.val
    omega)

theorem pairSum_apply (y : FVec Ideal S4x32x400 .f32) (b : Fin 4) (r : Fin 32) (a : Fin 20) :
    pairSum y (ix3 b r a) = ∑ c : Fin 20, y (ix3 b r ⟨20 * a.val + c.val, Cert.Spec.pair_lt a c⟩) := by
  unfold pairSum
  refine (Ideal.multiReduction_add_single _ 0x00000000#32 reduces_S4x32x20x20_S4x32x20 (.inl rfl) rfl (ix3 b r a)).trans ?_
  exact Finset.sum_congr rfl fun c _ =>
    (congrArg _ (lift_pair _ b r a c)).trans (pairCast_apply y b r a c)

/-! ## The normalisation of a row of twenty, over any row -/

/-- The mean over the twenty lanes, kept as a column: the lane sum over twenty. -/
def meanCol (x : FVec Ideal S4x32x20 .f32) : FVec Ideal S4x32x1 .f32 :=
  divf (rowSum x) (broadcast S4x32x1 (Scalar.ofBits (F := Ideal) .f32 0x41A00000#32))

theorem meanCol_apply (x : FVec Ideal S4x32x20 .f32) (b : Fin 4) (r : Fin 32) (u : Fin 1) :
    meanCol x (ix3 b r u) = Cert.Spec.mean20 (fun a' => x (ix3 b r a')) := by
  show Ideal.div (rowSum x (ix3 b r u)) (Ideal.ofBits .f32 0x41A00000#32) = _
  rw [rowSum_apply]
  rfl

/-- A column laid along the twenty lanes. -/
def bcol (c : FVec Ideal S4x32x1 .f32) : FVec Ideal S4x32x20 .f32 :=
  broadcastTo S4x32x20 c broadcasts_S4x32x1_S4x32x20

theorem bcol_def_apply (c : FVec Ideal S4x32x1 .f32) (b : Fin 4) (r : Fin 32) (a : Fin 20) :
    bcol c (ix3 b r a) = c (ix3 b r (0 : Fin 1)) :=
  bcol_apply c b r a

/-- The deviations from the row's mean. -/
def dev (x : FVec Ideal S4x32x20 .f32) : FVec Ideal S4x32x20 .f32 := subf x (bcol (meanCol x))

theorem dev_apply (x : FVec Ideal S4x32x20 .f32) (b : Fin 4) (r : Fin 32) (a : Fin 20) :
    dev x (ix3 b r a) = x (ix3 b r a) - Cert.Spec.mean20 (fun a' => x (ix3 b r a')) := by
  show x (ix3 b r a) - bcol (meanCol x) (ix3 b r a) = _
  rw [bcol_def_apply, meanCol_apply]

/-- The whole normalisation before the shift: deviation, times the reciprocal root of (mean squared deviation + ε),
    times the scale laid along every row. -/
def normVec (x : FVec Ideal S4x32x20 .f32) (w : Vec Ideal S20 .f32) : FVec Ideal S4x32x20 .f32 :=
  mulf
    (mulf (dev x)
      (bcol (rsqrt (addf (meanCol (mulf (dev x) (dev x)))
        (broadcast S4x32x1 (Scalar.ofBits (F := Ideal) .f32 0x3727C5AC#32))))))
    (broadcastTo S4x32x20 (shapeCast S1x1x20 w shapeCasts_S20_S1x1x20) broadcasts_S1x1x20_S4x32x20)

theorem normVec_apply (x : FVec Ideal S4x32x20 .f32) (w : Vec Ideal S20 .f32) (b : Fin 4) (r : Fin 32) (a : Fin 20) :
    normVec x w (ix3 b r a) = Cert.Spec.lnormW (fun a' => x (ix3 b r a')) (fun a' => w (ix1 a')) a := by
  -- the squared deviations of the row are the specification's
  have hsq : (fun a' => mulf (dev x) (dev x) (ix3 b r a'))
      = fun a' => (x (ix3 b r a') - Cert.Spec.mean20 (fun a'' => x (ix3 b r a'')))
          * (x (ix3 b r a') - Cert.Spec.mean20 (fun a'' => x (ix3 b r a''))) := by
    funext a'
    show dev x (ix3 b r a') * dev x (ix3 b r a') = _
    rw [dev_apply]
  show dev x (ix3 b r a)
        * bcol (rsqrt (addf (meanCol (mulf (dev x) (dev x)))
            (broadcast S4x32x1 (Scalar.ofBits (F := Ideal) .f32 0x3727C5AC#32)))) (ix3 b r a)
        * broadcastTo S4x32x20 (shapeCast S1x1x20 w shapeCasts_S20_S1x1x20) broadcasts_S1x1x20_S4x32x20 (ix3 b r a) = _
  rw [bcol_def_apply, scale_apply, dev_apply]
  show _ * Ideal.rsqrt (meanCol (mulf (dev x) (dev x)) (ix3 b r (0 : Fin 1)) + Ideal.ofBits .f32 0x3727C5AC#32) * _ = _
  rw [meanCol_apply, hsq]
  rfl

/-! ## The energies -/

/-- The padded neighbour labels laid along the 400 table columns. -/
def labVec (eaa : Vec Ideal S4x32x30 .i32) : IVec S4x32x30x400 32 :=
  broadcastTo S4x32x30x400
    (shapeCast S4x32x30x1 (shapeCast S4x32x30 eaa shapeCasts_S4x32x30_S4x32x30 : IVec S4x32x30 32)
      shapeCasts_S4x32x30_S4x32x30x1 : IVec S4x32x30x1 32)
    broadcasts_S4x32x30x1_S4x32x30x400

theorem labVec_apply (eaa : Vec Ideal S4x32x30 .i32) (b : Fin 4) (r : Fin 32) (k : Fin 30) (j : Fin 400) :
    labVec eaa (ix4 b r k j) = eaa (ix3 b r k) := by
  unfold labVec
  refine (broadcastTo_apply _ _ (ix4 b r k j) (ix4 b r k (0 : Fin 1)) fun ax => ?_).trans ?_
  · match ax with
    | ⟨0, _⟩ => rfl
    | ⟨1, _⟩ => rfl
    | ⟨2, _⟩ => rfl
    | ⟨3, _⟩ => rfl
  · refine (shapeCast_apply _ _ (ix4 b r k (0 : Fin 1)) (ix3 b r k) (by
      rw [Shape.rowMajor_val_three, Shape.rowMajor_val_four]
      show (b.val * 32 + r.val) * 30 + k.val = ((b.val * 32 + r.val) * 30 + k.val) * 1 + 0
      omega)).trans ?_
    rw [shapeCast_self]

/-- The table of column labels laid along every (batch, position, neighbour). -/
def tabVec (tab : Vec Ideal S400 .i32) : IVec S4x32x30x400 32 :=
  broadcastTo S4x32x30x400 (shapeCast S1x1x1x400 tab shapeCasts_S400_S1x1x1x400 : IVec S1x1x1x400 32)
    broadcasts_S1x1x1x400_S4x32x30x400

theorem tabVec_apply (tab : Vec Ideal S400 .i32) (b : Fin 4) (r : Fin 32) (k : Fin 30) (j : Fin 400) :
    tabVec tab (ix4 b r k j) = tab (ix1 j) := by
  unfold tabVec
  refine (broadcastTo_apply _ _ (ix4 b r k j) (ix4 (0 : Fin 1) (0 : Fin 1) (0 : Fin 1) j) fun ax => ?_).trans ?_
  · match ax with
    | ⟨0, _⟩ => rfl
    | ⟨1, _⟩ => rfl
    | ⟨2, _⟩ => rfl
    | ⟨3, _⟩ => rfl
  · exact shapeCast_apply _ _ _ _ (by
      rw [Shape.rowMajor_val_one, Shape.rowMajor_val_four]
      show j.val = ((0 * 1 + 0) * 1 + 0) * 400 + j.val
      omega)

/-- The one-hot weights: one where neighbour column k's label is the label table column j stands for. -/
def ohVec (tab : Vec Ideal S400 .i32) (eaa : Vec Ideal S4x32x30 .i32) : FVec Ideal S4x32x30x400 .f32 :=
  sitofp .f32 (extui 32 (cmpi .eq (labVec eaa) (tabVec tab)) natLt_1_32)

theorem ohVec_apply (tab : Vec Ideal S400 .i32) (eaa : Vec Ideal S4x32x30 .i32)
    (b : Fin 4) (r : Fin 32) (k : Fin 30) (j : Fin 400) :
    ohVec tab eaa (ix4 b r k j) = Cert.Spec.oh (eaa (ix3 b r k)) (tab (ix1 j)) := by
  show FloatOps.sitofp (F := Ideal) .f32
      ((IntOp.cmpi .eq (labVec eaa (ix4 b r k j)) (tabVec tab (ix4 b r k j))).setWidth 32) = _
  rw [labVec_apply, tabVec_apply]
  exact oh_word _ _

/-- The energies: the self term plus the weighted table, summed over the neighbour columns and then over the second
    amino-acid. -/
def enVec (tab : Vec Ideal S400 .i32) (eaa : Vec Ideal S4x32x30 .i32) (et : Vec Ideal S4x32x30x400 .f32)
    (sf : Vec Ideal S4x32x20 .f32) : FVec Ideal S4x32x20 .f32 :=
  addf sf (pairSum (colSum (mulf et (ohVec tab eaa))))

theorem enVec_apply (tab : Vec Ideal S400 .i32) (eaa : Vec Ideal S4x32x30 .i32) (et : Vec Ideal S4x32x30x400 .f32)
    (sf : Vec Ideal S4x32x20 .f32) (b : Fin 4) (r : Fin 32) (a : Fin 20) :
    enVec tab eaa et sf (ix3 b r a) = Cert.Spec.kEnergy (n := 32) sf et eaa tab b r a := by
  show sf (ix3 b r a) + pairSum (colSum (mulf et (ohVec tab eaa))) (ix3 b r a) = _
  rw [pairSum_apply]
  unfold Cert.Spec.kEnergy
  refine congrArg (sf (ix3 b r a) + ·) (Finset.sum_congr rfl fun c _ => ?_)
  rw [colSum_apply]
  refine Finset.sum_congr rfl fun k _ => ?_
  show et (ix4 b r k _) * ohVec tab eaa (ix4 b r k _) = _
  rw [ohVec_apply]

/-! ## The payload -/

theorem pay2_eq (tab : Vec Ideal S400 .i32) (eaa : Vec Ideal S4x32x30 .i32) (et : Vec Ideal S4x32x30x400 .f32)
    (sf : Vec Ideal S4x32x20 .f32) (w : Vec Ideal S20 .f32) :
    k0_pay2 (F := Ideal) tab eaa et sf w = normVec (enVec tab eaa et sf) w := rfl

end Pay2

open Pay2 in
theorem pay2_apply (tab : Vec Ideal S400 .i32) (eaa : Vec Ideal S4x32x30 .i32) (et : Vec Ideal S4x32x30x400 .f32)
    (sf : Vec Ideal S4x32x20 .f32) (w : Vec Ideal S20 .f32) (b : Fin 4) (r : Fin 32) (a : Fin 20) :
    k0_pay2 (F := Ideal) tab eaa et sf w (ix3 b r a)
      = Cert.Spec.lnormW (Cert.Spec.kEnergy (n := 32) sf et eaa tab b r) (fun a' => w (ix1 a')) a := by
  rw [pay2_eq, normVec_apply]
  exact congrArg (fun x => Cert.Spec.lnormW x (fun a' => w (ix1 a')) a) (funext fun a' => enVec_apply tab eaa et sf b r a')

end Cert.KernelIdeal.Hand

end
-- ==== Proof.KerPay1.lean ====
/-
  The kernel body's second payload read at an index, at the ideal values: from the scaled normalised energies, the shift,
  the block's label column and mask column, entry (b, r, 0) is the sum over the twenty amino-acids of the log-softmax of
  the negated shifted energies times the one-hot weight of the residue's label, times the mask.

  The payload is a chain of pointwise operations (read at an index by definition), layout operations (a vector laid along
  every row; a per-row value kept as a one-entry column and spread back over the twenty), two lane reductions (the row's
  maximum from −∞, the row's sum), and a comparison of the label with a counter along the twenty, widened and converted:
  one small lemma per operation that is not pointwise, each at explicit coordinates (b, r, a), and then the index is
  pushed through the whole chain.
-/
import proofs.«431343_j9320079033225_1_alg».proof.Proof.Gen.KernelIdeal.Skeleton
import proofs.«431343_j9320079033225_1_alg».proof.Proof.KSpec
import Idealize.ShloMosaic.PureOps.Ideal.Laws
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

section Layout
variable {α : Type}

/-- A [20] vector viewed [1,1,20] reads, at (u, w, a), the vector at a. -/
theorem cast_20_1x1x20_apply (x : S20.Idx → α) (h : S20.ShapeCasts S1x1x20) (u w : Fin 1) (a : Fin 20) :
    shapeCast S1x1x20 x h (ix3 u w a) = x (ix1 a) :=
  shapeCast_apply x h _ _ (by
    have hu : u.val = 0 := by omega
    have hw : w.val = 0 := by omega
    rw [Shape.rowMajor_val_three, Shape.rowMajor_val_one]
    show a.val = (u.val * 1 + w.val) * 20 + a.val
    omega)

/-- A [1,1,20] array broadcast to [4,32,20] reads, at (b, r, a), its one row at a. -/
theorem bcast_1x1x20_apply (x : S1x1x20.Idx → α) (h : S1x1x20.Broadcasts S4x32x20) (b : Fin 4) (r : Fin 32) (a : Fin 20) :
    broadcastTo S4x32x20 x h (ix3 b r a) = x (ix3 (0 : Fin 1) (0 : Fin 1) a) := by
  refine broadcastTo_apply x h (ix3 b r a) (ix3 (0 : Fin 1) (0 : Fin 1) a) fun ax => ?_
  match ax with
  | ⟨0, _⟩ => rfl
  | ⟨1, _⟩ => rfl
  | ⟨2, _⟩ => rfl

/-- A [4,32] array viewed [4,32,1] (a kept unit axis) reads, at (b, r, c), the array at (b, r). -/
theorem cast_4x32_4x32x1_apply (x : S4x32.Idx → α) (h : S4x32.ShapeCasts S4x32x1) (b : Fin 4) (r : Fin 32) (c : Fin 1) :
    shapeCast S4x32x1 x h (ix3 b r c) = x (ix2 b r) :=
  shapeCast_apply x h _ _ (by
    have hc : c.val = 0 := by omega
    rw [Shape.rowMajor_val_three, Shape.rowMajor_val_two]
    show b.val * 32 + r.val = (b.val * 32 + r.val) * 1 + c.val
    rw [hc, Nat.mul_one, Nat.add_zero])

/-- A [4,32,1] column broadcast to [4,32,20] reads, at (b, r, a), the column at (b, r, 0). -/
theorem bcast_4x32x1_apply (x : S4x32x1.Idx → α) (h : S4x32x1.Broadcasts S4x32x20) (b : Fin 4) (r : Fin 32) (a : Fin 20) :
    broadcastTo S4x32x20 x h (ix3 b r a) = x (ix3 b r (0 : Fin 1)) := by
  refine broadcastTo_apply x h (ix3 b r a) (ix3 b r (0 : Fin 1)) fun ax => ?_
  match ax with
  | ⟨0, _⟩ => rfl
  | ⟨1, _⟩ => rfl
  | ⟨2, _⟩ => rfl

end Layout

section Reduce

/-- The index (b, r) of a [4,32] array with the coordinate a put back at axis 2 is (b, r, a). -/
theorem lift_4x32 (h : S4x32x20.Reduces [2] S4x32) (b : Fin 4) (r : Fin 32) (a : Fin 20) :
    h.lift (ix2 b r) a = ix3 b r a := by
  funext c
  apply Fin.ext
  match c with
  | ⟨0, _⟩ => rfl
  | ⟨1, _⟩ => rfl
  | ⟨2, _⟩ => rfl

/-- The sum over the last axis of a [4,32,20] array, read at (b, r): the sum of the twenty entries of row (b, r). -/
theorem sum_4x32x20_apply (src : FVec Ideal S4x32x20 .f32) (h : S4x32x20.Reduces [2] S4x32) (hφ : FKind.Formats .f32)
    (hacc : (0x00000000#32 : BitVec 32) = 0x00000000#32) (b : Fin 4) (r : Fin 32) :
    multiReduction .add [2] S4x32 src 0x00000000#32 h hφ hacc (ix2 b r) = ∑ a : Fin 20, src (ix3 b r a) := by
  refine (Ideal.multiReduction_add_single src 0x00000000#32 h hφ hacc (ix2 b r)).trans ?_
  exact Finset.sum_congr rfl fun a _ => congrArg src (lift_4x32 h b r a)

/-- The pattern of −∞ is the bottom of the extended reals. -/
theorem ofBits_neg_inf : Ideal.ofBits .f32 0xFF800000#32 = ⊥ := by
  simp [Ideal.ofBits, Ideal.ieee]

/-- The maximum over the last axis of a [4,32,20] array, read at (b, r): the largest of the twenty entries of row
    (b, r), taken from −∞. -/
theorem max_4x32x20_apply (src : FVec Ideal S4x32x20 .f32) (h : S4x32x20.Reduces [2] S4x32) (hφ : FKind.Formats .f32)
    (hacc : (0xFF800000#32 : BitVec 32) = 0xFF800000#32) (b : Fin 4) (r : Fin 32) :
    multiReduction .maximumf [2] S4x32 src 0xFF800000#32 h hφ hacc (ix2 b r)
      = (Finset.univ : Finset (Fin 20)).fold max ⊥ (fun a => src (ix3 b r a)) := by
  refine (Ideal.multiReduction_maximumf_single src 0xFF800000#32 h hφ hacc (ix2 b r)).trans ?_
  have e : (src ∘ h.lift (ix2 b r)) = fun a : Fin 20 => src (ix3 b r a) :=
    funext fun a => congrArg src (lift_4x32 h b r a)
  rw [e]
  show (Finset.univ : Finset (Fin 20)).fold max (Ideal.ofBits .f32 0xFF800000#32) _ = _
  rw [ofBits_neg_inf]

end Reduce

section OneHot

/-- The counter along the last axis of a [4,32,20] array reads, at (b, r, a), the word of a. -/
theorem iota_4x32x20_apply (h : S4x32x20.Iotas .tc 32 [2]) (b : Fin 4) (r : Fin 32) (a : Fin 20) :
    iota .tc S4x32x20 32 [2] h (ix3 b r a) = BitVec.ofNat 32 a.val :=
  iota_single_apply .tc S4x32x20 32 2 h (ix3 b r a)

/-- "the two words are equal", widened to a word and converted, is the one-hot weight: one where they agree, zero
    elsewhere. -/
theorem oh_word (u v : BitVec 32) :
    (FloatOps.sitofp (F := Ideal) .f32 ((IntOp.cmpi .eq u v).setWidth 32) : EReal) = Cert.Spec.oh u v := by
  have h1 : ((BitVec.ofBool true).setWidth 32).toInt = 1 := by decide
  have h0 : ((BitVec.ofBool false).setWidth 32).toInt = 0 := by decide
  show (((((BitVec.ofBool (u == v)).setWidth 32).toInt : ℤ) : ℝ) : EReal) = _
  unfold Cert.Spec.oh
  by_cases huv : u = v
  · rw [if_pos huv, beq_iff_eq.2 huv, h1]; simp
  · rw [if_neg huv, beq_eq_false_iff_ne.2 huv, h0]; simp

end OneHot

section Pointwise
variable {s : Shape} {φ : FTy}

/-- The exponential of a vector, read at an index. -/
theorem expv_apply (x : FVec Ideal s φ) (i : s.Idx) : Idealize.ShloMosaic.exp x i = Ideal.exp (x i) := rfl

/-- The logarithm of a vector, read at an index. -/
theorem logv_apply (x : FVec Ideal s φ) (i : s.Idx) : Idealize.ShloMosaic.log x i = Ideal.log (x i) := rfl

/-- A comparison of two integer vectors, read at an index. -/
theorem cmpiv_apply {w : Nat} (p : CmpIPredicate) (x y : IVec s w) (i : s.Idx) :
    cmpi p x y i = IntOp.cmpi p (x i) (y i) := rfl

end Pointwise

/-- THE PAYLOAD AT (b, r, 0). With y a = −(v38 (b, r, a) + shift a): the kernel forms y as 0 − (v38 + shift), takes the
    row's maximum m from −∞, then y − m, its exponential, the row's sum, its logarithm, and (y − m) − log Σ exp (y − m):
    the log-softmax of y. The weight is "label = a" as a number, the products are summed over the twenty, and the sum is
    multiplied by the mask entry. -/
theorem pay1_apply (v38 : FVec Ideal S4x32x20 .f32) (bias : Vec Ideal S20 .f32) (sq : Vec Ideal S4x32x1 .i32)
    (mk : Vec Ideal S4x32x1 .f32) (b : Fin 4) (r : Fin 32) :
    k0_pay1 (F := Ideal) v38 bias sq mk (ix3 b r (0 : Fin 1))
      = (∑ a : Fin 20,
            Cert.Spec.lsm (fun a' => -(v38 (ix3 b r a') + bias (ix1 a'))) a
              * Cert.Spec.oh (sq (ix3 b r (0 : Fin 1))) (BitVec.ofNat 32 a.val))
          * mk (ix3 b r (0 : Fin 1)) := by
  -- the two lane reductions and the counter, at this row, in the payload's own spelling
  have hsum : ∀ (src : FVec Ideal S4x32x20 .f32),
      multiReduction .add [2] S4x32 src 0x00000000#32 reduces_S4x32x20_S4x32 (.inl rfl) rfl (ix2 b r)
        = ∑ a : Fin 20, src (ix3 b r a) :=
    fun src => sum_4x32x20_apply src reduces_S4x32x20_S4x32 (.inl rfl) rfl b r
  have hmax : ∀ (src : FVec Ideal S4x32x20 .f32),
      multiReduction .maximumf [2] S4x32 src 0xFF800000#32 reduces_S4x32x20_S4x32 (.inl rfl) rfl (ix2 b r)
        = (Finset.univ : Finset (Fin 20)).fold max ⊥ (fun a => src (ix3 b r a)) :=
    fun src => max_4x32x20_apply src reduces_S4x32x20_S4x32 (.inl rfl) rfl b r
  have hiota : ∀ a : Fin 20, iota .tc S4x32x20 32 [2] iota_S4x32x20_d2_w32 (ix3 b r a) = BitVec.ofNat 32 a.val :=
    fun a => iota_4x32x20_apply iota_S4x32x20_d2_w32 b r a
  unfold k0_pay1
  -- the index pushed through every operation of the chain
  simp only [mulf_apply, subf_apply, addf_apply, broadcast_apply, sitofp_apply, extui_apply, cmpiv_apply, expv_apply, logv_apply,
    cast_4x32_4x32x1_apply, bcast_4x32x1_apply, cast_20_1x1x20_apply, bcast_1x1x20_apply, shapeCast_self,
    hsum, hmax, oh_word]
  -- the zero word is 0, and 0 − x = −x
  simp only [Ideal.ofBits_def, Ideal.ofBits_zero_f32, zero_sub]
  -- what is left is the log-softmax's definition, entry by entry
  unfold Cert.Spec.lsm Cert.Spec.rowmax
  refine congrArg (· * mk (ix3 b r (0 : Fin 1))) (Finset.sum_congr rfl fun a _ => ?_)
  rw [hiota a]

end Cert.KernelIdeal.Hand

end
-- ==== Proof.KerArr.lean ====
/-
  From blocks to the array, and the kernel program's run with its result named: grid point t writes rows 32·t … 32·t + 31
  of the output column, each row the one-hot log-probability (`Spec.kRow`) of the arrays the region finds; the 64 points
  cover the 2048 rows; the host operations after the region are the shared tail.
-/
import proofs.«431343_j9320079033225_1_alg».proof.Proof.Gen.KernelIdeal.Frame
import proofs.«431343_j9320079033225_1_alg».proof.Proof.KerPay2
import proofs.«431343_j9320079033225_1_alg».proof.Proof.KerPay1
import proofs.«431343_j9320079033225_1_alg».proof.Proof.KSpec
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx

open Idealize.SL.Sem

variable (m : (ℓ : Loc nD τ sig) → Buf (Elt Ideal) ℓ)

/-- The kernel's log-probability of residue (b, l), from the arrays the region finds. -/
def kOut (c : Dev nD) (b : Fin 4) (l : Fin 2048) : EReal :=
  Cert.Spec.kRow (n := 2048)
    (V m c main_arg0 : S4x2048x20.Idx → EReal) (V m c main_arg1 : S4x2048x30x400.Idx → EReal)
    (V m c main_v5 : S4x2048x30.Idx → BitVec 32) (V m c main_v6 : S4x2048x1.Idx → BitVec 32)
    (V m c main_v7 : S4x2048x1.Idx → EReal) (V m c main_arg5 : S20.Idx → EReal) (V m c main_arg6 : S20.Idx → EReal)
    (V m c main_c : S400.Idx → BitVec 32) b l

/-! ## The body's block, row by row -/

/-- The offsets of a whole-buffer access are all zero (ranks 1, 3, 4). -/
theorem ka_hz1 : (![0] : Fin 1 → Nat) = fun _ => 0 := funext fun a => by fin_cases a <;> rfl
theorem ka_hz3 : (![0, 0, 0] : Fin 3 → Nat) = fun _ => 0 := funext fun a => by fin_cases a <;> rfl
theorem ka_hz4 : (![0, 0, 0, 0] : Fin 4 → Nat) = fun _ => 0 := funext fun a => by fin_cases a <;> rfl

/-- What the body leaves in the output block, at row (b, r) of a block: the one-hot log-probability of the block's rows.
    The one store covers the whole buffer, so the buffer holds its payload; every load reads a whole buffer; the payload is
    the log-softmax-and-select stage applied to the normalise-and-scale stage, and the row value is exactly that composite
    with the shift added inside. -/
theorem out0_8_apply (x0 : Vec Ideal S4x32x30x400 .f32) (x1 : Vec Ideal S4x32x20 .f32) (x2 : Vec Ideal S4x32x30 .i32)
    (x3 : Vec Ideal S4x32x1 .i32) (x4 : Vec Ideal S4x32x1 .f32) (x5 x6 : Vec Ideal S20 .f32) (x7 : Vec Ideal S400 .i32)
    (b : Fin 4) (r : Fin 32) :
    out0_8 (F := Ideal) x0 x1 x2 x3 x4 x5 x6 x7 (ix3 b r (0 : Fin 1))
      = Cert.Spec.kRow (n := 32) x1 x0 x2 x3 x4 x5 x6 x7 b r := by
  unfold out0_8
  rw [View.canon_unit_zero ka_hz3]
  simp only [View.ld_unit_zero (S := S400) ka_hz1, View.ld_unit_zero (S := S4x32x30) ka_hz3,
    View.ld_unit_zero (S := S4x32x30x400) ka_hz4, View.ld_unit_zero (S := S4x32x20) ka_hz3,
    View.ld_unit_zero (S := S20) ka_hz1, View.ld_unit_zero (S := S4x32x1) ka_hz3]
  refine (pay1_apply (k0_pay2 (F := Ideal) x7 x2 x0 x1 x5) x6 x3 x4 b r).trans ?_
  unfold Cert.Spec.kRow
  simp only [pay2_apply]

/-! ## Each window's block, read where the point's rectangle says -/

/-- The block indices at point t, decided over the 64 points: each of the five row-blocked windows and the output is at
    block t along the positions and block 0 on every other axis; the three whole-array windows are at block 0. -/
theorem ka_idx0 : ∀ t : Fin cfg0.N, win0_0.index t (0 : Fin 4) = 0 ∧ win0_0.index t (1 : Fin 4) = t.val
    ∧ win0_0.index t (2 : Fin 4) = 0 ∧ win0_0.index t (3 : Fin 4) = 0 :=
  (by decide +kernel : ∀ t : Fin grid0.N, _)
theorem ka_idx1 : ∀ t : Fin cfg0.N, win0_1.index t (0 : Fin 3) = 0 ∧ win0_1.index t (1 : Fin 3) = t.val
    ∧ win0_1.index t (2 : Fin 3) = 0 :=
  (by decide +kernel : ∀ t : Fin grid0.N, _)
theorem ka_idx2 : ∀ t : Fin cfg0.N, win0_2.index t (0 : Fin 3) = 0 ∧ win0_2.index t (1 : Fin 3) = t.val
    ∧ win0_2.index t (2 : Fin 3) = 0 :=
  (by decide +kernel : ∀ t : Fin grid0.N, _)
theorem ka_idx3 : ∀ t : Fin cfg0.N, win0_3.index t (0 : Fin 3) = 0 ∧ win0_3.index t (1 : Fin 3) = t.val
    ∧ win0_3.index t (2 : Fin 3) = 0 :=
  (by decide +kernel : ∀ t : Fin grid0.N, _)
theorem ka_idx4 : ∀ t : Fin cfg0.N, win0_4.index t (0 : Fin 3) = 0 ∧ win0_4.index t (1 : Fin 3) = t.val
    ∧ win0_4.index t (2 : Fin 3) = 0 :=
  (by decide +kernel : ∀ t : Fin grid0.N, _)
theorem ka_idx567 : ∀ t : Fin cfg0.N, win0_5.index t (0 : Fin 1) = 0 ∧ win0_6.index t (0 : Fin 1) = 0
    ∧ win0_7.index t (0 : Fin 1) = 0 :=
  (by decide +kernel : ∀ t : Fin grid0.N, _)
theorem ka_idx8 : ∀ t : Fin cfg0.N, win0_8.index t (0 : Fin 3) = 0 ∧ win0_8.index t (1 : Fin 3) = t.val
    ∧ win0_8.index t (2 : Fin 3) = 0 :=
  (by decide +kernel : ∀ t : Fin grid0.N, _)

/-- Entry (b, r, k, j) of the pair table's block at point t is entry (b, 32·t + r, k, j) of the table. -/
theorem ka_blk0_apply (c : Dev nD) (t : Fin cfg0.N) (b : Fin 4) (r : Fin 32) (k : Fin 30) (j : Fin 400) (l : Fin 2048)
    (hl : l.val = 32 * t.val + r.val) :
    (iblk m c 0 t : Vec Ideal S4x32x30x400 .f32) (ix4 b r k j)
      = (V m c main_arg1 : S4x2048x30x400.Idx → EReal) (ix4 b l k j) := by
  obtain ⟨e0, e1, e2, e3⟩ := ka_idx0 t
  unfold iblk
  rw [View.read_apply]
  show V m c main_arg1 _ = V m c main_arg1 _
  refine congrArg (V m c main_arg1 : S4x2048x30x400.Idx → EReal) ?_
  funext a
  apply Fin.ext
  match a with
  | ⟨0, _⟩ => show win0_0.index t (0 : Fin 4) * 4 + 1 * b.val = b.val; omega
  | ⟨1, _⟩ => show win0_0.index t (1 : Fin 4) * 32 + 1 * r.val = l.val; omega
  | ⟨2, _⟩ => show win0_0.index t (2 : Fin 4) * 30 + 1 * k.val = k.val; omega
  | ⟨3, _⟩ => show win0_0.index t (3 : Fin 4) * 400 + 1 * j.val = j.val; omega

/-- Entry (b, r, a) of the self terms' block at point t is entry (b, 32·t + r, a) of the self terms. -/
theorem ka_blk1_apply (c : Dev nD) (t : Fin cfg0.N) (b : Fin 4) (r : Fin 32) (a : Fin 20) (l : Fin 2048)
    (hl : l.val = 32 * t.val + r.val) :
    (iblk m c 1 t : Vec Ideal S4x32x20 .f32) (ix3 b r a)
      = (V m c main_arg0 : S4x2048x20.Idx → EReal) (ix3 b l a) := by
  obtain ⟨e0, e1, e2⟩ := ka_idx1 t
  unfold iblk
  rw [View.read_apply]
  show V m c main_arg0 _ = V m c main_arg0 _
  refine congrArg (V m c main_arg0 : S4x2048x20.Idx → EReal) ?_
  funext d
  apply Fin.ext
  match d with
  | ⟨0, _⟩ => show win0_1.index t (0 : Fin 3) * 4 + 1 * b.val = b.val; omega
  | ⟨1, _⟩ => show win0_1.index t (1 : Fin 3) * 32 + 1 * r.val = l.val; omega
  | ⟨2, _⟩ => show win0_1.index t (2 : Fin 3) * 20 + 1 * a.val = a.val; omega

/-- Entry (b, r, k) of the padded labels' block at point t is entry (b, 32·t + r, k) of the padded labels. -/
theorem ka_blk2_apply (c : Dev nD) (t : Fin cfg0.N) (b : Fin 4) (r : Fin 32) (k : Fin 30) (l : Fin 2048)
    (hl : l.val = 32 * t.val + r.val) :
    (iblk m c 2 t : Vec Ideal S4x32x30 .i32) (ix3 b r k)
      = (V m c main_v5 : S4x2048x30.Idx → BitVec 32) (ix3 b l k) := by
  obtain ⟨e0, e1, e2⟩ := ka_idx2 t
  unfold iblk
  rw [View.read_apply]
  show V m c main_v5 _ = V m c main_v5 _
  refine congrArg (V m c main_v5 : S4x2048x30.Idx → BitVec 32) ?_
  funext d
  apply Fin.ext
  match d with
  | ⟨0, _⟩ => show win0_2.index t (0 : Fin 3) * 4 + 1 * b.val = b.val; omega
  | ⟨1, _⟩ => show win0_2.index t (1 : Fin 3) * 32 + 1 * r.val = l.val; omega
  | ⟨2, _⟩ => show win0_2.index t (2 : Fin 3) * 30 + 1 * k.val = k.val; omega

/-- Entry (b, r, 0) of the label column's block at point t is entry (b, 32·t + r, 0) of the label column. -/
theorem ka_blk3_apply (c : Dev nD) (t : Fin cfg0.N) (b : Fin 4) (r : Fin 32) (l : Fin 2048)
    (hl : l.val = 32 * t.val + r.val) :
    (iblk m c 3 t : Vec Ideal S4x32x1 .i32) (ix3 b r (0 : Fin 1))
      = (V m c main_v6 : S4x2048x1.Idx → BitVec 32) (ix3 b l (0 : Fin 1)) := by
  obtain ⟨e0, e1, e2⟩ := ka_idx3 t
  unfold iblk
  rw [View.read_apply]
  show V m c main_v6 _ = V m c main_v6 _
  refine congrArg (V m c main_v6 : S4x2048x1.Idx → BitVec 32) ?_
  funext d
  apply Fin.ext
  match d with
  | ⟨0, _⟩ => show win0_3.index t (0 : Fin 3) * 4 + 1 * b.val = b.val; omega
  | ⟨1, _⟩ => show win0_3.index t (1 : Fin 3) * 32 + 1 * r.val = l.val; omega
  | ⟨2, _⟩ => show win0_3.index t (2 : Fin 3) * 1 + 1 * (0 : Fin 1).val = (0 : Fin 1).val; omega

/-- Entry (b, r, 0) of the mask column's block at point t is entry (b, 32·t + r, 0) of the mask column. -/
theorem ka_blk4_apply (c : Dev nD) (t : Fin cfg0.N) (b : Fin 4) (r : Fin 32) (l : Fin 2048)
    (hl : l.val = 32 * t.val + r.val) :
    (iblk m c 4 t : Vec Ideal S4x32x1 .f32) (ix3 b r (0 : Fin 1))
      = (V m c main_v7 : S4x2048x1.Idx → EReal) (ix3 b l (0 : Fin 1)) := by
  obtain ⟨e0, e1, e2⟩ := ka_idx4 t
  unfold iblk
  rw [View.read_apply]
  show V m c main_v7 _ = V m c main_v7 _
  refine congrArg (V m c main_v7 : S4x2048x1.Idx → EReal) ?_
  funext d
  apply Fin.ext
  match d with
  | ⟨0, _⟩ => show win0_4.index t (0 : Fin 3) * 4 + 1 * b.val = b.val; omega
  | ⟨1, _⟩ => show win0_4.index t (1 : Fin 3) * 32 + 1 * r.val = l.val; omega
  | ⟨2, _⟩ => show win0_4.index t (2 : Fin 3) * 1 + 1 * (0 : Fin 1).val = (0 : Fin 1).val; omega

/-- The scale's block at every point is the whole scale. -/
theorem ka_blk5_eq (c : Dev nD) (t : Fin cfg0.N) :
    (iblk m c 5 t : Vec Ideal S20 .f32) = (V m c main_arg5 : S20.Idx → EReal) := by
  obtain ⟨e5, e6, e7⟩ := ka_idx567 t
  funext y
  unfold iblk
  rw [View.read_apply]
  show V m c main_arg5 _ = V m c main_arg5 _
  refine congrArg (V m c main_arg5 : S20.Idx → EReal) ?_
  funext d
  apply Fin.ext
  match d with
  | ⟨0, _⟩ => show win0_5.index t (0 : Fin 1) * 20 + 1 * (y 0).val = (y 0).val; omega

/-- The shift's block at every point is the whole shift. -/
theorem ka_blk6_eq (c : Dev nD) (t : Fin cfg0.N) :
    (iblk m c 6 t : Vec Ideal S20 .f32) = (V m c main_arg6 : S20.Idx → EReal) := by
  obtain ⟨e5, e6, e7⟩ := ka_idx567 t
  funext y
  unfold iblk
  rw [View.read_apply]
  show V m c main_arg6 _ = V m c main_arg6 _
  refine congrArg (V m c main_arg6 : S20.Idx → EReal) ?_
  funext d
  apply Fin.ext
  match d with
  | ⟨0, _⟩ => show win0_6.index t (0 : Fin 1) * 20 + 1 * (y 0).val = (y 0).val; omega

/-- The column-label table's block at every point is the whole table. -/
theorem ka_blk7_eq (c : Dev nD) (t : Fin cfg0.N) :
    (iblk m c 7 t : Vec Ideal S400 .i32) = (V m c main_c : S400.Idx → BitVec 32) := by
  obtain ⟨e5, e6, e7⟩ := ka_idx567 t
  funext y
  unfold iblk
  rw [View.read_apply]
  show V m c main_c _ = V m c main_c _
  refine congrArg (V m c main_c : S400.Idx → BitVec 32) ?_
  funext d
  apply Fin.ext
  match d with
  | ⟨0, _⟩ => show win0_7.index t (0 : Fin 1) * 400 + 1 * (y 0).val = (y 0).val; omega

/-! ## From the rows of the blocks to the rows of the array -/

/-- A row of the output block depends on the blocks only through that row, so it is the row value of any whole arrays that
    agree with the blocks on it: the body's block read row by row, then the congruence of the row value. -/
theorem ka_row_of_blocks (x0 : Vec Ideal S4x32x30x400 .f32) (x1 : Vec Ideal S4x32x20 .f32) (x2 : Vec Ideal S4x32x30 .i32)
    (x3 : Vec Ideal S4x32x1 .i32) (x4 : Vec Ideal S4x32x1 .f32) (x5 x6 : Vec Ideal S20 .f32) (x7 : Vec Ideal S400 .i32)
    (A0 : S4x2048x20.Idx → EReal) (A1 : S4x2048x30x400.Idx → EReal) (A2 : S4x2048x30.Idx → BitVec 32)
    (A3 : S4x2048x1.Idx → BitVec 32) (A4 : S4x2048x1.Idx → EReal) (A5 A6 : S20.Idx → EReal) (A7 : S400.Idx → BitVec 32)
    (b : Fin 4) (r : Fin 32) (l : Fin 2048)
    (h0 : ∀ (k : Fin 30) (j : Fin 400), x0 (ix4 b r k j) = A1 (ix4 b l k j))
    (h1 : ∀ a : Fin 20, x1 (ix3 b r a) = A0 (ix3 b l a))
    (h2 : ∀ k : Fin 30, x2 (ix3 b r k) = A2 (ix3 b l k))
    (h3 : x3 (ix3 b r (0 : Fin 1)) = A3 (ix3 b l (0 : Fin 1)))
    (h4 : x4 (ix3 b r (0 : Fin 1)) = A4 (ix3 b l (0 : Fin 1)))
    (h5 : x5 = A5) (h6 : x6 = A6) (h7 : x7 = A7) :
    out0_8 (F := Ideal) x0 x1 x2 x3 x4 x5 x6 x7 (ix3 b r (0 : Fin 1))
      = Cert.Spec.kRow (n := 2048) A0 A1 A2 A3 A4 A5 A6 A7 b l := by
  subst h5 h6 h7
  exact (out0_8_apply x0 x1 x2 x3 x4 x5 x6 x7 b r).trans
    (Cert.Spec.kRow_congr x1 x0 x2 x3 x4 A0 A1 A2 A3 A4 x5 x6 x7 b r l h1 h0 h2 h3 h4)

/-- Row r of the block point t leaves is the kernel's log-probability of row 32·t + r of the arrays. -/
theorem ka_row_at (c : Dev nD) (t : Fin cfg0.N) (b : Fin 4) (r : Fin 32) (l : Fin 2048) (hl : l.val = 32 * t.val + r.val) :
    out0_8 (F := Ideal) (iblk m c 0 t) (iblk m c 1 t) (iblk m c 2 t) (iblk m c 3 t) (iblk m c 4 t) (iblk m c 5 t) (iblk m c 6 t) (iblk m c 7 t) (ix3 b r (0 : Fin 1))
      = kOut m c b l := by
  unfold kOut
  exact ka_row_of_blocks (iblk m c 0 t) (iblk m c 1 t) (iblk m c 2 t) (iblk m c 3 t) (iblk m c 4 t) (iblk m c 5 t)
    (iblk m c 6 t) (iblk m c 7 t) (V m c main_arg0) (V m c main_arg1) (V m c main_v5) (V m c main_v6) (V m c main_v7)
    (V m c main_arg5) (V m c main_arg6) (V m c main_c) b r l
    (fun k j => ka_blk0_apply m c t b r k j l hl) (fun a => ka_blk1_apply m c t b r a l hl)
    (fun k => ka_blk2_apply m c t b r k l hl) (ka_blk3_apply m c t b r l hl) (ka_blk4_apply m c t b r l hl)
    (ka_blk5_eq m c t) (ka_blk6_eq m c t) (ka_blk7_eq m c t)

/-- The output column the run leaves: entry (b, l, 0) is the kernel's log-probability of (b, l). -/
abbrev kCol (c : Dev nD) : S4x2048x1.Idx → EReal := fun i => kOut m c (i 0) (i 1)

/-- The same at any index j of the block and the index i of the column it is written to. -/
theorem ka_flushed_at (c : Dev nD) (t : Fin cfg0.N) (j : S4x32x1.Idx) (i : S4x2048x1.Idx)
    (h0 : (i 0).val = (j 0).val) (h1 : (i 1).val = 32 * t.val + (j 1).val) :
    out0_8 (F := Ideal) (iblk m c 0 t) (iblk m c 1 t) (iblk m c 2 t) (iblk m c 3 t) (iblk m c 4 t) (iblk m c 5 t) (iblk m c 6 t) (iblk m c 7 t) j
      = kOut m c (i 0) (i 1) := by
  have h2 : (j 2).val < 1 := (j 2).isLt
  have hj : j = ix3 (j 0) (j 1) (0 : Fin 1) :=
    (eq_ix3 j).trans (congrArg (ix3 (j 0) (j 1)) (Fin.ext (by show (j 2).val = 0; omega)))
  rw [hj]
  refine (ka_row_at m c t (j 0) (j 1) (i 1) h1).trans ?_
  exact congrArg (fun b' : Fin 4 => kOut m c b' (i 1)) (Fin.ext h0.symm)

/-- WHAT POINT t WRITES BACK is block t of the column of log-probabilities. -/
theorem ka_flushed_eq (c : Dev nD) (t : Fin cfg0.N) :
    (dats m 0 c).flushed 8 t = ((cfg0.win 8).blk t).view.read (Elt Ideal) (kCol m c) := by
  show (cfg0.win 8).cut (grid0.coords t) ((dats m 0 c).after 8 t) = _
  rw [after0_8]
  obtain ⟨e0, e1, e2⟩ := ka_idx8 t
  funext j
  show out0_8 (F := Ideal) (iblk m c 0 t) (iblk m c 1 t) (iblk m c 2 t) (iblk m c 3 t) (iblk m c 4 t) (iblk m c 5 t) (iblk m c 6 t) (iblk m c 7 t) j
      = kOut m c ((((cfg0.win 8).blk t).view.emb j) 0) ((((cfg0.win 8).blk t).view.emb j) 1)
  refine ka_flushed_at m c t j (((cfg0.win 8).blk t).view.emb j) ?_ ?_
  · show win0_8.index t (0 : Fin 3) * 4 + 1 * (j 0).val = (j 0).val; omega
  · show win0_8.index t (1 : Fin 3) * 32 + 1 * (j 1).val = 32 * t.val + (j 1).val; omega

/-- An index of the output column is in point t's block iff each coordinate is in the block's range on its axis. -/
theorem ka_mem_blk8 (t : Fin cfg0.N) (i : S4x2048x1.Idx) :
    i ∈ ((cfg0.win 8).blk t).view.set ↔ ∀ a : Fin 3, win0_8.index t a * S4x32x1.size a ≤ (i a).val ∧ (i a).val < win0_8.index t a * S4x32x1.size a + S4x32x1.size a := by
  show i ∈ ((View.whole main_v8).slice (win0_8.rect t)).set ↔ _
  rw [View.set_slice_whole, Rect.mem_set_unit]
  exact Iff.rfl

/-- Row l of the output column is covered by point l / 32, which writes its block back. -/
theorem ka_cover8 (i : S4x2048x1.Idx) :
    ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1 := (i 2).isLt
  have hN : cfg0.N = 64 := N_0
  obtain ⟨t, ht⟩ : ∃ t : Fin cfg0.N, t.val = (i 1).val / 32 :=
    ⟨⟨(i 1).val / 32, lt_of_lt_of_eq (by omega) hN.symm⟩, rfl⟩
  refine ⟨t, flush0_8 t, ?_⟩
  obtain ⟨e0, e1, e2⟩ := ka_idx8 t
  rw [ka_mem_blk8]
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 32 ≤ (i 1).val ∧ (i 1).val < win0_8.index t (1 : Fin 3) * 32 + 32; omega
  | ⟨2, _⟩ => show win0_8.index t (2 : Fin 3) * 1 ≤ (i 2).val ∧ (i 2).val < win0_8.index t (2 : Fin 3) * 1 + 1; omega

/-- The output array after the run, as a whole: the column of log-probabilities (every row is covered, and every point
    writes its block of that one column). -/
theorem ka_final8_arr (c : Dev nD) : (dats m 0 c).arrAt 8 cfg0.N = kCol m c :=
  (dats m 0 c).arrAt_eq_of_cover 8 (kCol m c) (fun t _ => ka_flushed_eq m c t) ka_cover8

/-- The output array after the run: row (b, l) holds the kernel's log-probability of (b, l). -/
theorem final8 (c : Dev nD) (b : Fin 4) (l : Fin 2048) :
    ((dats m 0 c).arrAt 8 cfg0.N : S4x2048x1.Idx → EReal) (ix3 b l (0 : Fin 1)) = kOut m c b l := by
  have h := congrFun (ka_final8_arr m c) (ix3 b l (0 : Fin 1))
  exact h

/-! ## The host operations after the region -/

/-- The core's buffers as the region leaves them: the pipeline's arrays as the write-backs left them, every other buffer
    as the region found it. -/
abbrev ka_exit (c : Dev nD) : Valuation τ sig (Elt Ideal) :=
  Pipeline.withArrays (cfgs 0).spec c (V0 m c) fun w => (dats m 0 c).arrAt w (cfgs 0).N

/-- The output column with its unit axis dropped, read at (b, l): position (b, l) of [4, 2048] and position (b, l, 0) of
    [4, 2048, 1] are the same place in row-major order. -/
theorem ka_v9_apply (c : Dev nD) (i : S4x2048.Idx) :
    shapeCast S4x2048 (ka_exit m c (Proc.devRef .tc main_v8) : S4x2048x1.Idx → EReal) shapeCasts_S4x2048x1_S4x2048 i
      = kOut m c (i 0) (i 1) := by
  refine (shapeCast_apply _ shapeCasts_S4x2048x1_S4x2048 i (ix3 (i 0) (i 1) (0 : Fin 1)) ?_).trans ?_
  · rw [Shape.rowMajor_val_three, Shape.rowMajor_val_two]
    show ((i 0).val * 2048 + (i 1).val) * 1 + 0 = (i 0).val * 2048 + (i 1).val
    omega
  · refine (congrFun (Pipeline.withArrays_arr (cfgs 0).spec launch0.win.arr_inj c (V0 m c)
      (fun w => (dats m 0 c).arrAt w (cfgs 0).N) 8) (ix3 (i 0) (i 1) (0 : Fin 1))).trans ?_
    exact final8 m c (i 0) (i 1)

/-- The mask array is no array of the pipeline and no host operation before the region writes it. -/
theorem ka_exit_arg4 (c : Dev nD) : ka_exit m c (Proc.devRef .tc main_arg4) = m ((c.tc : Thread nD τ).loc main_arg4) :=
  (Pipeline.withArrays_of_ne (cfgs 0).spec c (V0 m c) (fun w => (dats m 0 c).arrAt w (cfgs 0).N) main_arg4
    (by exact (by decide : ∀ w, Pipeline.arrRef spec0 w ≠ main_arg4))).trans
    (V_main_arg4 m c)

/-- The host operations after the region, as one function of the two arrays they read, are the shared tail. -/
theorem ka_tail_congr {X X' Y Y' : FVec Ideal S4x2048 .f32} (hX : X = X') (hY : Y = Y') :
    Host.negf (F := Ideal)
      (Host.divf (F := Ideal)
        (Host.reduceAdd (F := Ideal)
          (Host.divf (F := Ideal)
            (Host.reduceAdd (F := Ideal) X (constant (F := Ideal) S_ .f32 0x00000000#32) reducesTo_S4x2048_S4_d1 h_S_)
            (Host.reduceAdd (F := Ideal) Y (constant (F := Ideal) S_ .f32 0x00000000#32) reducesTo_S4x2048_S4_d1 h_S_))
          (constant (F := Ideal) S_ .f32 0x00000000#32) reducesTo_S4_S_d0 h_S_)
        (constant (F := Ideal) S_ .f32 0x40800000#32))
      = Cert.Spec.tail reducesTo_S4x2048_S4_d1 reducesTo_S4_S_d0 h_S_ X' Y' := by
  subst hX hY
  rfl

/-- What the host operations after the region leave in the result buffer: the shared tail of the kernel's
    log-probabilities and the mask. -/
theorem ka_tail_eq (c : Dev nD) :
    Pipeline.afterTail₀ cfgs (dats m) 0 (V0 m) [hostOps1] c main_v15
      = Cert.Spec.tail reducesTo_S4x2048_S4_d1 reducesTo_S4_S_d0 h_S_
          (fun i => kOut m c (i 0) (i 1)) (m ((c.tc : Thread nD τ).loc main_arg4)) := by
  unfold Pipeline.afterTail₀
  show StableHlo.after hostOps1 (ka_exit m c) (Proc.devRef .tc main_v15) = _
  after_results
  refine ka_tail_congr ?_ ?_
  · funext i
    exact ka_v9_apply m c i
  · exact ka_exit_arg4 m c

/-! ## The run -/

/-- The kernel program's run, its result named: every weakly fair execution terminates with the result at the shared tail of
    the kernel's log-probabilities and the mask, the arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v15)
          = Cert.Spec.tail reducesTo_S4x2048_S4_d1 reducesTo_S4_S_d0 h_S_
              (fun i => kOut m c (i 0) (i 1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v15 (Pipeline.mem_restRefs_of main_v15 (by decide) (by decide))).trans (ka_tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Hand

end
-- ==== Proof.PreDecode.lean ====
/-
  What the precondition says of the two integer inputs: every neighbour position lies inside the position axis
  (0 ≤ · < 2048) and every label is an amino-acid (0 ≤ · < 20), as numbers.

  The precondition is a conjunction (an `and` of one-bit words) of seven "for all elements" tests, each a
  reduction by `and` over every axis of a one-bit array, started at 1. A conjunction of bits is 1 only when both
  bits are 1, and such a reduction is 1 only when every element is 1. The sixth and seventh tests hold, at each
  element, the bit "w ≥ 0 signed" and the bit "w < n signed" of the word w stored there, with n = 2048 for the
  neighbour positions and n = 20 for the labels. A 32-bit word whose signed value is at least 0 has its top bit
  clear, so its signed value is its value as a number; that value is then below n.
-/
import proofs.«431343_j9320079033225_1_alg».proof.Pre_finite_inputs
import proofs.«431343_j9320079033225_1_alg».proof.Proof.Gen.Pre_finite_inputs
import Idealize.ShloMosaic.Lib.ReduceAll
import Idealize.ShloMosaic.Lib.StableHlo.Predicate

noncomputable section

namespace Cert.Pre_finite_inputs.Hand

open Cert.Pre_finite_inputs Cert.Pre_finite_inputs.Gen Idealize.ShloMosaic

variable {F : FTy → Type} [FloatOps F]

/-- A word that is at least 0 and below n when read signed (n below 2³¹) is below n when read as a number:
    were its top bit set its signed value would be negative, so the top bit is clear and the two readings agree. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, BitVec.toInt_zero] at h0
  rw [IntOp.cmpi_slt, StableHlo.Predicate.toInt_ofNat_small n hn] at h1
  have hw := w.isLt
  by_cases hc : 2 * w.toNat < 2 ^ 32
  · rw [BitVec.toInt_eq_toNat_cond, if_pos hc] at h1
    omega
  · rw [BitVec.toInt_eq_toNat_cond, if_neg hc] at h0
    omega

/-- The result of the precondition has rank 0: one index. -/
local instance subsingleton_idx0 : Subsingleton S_.Idx := ⟨fun a b => funext fun d => d.elim0⟩

/-- The one index of a rank-0 array. -/
private abbrev i0 : S_.Idx := fun d => d.elim0

/-- Every neighbour position is below 2048 as a number (so it is non-negative as a signed word, too). -/
theorem eidx_lt (a0 : FVec F S4x2048x20 .f32) (a1 : FVec F S4x2048x30x400 .f32) (a2 : IVec S4x2048x30 32) (a3 : IVec S4x2048 32)
    (a4 : FVec F S4x2048 .f32) (a5 a6 : FVec F S20 .f32)
    (h : Cert.Pre_finite_inputs.fn (F := F) a0 a1 a2 a3 a4 a5 a6 = fun _ => 1#1) : ∀ i, (a2 i).toNat < 2048 := by
  intro i
  have e := congrFun h i0
  -- the chain of lets, opened: the outer two conjunctions split off the sixth test
  dsimp only [fn, fn_part1, fn_part2, andi] at e
  obtain ⟨e30, -⟩ := IntOp.andi_eq_one.1 e
  obtain ⟨-, e29⟩ := IntOp.andi_eq_one.1 e30
  -- every element of the reduced array is 1; at i, both comparison bits are 1
  have ei := Host.reduce_andi_all _ _ _ _ _ e29 i
  dsimp only [andi, cmpi, broadcastInDim, constantI] at ei
  obtain ⟨hge, hlt⟩ := IntOp.andi_eq_one.1 ei
  exact toNat_lt_of_signed_range (a2 i) 2048 (by decide) hge hlt

/-- Every label is below 20 as a number. -/
theorem seqs_lt (a0 : FVec F S4x2048x20 .f32) (a1 : FVec F S4x2048x30x400 .f32) (a2 : IVec S4x2048x30 32) (a3 : IVec S4x2048 32)
    (a4 : FVec F S4x2048 .f32) (a5 a6 : FVec F S20 .f32)
    (h : Cert.Pre_finite_inputs.fn (F := F) a0 a1 a2 a3 a4 a5 a6 = fun _ => 1#1) : ∀ i, (a3 i).toNat < 20 := by
  intro i
  have e := congrFun h i0
  -- the chain of lets, opened: the outermost conjunction splits off the seventh test
  dsimp only [fn, fn_part1, fn_part2, andi] at e
  obtain ⟨-, e36⟩ := IntOp.andi_eq_one.1 e
  have ei := Host.reduce_andi_all _ _ _ _ _ e36 i
  dsimp only [andi, cmpi, broadcastInDim, constantI] at ei
  obtain ⟨hge, hlt⟩ := IntOp.andi_eq_one.1 ei
  exact toNat_lt_of_signed_range (a3 i) 20 (by decide) hge hlt

end Cert.Pre_finite_inputs.Hand

end
-- ==== Proof.lean ====
/-
  The certificate of the Potts pseudo-likelihood loss kernel against its jnp reference, over the extended reals.

  Both programs compute, per residue, the log-softmax over the twenty amino-acids of the negated, layer-normalised
  energies, read at the residue's own label and weighted by its mask, and return minus the batch mean of
  (sum of log-probabilities / sum of the mask). They differ in how an array is read AT a label: the reference gathers;
  the kernel multiplies by a one-hot weight and sums. The two agree exactly when every label is an amino-acid
  (0 ≤ label < 20) and every neighbour position is a position (0 ≤ position < 2048): outside that range the reference's
  gathers wrap or fill, the kernel's weights are all zero. Under that range, which the precondition states, a product
  with the weight zero is zero on every extended real and the sums commute and associate, so no finiteness is used.

  The kernel's frames are generated; the reference's frame is its run with the result dropped; nothing was rewritten by
  the idealisation, so `preserves` is trivial; `algebraic` states both runs' results as the shared closing operations
  applied to the specified log-probabilities.
-/
import proofs.«431343_j9320079033225_1_alg».proof.Defs
import proofs.«431343_j9320079033225_1_alg».proof.Proof.Gen.Kernel
import proofs.«431343_j9320079033225_1_alg».proof.Proof.Gen.Kernel.Frame
import proofs.«431343_j9320079033225_1_alg».proof.Proof.Gen.KernelIdeal
import proofs.«431343_j9320079033225_1_alg».proof.Proof.Gen.KernelIdeal.Frame
import proofs.«431343_j9320079033225_1_alg».proof.Proof.Gen.ReferenceIdeal
import proofs.«431343_j9320079033225_1_alg».proof.Proof.Gen.Pre_finite_inputs
import proofs.«431343_j9320079033225_1_alg».proof.Proof.RefRun
import proofs.«431343_j9320079033225_1_alg».proof.Proof.RefValue
import proofs.«431343_j9320079033225_1_alg».proof.Proof.KerHost
import proofs.«431343_j9320079033225_1_alg».proof.Proof.KerArr
import proofs.«431343_j9320079033225_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run_value (F := Ideal) m ρ)

/-- The kernel's log-probabilities are the specified ones, where the precondition's ranges hold. -/
theorem kOut_eq (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 4) (l : Fin 2048) :
    Cert.KernelIdeal.Hand.kOut m c b l
      = Cert.Spec.rowOut
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) b l := by
  have hE := Cert.Pre_finite_inputs.Hand.eidx_lt (F := Ideal) _ _ _ _ _ _ _ (hpre c)
  have hS := Cert.Pre_finite_inputs.Hand.seqs_lt (F := Ideal) _ _ _ _ _ _ _ (hpre c)
  unfold Cert.KernelIdeal.Hand.kOut
  rw [Cert.KernelIdeal.Gen.V_main_arg0 m c, Cert.KernelIdeal.Gen.V_main_arg1 m c, Cert.KernelIdeal.Gen.V_main_arg5 m c,
    Cert.KernelIdeal.Gen.V_main_arg6 m c]
  exact Cert.Spec.kRow_eq _ _ _ _ _ _ _ _ _ _ _ hS
    (Cert.KernelIdeal.Hand.V_tab m c) (Cert.KernelIdeal.Hand.V_eaa_zero m c)
    (fun b l k => (Cert.KernelIdeal.Hand.V_eaa_succ m c b l k).trans
      (Cert.ReferenceIdeal.Hand.eaaFn_apply _ _ hE b l k))
    (Cert.KernelIdeal.Hand.V_seqs m c) (Cert.KernelIdeal.Hand.V_mask m c) b l

/-- Both runs end at the shared closing operations applied to the specified log-probabilities of the kernel's arguments:
    the kernel's by `kOut_eq`, the reference's — its arguments agreeing with the kernel's — by `refFn_eq`. -/
theorem algebraic : Cert.algebraic_KernelIdeal_ReferenceIdeal := by
  intro m ρ m' ρ' hpre hagree
  refine ⟨fun c => Cert.Spec.tail Cert.KernelIdeal.Gen.reducesTo_S4x2048_S4_d1 Cert.KernelIdeal.Gen.reducesTo_S4_S_d0
      Cert.KernelIdeal.Gen.h_S_
      (Cert.Spec.outArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Hand.kernel_run m ρ)
    refine congrArg (fun o => Cert.Spec.tail Cert.KernelIdeal.Gen.reducesTo_S4x2048_S4_d1
      Cert.KernelIdeal.Gen.reducesTo_S4_S_d0 Cert.KernelIdeal.Gen.h_S_ o _) ?_
    funext i
    obtain ⟨b, l, rfl⟩ : ∃ (b : Fin 4) (l : Fin 2048), i = ix2 b l := ⟨i 0, i 1, eq_ix2 i⟩
    exact (kOut_eq m hpre c b l).trans (Cert.Spec.outArr_apply _ _ _ _ _ _ _ b l).symm
  · have hE := fun c => Cert.Pre_finite_inputs.Hand.eidx_lt (F := Ideal) _ _ _ _ _ _ _ (hpre c)
    have hS := fun c => Cert.Pre_finite_inputs.Hand.seqs_lt (F := Ideal) _ _ _ _ _ _ _ (hpre c)
    refine (θ_run Cert.ReferenceIdeal.defs _ _).mono (fun r h c => ⟨(h c).1.trans ?_, (h c).2⟩)
      (Cert.ReferenceIdeal.Hand.run_value (F := Ideal) m' ρ')
    rw [(hagree c).1, (hagree c).2.1, (hagree c).2.2.1, (hagree c).2.2.2.1, (hagree c).2.2.2.2.1,
      (hagree c).2.2.2.2.2.1, (hagree c).2.2.2.2.2.2]
    exact Cert.ReferenceIdeal.Hand.refFn_eq _ _ _ _ _ _ _ (hE c) (hS c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
